-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x64 : Shape := ⟨2, ![12288, 64]⟩
abbrev S12288x12288 : Shape := ⟨2, ![12288, 12288]⟩
abbrev S64x64 : Shape := ⟨2, ![64, 64]⟩
abbrev S192x64 : Shape := ⟨2, ![192, 64]⟩
abbrev S192 : Shape := ⟨1, ![192]⟩
abbrev S_ : Shape := ⟨0, ![]⟩

class Facts : Prop where
  bcast_S_S12288x64 : S_.BroadcastsInDim S12288x64 (![] : Fin 0 → Fin S12288x64.rank)
  reducesTo_S12288x64_S_d0_1 : S12288x64.ReducesTo [0, 1] S_
  h_S_ : 0 < S_.numel
  bcast_S_S12288x12288 : S_.BroadcastsInDim S12288x12288 (![] : Fin 0 → Fin S12288x12288.rank)
  reducesTo_S12288x12288_S_d0_1 : S12288x12288.ReducesTo [0, 1] S_
  bcast_S_S64x64 : S_.BroadcastsInDim S64x64 (![] : Fin 0 → Fin S64x64.rank)
  reducesTo_S64x64_S_d0_1 : S64x64.ReducesTo [0, 1] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_

variable [Facts]

def fn_part3 {F : FTy → Type} [FloatOps F] (main_arg11 : FVec F S192 .f32) (main_v48 : IVec S_ 1) (main_v49 : FVec F S192 .f32) (main_v50 : FVec F S192 .f32) : IVec S_ 1 :=
  let main_v51 : IVec S192 1 := cmpf .olt main_v49 main_v50
  let main_c_19 : IVec S_ 1 := constantI S_ 1 1#1
  let main_v52 : IVec S_ 1 := (fun x v => Host.reduce IntOp.andi x v reducesTo_S192_S_d0 h_S_) main_v51 main_c_19
  let main_v53 : IVec S_ 1 := andi main_v48 main_v52
  let main_v54 : FVec F S192 .f32 := Host.absf main_arg11
  let main_cst_20 : FVec F S_ .f32 := constant S_ .f32 0x7F800000#32
  let main_v55 : FVec F S192 .f32 := broadcastInDim S192 ![] bcast_S_S192 main_cst_20
  let main_v56 : IVec S192 1 := cmpf .olt main_v54 main_v55
  let main_c_21 : IVec S_ 1 := constantI S_ 1 1#1
  let main_v57 : IVec S_ 1 := (fun x v => Host.reduce IntOp.andi x v reducesTo_S192_S_d0 h_S_) main_v56 main_c_21
  let main_v58 : IVec S_ 1 := andi main_v53 main_v57
  main_v58

def fn_part2 {F : FTy → Type} [FloatOps F] (main_arg7 : FVec F S64x64 .f32) (main_arg8 : FVec F S192x64 .f32) (main_arg9 : FVec F S192x64 .f32) (main_arg10 : FVec F S192 .f32) (main_arg11 : FVec F S192 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S192x64 .f32 := Host.absf main_arg8
  let main_cst_14 : FVec F S_ .f32 := constant S_ .f32 0x7F800000#32
  let main_v40 : FVec F S192x64 .f32 := broadcastInDim S192x64 ![] bcast_S_S192x64 main_cst_14
  let main_v41 : IVec S192x64 1 := cmpf .olt main_v39 main_v40
  let main_c_15 : IVec S_ 1 := constantI S_ 1 1#1
  let main_v42 : IVec S_ 1 := (fun x v => Host.reduce IntOp.andi x v reducesTo_S192x64_S_d0_1 h_S_) main_v41 main_c_15
  let main_v43 : IVec S_ 1 := andi main_v38 main_v42
  let main_v44 : FVec F S192x64 .f32 := Host.absf main_arg9
  let main_cst_16 : FVec F S_ .f32 := constant S_ .f32 0x7F800000#32
  let main_v45 : FVec F S192x64 .f32 := broadcastInDim S192x64 ![] bcast_S_S192x64 main_cst_16
  let main_v46 : IVec S192x64 1 := cmpf .olt main_v44 main_v45
  let main_c_17 : IVec S_ 1 := constantI S_ 1 1#1
  let main_v47 : IVec S_ 1 := (fun x v => Host.reduce IntOp.andi x v reducesTo_S192x64_S_d0_1 h_S_) main_v46 main_c_17
  let main_v48 : IVec S_ 1 := andi main_v43 main_v47
  let main_v49 : FVec F S192 .f32 := Host.absf main_arg10
  let main_cst_18 : FVec F S_ .f32 := constant S_ .f32 0x7F800000#32
  let main_v50 : FVec F S192 .f32 := broadcastInDim S192 ![] bcast_S_S192 main_cst_18
  fn_part3 (F := F) main_arg11 main_v48 main_v49 main_v50

def fn_part1 {F : FTy → Type} [FloatOps F] (main_arg4 : FVec F S192x64 .f32) (main_arg5 : FVec F S192 .f32) (main_arg6 : FVec F S192 .f32) (main_arg7 : FVec F S64x64 .f32) (main_arg8 : FVec F S192x64 .f32) (main_arg9 : FVec F S192x64 .f32) (main_arg10 : FVec F S192 .f32) (main_arg11 : FVec F S192 .f32) (main_v13 : IVec S_ 1) (main_v16 : IVec S192x64 1) : IVec S_ 1 :=
  let main_c_5 : IVec S_ 1 := constantI S_ 1 1#1
  let main_v17 : IVec S_ 1 := (fun x v => Host.reduce IntOp.andi x v reducesTo_S192x64_S_d0_1 h_S_) main_v16 main_c_5
  let main_v18 : IVec S_ 1 := andi main_v13 main_v17
  let main_v19 : FVec F S192x64 .f32 := Host.absf main_arg4
  let main_cst_6 : FVec F S_ .f32 := constant S_ .f32 0x7F800000#32
  let main_v20 : FVec F S192x64 .f32 := broadcastInDim S192x64 ![] bcast_S_S192x64 main_cst_6
  let main_v21 : IVec S192x64 1 := cmpf .olt main_v19 main_v20
  let main_c_7 : IVec S_ 1 := constantI S_ 1 1#1
  let main_v22 : IVec S_ 1 := (fun x v => Host.reduce IntOp.andi x v reducesTo_S192x64_S_d0_1 h_S_) main_v21 main_c_7
  let main_v23 : IVec S_ 1 := andi main_v18 main_v22
  let main_v24 : FVec F S192 .f32 := Host.absf main_arg5
  let main_cst_8 : FVec F S_ .f32 := constant S_ .f32 0x7F800000#32
  let main_v25 : FVec F S192 .f32 := broadcastInDim S192 ![] bcast_S_S192 main_cst_8
  let main_v26 : IVec S192 1 := cmpf .olt main_v24 main_v25
  let main_c_9 : IVec S_ 1 := constantI S_ 1 1#1
  let main_v27 : IVec S_ 1 := (fun x v => Host.reduce IntOp.andi x v reducesTo_S192_S_d0 h_S_) main_v26 main_c_9
  let main_v28 : IVec S_ 1 := andi main_v23 main_v27
  let main_v29 : FVec F S192 .f32 := Host.absf main_arg6
  let main_cst_10 : FVec F S_ .f32 := constant S_ .f32 0x7F800000#32
  let main_v30 : FVec F S192 .f32 := broadcastInDim S192 ![] bcast_S_S192 main_cst_10
  let main_v31 : IVec S192 1 := cmpf .olt main_v29 main_v30
  let main_c_11 : IVec S_ 1 := constantI S_ 1 1#1
  let main_v32 : IVec S_ 1 := (fun x v => Host.reduce IntOp.andi x v reducesTo_S192_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S12288x64 .f32) (main_arg1 : FVec F S12288x12288 .f32) (main_arg2 : FVec F S64x64 .f32) (main_arg3 : FVec F S192x64 .f32) (main_arg4 : FVec F S192x64 .f32) (main_arg5 : FVec F S192 .f32) (main_arg6 : FVec F S192 .f32) (main_arg7 : FVec F S64x64 .f32) (main_arg8 : FVec F S192x64 .f32) (main_arg9 : FVec F S192x64 .f32) (main_arg10 : FVec F S192 .f32) (main_arg11 : FVec F S192 .f32) : IVec S_ 1 :=
  let main_v0 : FVec F S12288x64 .f32 := Host.absf main_arg0
  let main_cst : FVec F S_ .f32 := constant S_ .f32 0x7F800000#32
  let main_v1 : FVec F S12288x64 .f32 := broadcastInDim S12288x64 ![] bcast_S_S12288x64 main_cst
  let main_v2 : IVec S12288x64 1 := cmpf .olt main_v0 main_v1
  let main_c : IVec S_ 1 := constantI S_ 1 1#1
  let main_v3 : IVec S_ 1 := (fun x v => Host.reduce IntOp.andi x v reducesTo_S12288x64_S_d0_1 h_S_) main_v2 main_c
  let main_v4 : FVec F S12288x12288 .f32 := Host.absf main_arg1
  let main_cst_0 : FVec F S_ .f32 := constant S_ .f32 0x7F800000#32
  let main_v5 : FVec F S12288x12288 .f32 := broadcastInDim S12288x12288 ![] bcast_S_S12288x12288 main_cst_0
  let main_v6 : IVec S12288x12288 1 := cmpf .olt main_v4 main_v5
  let main_c_1 : IVec S_ 1 := constantI S_ 1 1#1
  let main_v7 : IVec S_ 1 := (fun x v => Host.reduce IntOp.andi x v reducesTo_S12288x12288_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S192x64 .f32 := Host.absf main_arg3
  let main_cst_4 : FVec F S_ .f32 := constant S_ .f32 0x7F800000#32
  let main_v15 : FVec F S192x64 .f32 := broadcastInDim S192x64 ![] bcast_S_S192x64 main_cst_4
  let main_v16 : IVec S192x64 1 := cmpf .olt main_v14 main_v15
  fn_part1 (F := F) main_arg4 main_arg5 main_arg6 main_arg7 main_arg8 main_arg9 main_arg10 main_arg11 main_v13 main_v16
-- ==== Kernel.lean ====
abbrev S12288x64 : Shape := ⟨2, ![12288, 64]⟩
abbrev S12288x12288 : Shape := ⟨2, ![12288, 12288]⟩
abbrev S64x64 : Shape := ⟨2, ![64, 64]⟩
abbrev S192x64 : Shape := ⟨2, ![192, 64]⟩
abbrev S192 : Shape := ⟨1, ![192]⟩
abbrev S3072x1024 : Shape := ⟨2, ![3072, 1024]⟩
abbrev S1024x64 : Shape := ⟨2, ![1024, 64]⟩
abbrev S3072x64 : Shape := ⟨2, ![3072, 64]⟩
abbrev S64x192 : Shape := ⟨2, ![64, 192]⟩
abbrev S12288x192 : Shape := ⟨2, ![12288, 192]⟩
abbrev S1x192 : Shape := ⟨2, ![1, 192]⟩
abbrev S_ : Shape := ⟨0, ![]⟩

abbrev nBuf : Space → Nat
  | .hbm => 108
  | .vmem => 14
  | .smem => 0
  | _ => 0

abbrev bufTy : (tb : Table) → Fin (tcTables nBuf tb) → BufTy
  | .hbm, ⟨0, _⟩ => ⟨S12288x64, .f32⟩
  | .hbm, ⟨1, _⟩ => ⟨S12288x12288, .f32⟩
  | .hbm, ⟨2, _⟩ => ⟨S64x64, .f32⟩
  | .hbm, ⟨3, _⟩ => ⟨S192x64, .f32⟩
  | .hbm, ⟨4, _⟩ => ⟨S192x64, .f32⟩
  | .hbm, ⟨5, _⟩ => ⟨S192, .f32⟩
  | .hbm, ⟨6, _⟩ => ⟨S192, .f32⟩
  | .hbm, ⟨7, _⟩ => ⟨S64x64, .f32⟩
  | .hbm, ⟨8, _⟩ => ⟨S192x64, .f32⟩
  | .hbm, ⟨9, _⟩ => ⟨S192x64, .f32⟩
  | .hbm, ⟨10, _⟩ => ⟨S192, .f32⟩
  | .hbm, ⟨11, _⟩ => ⟨S192, .f32⟩
  | .hbm, ⟨12, _⟩ => ⟨S12288x64, .f32⟩
  | .hbm, ⟨13, _⟩ => ⟨S12288x64, .f32⟩
  | .hbm, ⟨14, _⟩ => ⟨S64x192, .f32⟩
  | .hbm, ⟨15, _⟩ => ⟨S12288x192, .f32⟩
  | .hbm, ⟨16, _⟩ => ⟨S1x192, .f32⟩
  | .hbm, ⟨17, _⟩ => ⟨S12288x192, .f32⟩
  | .hbm, ⟨18, _⟩ => ⟨S12288x192, .f32⟩
  | .hbm, ⟨19, _⟩ => ⟨S64x192, .f32⟩
  | .hbm, ⟨20, _⟩ => ⟨S12288x192, .f32⟩
  | .hbm, ⟨21, _⟩ => ⟨S1x192, .f32⟩
  | .hbm, ⟨22, _⟩ => ⟨S12288x192, .f32⟩
  | .hbm, ⟨23, _⟩ => ⟨S12288x192, .f32⟩
  | .hbm, ⟨24, _⟩ => ⟨S12288x64, .f32⟩
  | .hbm, ⟨25, _⟩ => ⟨S12288x64, .f32⟩
  | .hbm, ⟨26, _⟩ => ⟨S12288x64, .f32⟩
  | .hbm, ⟨27, _⟩ => ⟨S12288x64, .f32⟩
  | .hbm, ⟨28, _⟩ => ⟨S12288x64, .f32⟩
  | .hbm, ⟨29, _⟩ => ⟨S12288x64, .f32⟩
  | .hbm, ⟨30, _⟩ => ⟨S12288x64, .f32⟩
  | .hbm, ⟨31, _⟩ => ⟨S12288x64, .f32⟩
  | .hbm, ⟨32, _⟩ => ⟨S12288x64, .f32⟩
  | .hbm, ⟨33, _⟩ => ⟨S_, .f32⟩
  | .hbm, ⟨34, _⟩ => ⟨S12288x64, .f32⟩
  | .hbm, ⟨35, _⟩ => ⟨S12288x64, .f32⟩
  | .hbm, ⟨36, _⟩ => ⟨S_, .f32⟩
  | .hbm, ⟨37, _⟩ => ⟨S12288x64, .f32⟩
  | .hbm, ⟨38, _⟩ => ⟨S12288x64, .f32⟩
  | .hbm, ⟨39, _⟩ => ⟨S12288x64, .f32⟩
  | .hbm, ⟨40, _⟩ => ⟨S12288x64, .f32⟩
  | .hbm, ⟨41, _⟩ => ⟨S12288x64, .f32⟩
  | .hbm, ⟨42, _⟩ => ⟨S_, .f32⟩
  | .hbm, ⟨43, _⟩ => ⟨S12288x64, .f32⟩
  | .hbm, ⟨44, _⟩ => ⟨S12288x64, .f32⟩
  | .hbm, ⟨45, _⟩ => ⟨S_, .f32⟩
  | .hbm, ⟨46, _⟩ => ⟨S12288x64, .f32⟩
  | .hbm, ⟨47, _⟩ => ⟨S12288x64, .f32⟩
  | .hbm, ⟨48, _⟩ => ⟨S12288x64, .f32⟩
  | .hbm, ⟨49, _⟩ => ⟨S12288x64, .f32⟩
  | .hbm, ⟨50, _⟩ => ⟨S12288x64, .f32⟩
  | .hbm, ⟨51, _⟩ => ⟨S_, .f32⟩
  | .hbm, ⟨52, _⟩ => ⟨S12288x64, .f32⟩
  | .hbm, ⟨53, _⟩ => ⟨S12288x64, .f32⟩
  | .hbm, ⟨54, _⟩ => ⟨S12288x64, .f32⟩
  | .hbm, ⟨55, _⟩ => ⟨S12288x64, .f32⟩
  | .hbm, ⟨56, _⟩ => ⟨S12288x64, .f32⟩
  | .hbm, ⟨57, _⟩ => ⟨S_, .f32⟩
  | .hbm, ⟨58, _⟩ => ⟨S12288x64, .f32⟩
  | .hbm, ⟨59, _⟩ => ⟨S12288x64, .f32⟩
  | .hbm, ⟨60, _⟩ => ⟨S12288x64, .f32⟩
  | .hbm, ⟨61, _⟩ => ⟨S12288x64, .f32⟩
  | .hbm, ⟨62, _⟩ => ⟨S64x192, .f32⟩
  | .hbm, ⟨63, _⟩ => ⟨S12288x192, .f32⟩
  | .hbm, ⟨64, _⟩ => ⟨S1x192, .f32⟩
  | .hbm, ⟨65, _⟩ => ⟨S12288x192, .f32⟩
  | .hbm, ⟨66, _⟩ => ⟨S12288x192, .f32⟩
  | .hbm, ⟨67, _⟩ => ⟨S64x192, .f32⟩
  | .hbm, ⟨68, _⟩ => ⟨S12288x192, .f32⟩
  | .hbm, ⟨69, _⟩ => ⟨S1x192, .f32⟩
  | .hbm, ⟨70, _⟩ => ⟨S12288x192, .f32⟩
  | .hbm, ⟨71, _⟩ => ⟨S12288x192, .f32⟩
  | .hbm, ⟨72, _⟩ => ⟨S12288x64, .f32⟩
  | .hbm, ⟨73, _⟩ => ⟨S12288x64, .f32⟩
  | .hbm, ⟨74, _⟩ => ⟨S12288x64, .f32⟩
  | .hbm, ⟨75, _⟩ => ⟨S12288x64, .f32⟩
  | .hbm, ⟨76, _⟩ => ⟨S12288x64, .f32⟩
  | .hbm, ⟨77, _⟩ => ⟨S12288x64, .f32⟩
  | .hbm, ⟨78, _⟩ => ⟨S12288x64, .f32⟩
  | .hbm, ⟨79, _⟩ => ⟨S12288x64, .f32⟩
  | .hbm, ⟨80, _⟩ => ⟨S12288x64, .f32⟩
  | .hbm, ⟨81, _⟩ => ⟨S_, .f32⟩
  | .hbm, ⟨82, _⟩ => ⟨S12288x64, .f32⟩
  | .hbm, ⟨83, _⟩ => ⟨S12288x64, .f32⟩
  | .hbm, ⟨84, _⟩ => ⟨S_, .f32⟩
  | .hbm, ⟨85, _⟩ => ⟨S12288x64, .f32⟩
  | .hbm, ⟨86, _⟩ => ⟨S12288x64, .f32⟩
  | .hbm, ⟨87, _⟩ => ⟨S12288x64, .f32⟩
  | .hbm, ⟨88, _⟩ => ⟨S12288x64, .f32⟩
  | .hbm, ⟨89, _⟩ => ⟨S12288x64, .f32⟩
  | .hbm, ⟨90, _⟩ => ⟨S_, .f32⟩
  | .hbm, ⟨91, _⟩ => ⟨S12288x64, .f32⟩
  | .hbm, ⟨92, _⟩ => ⟨S12288x64, .f32⟩
  | .hbm, ⟨93, _⟩ => ⟨S_, .f32⟩
  | .hbm, ⟨94, _⟩ => ⟨S12288x64, .f32⟩
  | .hbm, ⟨95, _⟩ => ⟨S12288x64, .f32⟩
  | .hbm, ⟨96, _⟩ => ⟨S12288x64, .f32⟩
  | .hbm, ⟨97, _⟩ => ⟨S12288x64, .f32⟩
  | .hbm, ⟨98, _⟩ => ⟨S12288x64, .f32⟩
  | .hbm, ⟨99, _⟩ => ⟨S_, .f32⟩
  | .hbm, ⟨100, _⟩ => ⟨S12288x64, .f32⟩
  | .hbm, ⟨101, _⟩ => ⟨S12288x64, .f32⟩
  | .hbm, ⟨102, _⟩ => ⟨S12288x64, .f32⟩
  | .hbm, ⟨103, _⟩ => ⟨S12288x64, .f32⟩
  | .hbm, ⟨104, _⟩ => ⟨S12288x64, .f32⟩
  | .hbm, ⟨105, _⟩ => ⟨S_, .f32⟩
  | .hbm, ⟨106, _⟩ => ⟨S12288x64, .f32⟩
  | .hbm, ⟨107, _⟩ => ⟨S12288x64, .f32⟩
  | .local _ .vmem, ⟨0, _⟩ => ⟨S3072x1024, .f32⟩
  | .local _ .vmem, ⟨1, _⟩ => ⟨S3072x1024, .f32⟩
  | .local _ .vmem, ⟨2, _⟩ => ⟨S1024x64, .f32⟩
  | .local _ .vmem, ⟨3, _⟩ => ⟨S1024x64, .f32⟩
  | .local _ .vmem, ⟨4, _⟩ => ⟨S3072x64, .f32⟩
  | .local _ .vmem, ⟨5, _⟩ => ⟨S3072x64, .f32⟩
  | .local _ .vmem, ⟨6, _⟩ => ⟨S3072x64, .f32⟩
  | .local _ .vmem, ⟨7, _⟩ => ⟨S3072x1024, .f32⟩
  | .local _ .vmem, ⟨8, _⟩ => ⟨S3072x1024, .f32⟩
  | .local _ .vmem, ⟨9, _⟩ => ⟨S1024x64, .f32⟩
  | .local _ .vmem, ⟨10, _⟩ => ⟨S1024x64, .f32⟩
  | .local _ .vmem, ⟨11, _⟩ => ⟨S3072x64, .f32⟩
  | .local _ .vmem, ⟨12, _⟩ => ⟨S3072x64, .f32⟩
  | .local _ .vmem, ⟨13, _⟩ => ⟨S3072x64, .f32⟩
  | _, _ => ⟨S12288x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_1 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_call0_cst : Ref sig .tc := ⟨.hbm, 57, rfl⟩
abbrev main_call0_v0 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_4 : Ref sig .tc := ⟨.hbm, 81, rfl⟩
abbrev main_v62 : Ref sig .tc := ⟨.hbm, 82, rfl⟩
abbrev main_v63 : Ref sig .tc := ⟨.hbm, 83, rfl⟩
abbrev main_cst_5 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_6 : Ref sig .tc := ⟨.hbm, 90, rfl⟩
abbrev main_v69 : Ref sig .tc := ⟨.hbm, 91, rfl⟩
abbrev main_v70 : Ref sig .tc := ⟨.hbm, 92, rfl⟩
abbrev main_cst_7 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_8 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_call1_cst : Ref sig .tc := ⟨.hbm, 105, rfl⟩
abbrev main_call1_v0 : Ref sig .tc := ⟨.hbm, 106, rfl⟩
abbrev main_v81 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 12], ![false, false]⟩

def k0_cond2 (i : grid0.Coords) : BitVec 1 :=
  let arg1 : BitVec 32 := BitVec.ofNat 32 (i 1).val
  let c11_i32 : BitVec 32 := 11#32
  let v14 : BitVec 1 := Scalar.cmpi .eq arg1 c11_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S3072x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3072x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 12], ![false, false]⟩

def k1_cond2 (i : grid1.Coords) : BitVec 1 :=
  let arg1 : BitVec 32 := BitVec.ofNat 32 (i 1).val
  let c11_i32 : BitVec 32 := 11#32
  let v14 : BitVec 1 := Scalar.cmpi .eq arg1 c11_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S3072x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S3072x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S3072x64_S3072x64_0_0 : ∀ a, (![0, 0] : Fin 2 → Nat) a + S3072x64.size a ≤ S3072x64.size a
  h_S3072x64 : 0 < S3072x64.numel
  shapeCasts_S3072x64_S3072x64 : S3072x64.ShapeCasts S3072x64
  inb_S3072x1024_S3072x1024_0_0 : ∀ a, (![0, 0] : Fin 2 → Nat) a + S3072x1024.size a ≤ S3072x1024.size a
  h_S3072x1024 : 0 < S3072x1024.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S192x64_S64x192_1_0 : S192x64.Transposes [1, 0] S64x192
  bcast_S192_S1x192_1 : S192.BroadcastsInDim S1x192 (![1] : Fin 1 → Fin S1x192.rank)
  bcast_S1x192_S12288x192_0_1 : S1x192.BroadcastsInDim S12288x192 (![0, 1] : Fin 2 → Fin S12288x192.rank)
  slices_S12288x192_S12288x64_0_0 : S12288x192.Slices ![0, 0] S12288x64
  slices_S12288x192_S12288x64_0_64 : S12288x192.Slices ![0, 64] S12288x64
  slices_S12288x192_S12288x64_0_128 : S12288x192.Slices ![0, 128] S12288x64
  bcast_S_S12288x64 : S_.BroadcastsInDim S12288x64 (![] : Fin 0 → Fin S12288x64.rank)
  dot_S12288x64_S64x64_S12288x64_1_0_0_1_n_n_wf : DotDims.WF S12288x64 S64x64 S12288x64 [1] [0] [0] [1] [] []
  dot_S3072x1024_S1024x64_S3072x64_1_0_0_1_n_n_wf : DotDims.WF S3072x1024 S1024x64 S3072x64 [1] [0] [0] [1] [] []
  dot_S12288x64_S64x192_S12288x192_1_0_0_1_n_n_wf : DotDims.WF S12288x64 S64x192 S12288x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3072x1024.size a ≤ S12288x12288.size a
  hwx0_0 : ∀ i : grid0.Coords, EltTy.bits .f32 = 32 ∨ (Rect.block (s := S12288x12288) S3072x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S12288x64.size a
  hwx0_1 : ∀ i : grid0.Coords, EltTy.bits .f32 = 32 ∨ (Rect.block (s := S12288x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3072x64.size a ≤ S12288x64.size a
  hwx0_2 : ∀ i : grid0.Coords, EltTy.bits .f32 = 32 ∨ (Rect.block (s := S12288x64) S3072x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3072x1024.size a ≤ S12288x12288.size a
  hwx1_0 : ∀ i : grid1.Coords, EltTy.bits .f32 = 32 ∨ (Rect.block (s := S12288x12288) S3072x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S12288x64.size a
  hwx1_1 : ∀ i : grid1.Coords, EltTy.bits .f32 = 32 ∨ (Rect.block (s := S12288x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3072x64.size a ≤ S12288x64.size a
  hwx1_2 : ∀ i : grid1.Coords, EltTy.bits .f32 = 32 ∨ (Rect.block (s := S12288x64) S3072x64.size (cc1_transform_2 i) (hinb1_2 i)).WholeWords (EltTy.packing .f32)

variable [Facts₀]

def dot_S12288x64_S64x64_S12288x64_1_0_0_1_n_n : DotDims S12288x64 S64x64 S12288x64 where
  lhsContracting := [1]
  rhsContracting := [0]
  lhsNonContracting := [0]
  rhsNonContracting := [1]
  lhsBatch := []
  rhsBatch := []
  wf := dot_S12288x64_S64x64_S12288x64_1_0_0_1_n_n_wf
def dot_S3072x1024_S1024x64_S3072x64_1_0_0_1_n_n : DotDims S3072x1024 S1024x64 S3072x64 where
  lhsContracting := [1]
  rhsContracting := [0]
  lhsNonContracting := [0]
  rhsNonContracting := [1]
  lhsBatch := []
  rhsBatch := []
  wf := dot_S3072x1024_S1024x64_S3072x64_1_0_0_1_n_n_wf
def dot_S12288x64_S64x192_S12288x192_1_0_0_1_n_n : DotDims S12288x64 S64x192 S12288x192 where
  lhsContracting := [1]
  rhsContracting := [0]
  lhsNonContracting := [0]
  rhsNonContracting := [1]
  lhsBatch := []
  rhsBatch := []
  wf := dot_S12288x64_S64x192_S12288x192_1_0_0_1_n_n_wf

abbrev win0_0 : Pipeline.Window sig grid0 :=
  Pipeline.Window.ofSpec (Memref.whole main_arg1) S3072x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S3072x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S3072x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S3072x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S12288x64 : Shape := ⟨2, ![12288, 64]⟩
abbrev S12288x12288 : Shape := ⟨2, ![12288, 12288]⟩
abbrev S64x64 : Shape := ⟨2, ![64, 64]⟩
abbrev S192x64 : Shape := ⟨2, ![192, 64]⟩
abbrev S192 : Shape := ⟨1, ![192]⟩
abbrev S64x192 : Shape := ⟨2, ![64, 192]⟩
abbrev S12288x192 : Shape := ⟨2, ![12288, 192]⟩
abbrev S1x192 : Shape := ⟨2, ![1, 192]⟩
abbrev S_ : Shape := ⟨0, ![]⟩

abbrev nBuf : Space → Nat
  | .hbm => 108
  | .vmem => 0
  | .smem => 0
  | _ => 0

abbrev bufTy : (tb : Table) → Fin (tcTables nBuf tb) → BufTy
  | .hbm, ⟨0, _⟩ => ⟨S12288x64, .f32⟩
  | .hbm, ⟨1, _⟩ => ⟨S12288x12288, .f32⟩
  | .hbm, ⟨2, _⟩ => ⟨S64x64, .f32⟩
  | .hbm, ⟨3, _⟩ => ⟨S192x64, .f32⟩
  | .hbm, ⟨4, _⟩ => ⟨S192x64, .f32⟩
  | .hbm, ⟨5, _⟩ => ⟨S192, .f32⟩
  | .hbm, ⟨6, _⟩ => ⟨S192, .f32⟩
  | .hbm, ⟨7, _⟩ => ⟨S64x64, .f32⟩
  | .hbm, ⟨8, _⟩ => ⟨S192x64, .f32⟩
  | .hbm, ⟨9, _⟩ => ⟨S192x64, .f32⟩
  | .hbm, ⟨10, _⟩ => ⟨S192, .f32⟩
  | .hbm, ⟨11, _⟩ => ⟨S192, .f32⟩
  | .hbm, ⟨12, _⟩ => ⟨S12288x64, .f32⟩
  | .hbm, ⟨13, _⟩ => ⟨S12288x64, .f32⟩
  | .hbm, ⟨14, _⟩ => ⟨S64x192, .f32⟩
  | .hbm, ⟨15, _⟩ => ⟨S12288x192, .f32⟩
  | .hbm, ⟨16, _⟩ => ⟨S1x192, .f32⟩
  | .hbm, ⟨17, _⟩ => ⟨S12288x192, .f32⟩
  | .hbm, ⟨18, _⟩ => ⟨S12288x192, .f32⟩
  | .hbm, ⟨19, _⟩ => ⟨S64x192, .f32⟩
  | .hbm, ⟨20, _⟩ => ⟨S12288x192, .f32⟩
  | .hbm, ⟨21, _⟩ => ⟨S1x192, .f32⟩
  | .hbm, ⟨22, _⟩ => ⟨S12288x192, .f32⟩
  | .hbm, ⟨23, _⟩ => ⟨S12288x192, .f32⟩
  | .hbm, ⟨24, _⟩ => ⟨S12288x64, .f32⟩
  | .hbm, ⟨25, _⟩ => ⟨S12288x64, .f32⟩
  | .hbm, ⟨26, _⟩ => ⟨S12288x64, .f32⟩
  | .hbm, ⟨27, _⟩ => ⟨S12288x64, .f32⟩
  | .hbm, ⟨28, _⟩ => ⟨S12288x64, .f32⟩
  | .hbm, ⟨29, _⟩ => ⟨S12288x64, .f32⟩
  | .hbm, ⟨30, _⟩ => ⟨S12288x64, .f32⟩
  | .hbm, ⟨31, _⟩ => ⟨S12288x64, .f32⟩
  | .hbm, ⟨32, _⟩ => ⟨S12288x64, .f32⟩
  | .hbm, ⟨33, _⟩ => ⟨S_, .f32⟩
  | .hbm, ⟨34, _⟩ => ⟨S12288x64, .f32⟩
  | .hbm, ⟨35, _⟩ => ⟨S12288x64, .f32⟩
  | .hbm, ⟨36, _⟩ => ⟨S_, .f32⟩
  | .hbm, ⟨37, _⟩ => ⟨S12288x64, .f32⟩
  | .hbm, ⟨38, _⟩ => ⟨S12288x64, .f32⟩
  | .hbm, ⟨39, _⟩ => ⟨S12288x64, .f32⟩
  | .hbm, ⟨40, _⟩ => ⟨S12288x64, .f32⟩
  | .hbm, ⟨41, _⟩ => ⟨S12288x64, .f32⟩
  | .hbm, ⟨42, _⟩ => ⟨S_, .f32⟩
  | .hbm, ⟨43, _⟩ => ⟨S12288x64, .f32⟩
  | .hbm, ⟨44, _⟩ => ⟨S12288x64, .f32⟩
  | .hbm, ⟨45, _⟩ => ⟨S_, .f32⟩
  | .hbm, ⟨46, _⟩ => ⟨S12288x64, .f32⟩
  | .hbm, ⟨47, _⟩ => ⟨S12288x64, .f32⟩
  | .hbm, ⟨48, _⟩ => ⟨S12288x64, .f32⟩
  | .hbm, ⟨49, _⟩ => ⟨S12288x64, .f32⟩
  | .hbm, ⟨50, _⟩ => ⟨S12288x64, .f32⟩
  | .hbm, ⟨51, _⟩ => ⟨S_, .f32⟩
  | .hbm, ⟨52, _⟩ => ⟨S12288x64, .f32⟩
  | .hbm, ⟨53, _⟩ => ⟨S12288x64, .f32⟩
  | .hbm, ⟨54, _⟩ => ⟨S12288x64, .f32⟩
  | .hbm, ⟨55, _⟩ => ⟨S12288x64, .f32⟩
  | .hbm, ⟨56, _⟩ => ⟨S12288x64, .f32⟩
  | .hbm, ⟨57, _⟩ => ⟨S_, .f32⟩
  | .hbm, ⟨58, _⟩ => ⟨S12288x64, .f32⟩
  | .hbm, ⟨59, _⟩ => ⟨S12288x64, .f32⟩
  | .hbm, ⟨60, _⟩ => ⟨S12288x64, .f32⟩
  | .hbm, ⟨61, _⟩ => ⟨S12288x64, .f32⟩
  | .hbm, ⟨62, _⟩ => ⟨S64x192, .f32⟩
  | .hbm, ⟨63, _⟩ => ⟨S12288x192, .f32⟩
  | .hbm, ⟨64, _⟩ => ⟨S1x192, .f32⟩
  | .hbm, ⟨65, _⟩ => ⟨S12288x192, .f32⟩
  | .hbm, ⟨66, _⟩ => ⟨S12288x192, .f32⟩
  | .hbm, ⟨67, _⟩ => ⟨S64x192, .f32⟩
  | .hbm, ⟨68, _⟩ => ⟨S12288x192, .f32⟩
  | .hbm, ⟨69, _⟩ => ⟨S1x192, .f32⟩
  | .hbm, ⟨70, _⟩ => ⟨S12288x192, .f32⟩
  | .hbm, ⟨71, _⟩ => ⟨S12288x192, .f32⟩
  | .hbm, ⟨72, _⟩ => ⟨S12288x64, .f32⟩
  | .hbm, ⟨73, _⟩ => ⟨S12288x64, .f32⟩
  | .hbm, ⟨74, _⟩ => ⟨S12288x64, .f32⟩
  | .hbm, ⟨75, _⟩ => ⟨S12288x64, .f32⟩
  | .hbm, ⟨76, _⟩ => ⟨S12288x64, .f32⟩
  | .hbm, ⟨77, _⟩ => ⟨S12288x64, .f32⟩
  | .hbm, ⟨78, _⟩ => ⟨S12288x64, .f32⟩
  | .hbm, ⟨79, _⟩ => ⟨S12288x64, .f32⟩
  | .hbm, ⟨80, _⟩ => ⟨S12288x64, .f32⟩
  | .hbm, ⟨81, _⟩ => ⟨S_, .f32⟩
  | .hbm, ⟨82, _⟩ => ⟨S12288x64, .f32⟩
  | .hbm, ⟨83, _⟩ => ⟨S12288x64, .f32⟩
  | .hbm, ⟨84, _⟩ => ⟨S_, .f32⟩
  | .hbm, ⟨85, _⟩ => ⟨S12288x64, .f32⟩
  | .hbm, ⟨86, _⟩ => ⟨S12288x64, .f32⟩
  | .hbm, ⟨87, _⟩ => ⟨S12288x64, .f32⟩
  | .hbm, ⟨88, _⟩ => ⟨S12288x64, .f32⟩
  | .hbm, ⟨89, _⟩ => ⟨S12288x64, .f32⟩
  | .hbm, ⟨90, _⟩ => ⟨S_, .f32⟩
  | .hbm, ⟨91, _⟩ => ⟨S12288x64, .f32⟩
  | .hbm, ⟨92, _⟩ => ⟨S12288x64, .f32⟩
  | .hbm, ⟨93, _⟩ => ⟨S_, .f32⟩
  | .hbm, ⟨94, _⟩ => ⟨S12288x64, .f32⟩
  | .hbm, ⟨95, _⟩ => ⟨S12288x64, .f32⟩
  | .hbm, ⟨96, _⟩ => ⟨S12288x64, .f32⟩
  | .hbm, ⟨97, _⟩ => ⟨S12288x64, .f32⟩
  | .hbm, ⟨98, _⟩ => ⟨S12288x64, .f32⟩
  | .hbm, ⟨99, _⟩ => ⟨S_, .f32⟩
  | .hbm, ⟨100, _⟩ => ⟨S12288x64, .f32⟩
  | .hbm, ⟨101, _⟩ => ⟨S12288x64, .f32⟩
  | .hbm, ⟨102, _⟩ => ⟨S12288x64, .f32⟩
  | .hbm, ⟨103, _⟩ => ⟨S12288x64, .f32⟩
  | .hbm, ⟨104, _⟩ => ⟨S12288x64, .f32⟩
  | .hbm, ⟨105, _⟩ => ⟨S_, .f32⟩
  | .hbm, ⟨106, _⟩ => ⟨S12288x64, .f32⟩
  | .hbm, ⟨107, _⟩ => ⟨S12288x64, .f32⟩
  | _, _ => ⟨S12288x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_1 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_call0_cst : Ref sig .tc := ⟨.hbm, 57, rfl⟩
abbrev main_call0_v0 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_4 : Ref sig .tc := ⟨.hbm, 81, rfl⟩
abbrev main_v62 : Ref sig .tc := ⟨.hbm, 82, rfl⟩
abbrev main_v63 : Ref sig .tc := ⟨.hbm, 83, rfl⟩
abbrev main_cst_5 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_6 : Ref sig .tc := ⟨.hbm, 90, rfl⟩
abbrev main_v69 : Ref sig .tc := ⟨.hbm, 91, rfl⟩
abbrev main_v70 : Ref sig .tc := ⟨.hbm, 92, rfl⟩
abbrev main_cst_7 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_8 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_call1_cst : Ref sig .tc := ⟨.hbm, 105, rfl⟩
abbrev main_call1_v0 : Ref sig .tc := ⟨.hbm, 106, rfl⟩
abbrev main_v81 : Ref sig .tc := ⟨.hbm, 107, rfl⟩

abbrev nD : Nat := 1
abbrev τ : Topo := Topo.v7x

variable {F : FTy → Type} [FloatOps F]

class Facts₀ : Prop where
  transposes_S192x64_S64x192_1_0 : S192x64.Transposes [1, 0] S64x192
  bcast_S192_S1x192_1 : S192.BroadcastsInDim S1x192 (![1] : Fin 1 → Fin S1x192.rank)
  bcast_S1x192_S12288x192_0_1 : S1x192.BroadcastsInDim S12288x192 (![0, 1] : Fin 2 → Fin S12288x192.rank)
  slices_S12288x192_S12288x64_0_0 : S12288x192.Slices ![0, 0] S12288x64
  slices_S12288x192_S12288x64_0_64 : S12288x192.Slices ![0, 64] S12288x64
  slices_S12288x192_S12288x64_0_128 : S12288x192.Slices ![0, 128] S12288x64
  bcast_S_S12288x64 : S_.BroadcastsInDim S12288x64 (![] : Fin 0 → Fin S12288x64.rank)
  dot_S12288x64_S64x64_S12288x64_1_0_0_1_n_n_wf : DotDims.WF S12288x64 S64x64 S12288x64 [1] [0] [0] [1] [] []
  dot_S12288x12288_S12288x64_S12288x64_1_0_0_1_n_n_wf : DotDims.WF S12288x12288 S12288x64 S12288x64 [1] [0] [0] [1] [] []
  dot_S12288x64_S64x192_S12288x192_1_0_0_1_n_n_wf : DotDims.WF S12288x64 S64x192 S12288x192 [1] [0] [0] [1] [] []

variable [Facts₀]

def dot_S12288x64_S64x64_S12288x64_1_0_0_1_n_n : DotDims S12288x64 S64x64 S12288x64 where
  lhsContracting := [1]
  rhsContracting := [0]
  lhsNonContracting := [0]
  rhsNonContracting := [1]
  lhsBatch := []
  rhsBatch := []
  wf := dot_S12288x64_S64x64_S12288x64_1_0_0_1_n_n_wf
def dot_S12288x12288_S12288x64_S12288x64_1_0_0_1_n_n : DotDims S12288x12288 S12288x64 S12288x64 where
  lhsContracting := [1]
  rhsContracting := [0]
  lhsNonContracting := [0]
  rhsNonContracting := [1]
  lhsBatch := []
  rhsBatch := []
  wf := dot_S12288x12288_S12288x64_S12288x64_1_0_0_1_n_n_wf
def dot_S12288x64_S64x192_S12288x192_1_0_0_1_n_n : DotDims S12288x64 S64x192 S12288x192 where
  lhsContracting := [1]
  rhsContracting := [0]
  lhsNonContracting := [0]
  rhsNonContracting := [1]
  lhsBatch := []
  rhsBatch := []
  wf := dot_S12288x64_S64x192_S12288x192_1_0_0_1_n_n_wf

class Facts : Prop extends Facts₀ where

variable [Facts]
-- ==== Proof.KiR0Runs.lean ====
import proofs.«173690_j65120294142423_1_alg».proof.Proof.Gen.KernelIdeal.Launch
import proofs.«173690_j65120294142423_1_alg».proof.Proof.Gen.KernelIdeal.Skeleton
import proofs.«173690_j65120294142423_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array at the contents `V` the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the left factor's block) is fetched at every point and the body leaves it in place, so its
    current buffer holds the block of the entry contents at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1 (the right factor's block). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, over the grid (point t ↦ (t / 12, t % 12)) -/

/-- The first branch is taken when the reduction coordinate is 0: the accumulator is cleared there. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 12 = 0 :=
  (by decide +kernel : ∀ t : Fin grid0.N, cond0_0 (grid0.coords t) ↔ t.val % 12 = 0)

/-- The second branch is taken when the reduction coordinate is 11, the last: the accumulator is copied out there. -/
abbrev cond0_1 (i : grid0.Coords) : Prop := k0_cond2 i = 1#1
theorem hcond0_1 : ∀ t : Fin cfg0.N, cond0_1 (grid0.coords t) ↔ t.val % 12 = 11 :=
  (by decide +kernel : ∀ t : Fin grid0.N, cond0_1 (grid0.coords t) ↔ t.val % 12 = 11)

/-! ## Where the windows are idle -/

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Where the reduction coordinate is 0 (and not last) the output window is idle and is not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- Where the reduction coordinate is strictly between 0 and 11 the output window is idle and is not written back. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- Where the reduction coordinate is 11 the output window is live: the body stores into it. -/
theorem liveAt0_2_C : ∀ t : Fin cfg0.N, ¬cond0_0 (grid0.coords t) → cond0_1 (grid0.coords t) → cfg0.idle 2 (grid0.coords t) = false := by decide +kernel

/-! ## The memrefs the body is called on -/

/-- One buffer of the output window, through which its contents are stated. -/
abbrev VO0_2 : View sig .tc .vmem S3072x64 .f32 := (Memref.whole cc0_stg2_0 : Memref sig .tc .vmem S3072x64 .f32).view
/-- Each window's current buffer at point `t`, and its wholeness. -/
abbrev ms0_0 (t : Fin cfg0.N) : Memref sig .tc .vmem S3072x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3072x64 .f32 := win0_2.stage (cfg0.slots t 2)
abbrev hs0_2 (t : Fin cfg0.N) : (ms0_2 t).IsWhole := hstage0_2 ((cfg0.slots t 2).cast nbuf0_2)
/-- The accumulator: a whole scoped buffer of the kernel's own, passed beside the windows. -/
abbrev scM0_0 : Memref sig .tc .vmem S3072x64 .f32 := Memref.whole cc0_scratch0
/-- The accumulator as a view: what it holds between points is stated through it. -/
abbrev VS0_0 : View sig .tc .vmem S3072x64 .f32 := scM0_0.view

/-- The region's invariant with the accumulator as a memref owned at some contents; every other scoped buffer of
    the core that is no buffer of this call's windows (the other call's) stays unopened beside it. -/
theorem PhiA0_eq (c : Dev nD) :
    (Pipeline.ΦA spec0 c : sProp 𝕄)
      = iprop(iprop((∃ d, owns (c : Thread nD τ) scM0_0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [bigSepL_singleton, scM0_0, owns_whole]; try rfl

end Cert.KernelIdeal.Hand

end
-- ==== Proof.KiR0RunA.lean ====
import proofs.«173690_j65120294142423_1_alg».proof.Proof.KiR0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body where the reduction coordinate is 0 and not the last (first branch taken, second not): on whole memrefs —
    the two factors' blocks at `x0`, `x1`, the output's buffer at any `xi2`, the accumulator at anything — it runs to
    the continuation holding the three windows' buffers as they were and the accumulator with the pieces `LS0` written
    (last first). It stores nothing into the output's buffer (`L2 = []`). -/
noncomputable def kernelRun0_A (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : cond0_0 i) (hc1 : ¬cond0_1 i)
    (x0 : Vec F S3072x1024 .f32) (x1 : Vec F S1024x64 .f32) :
    Σ' (L2 : List (View.Piece (Elt F) S3072x64 .f32)), { LS0 : List (View.Piece (Elt F) S3072x64 .f32) //
      ∀ (xi2 : Vec F S3072x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__big_matmul_kernel i arg2 harg2 arg3 harg3 arg4 harg4 arg5 harg5) K } := by
  refine ⟨[], ?_, fun xi2 E K => ?run⟩
  case run =>
    simp only [cc0__big_matmul_kernel_eq_skeleton]; unfold cc0__big_matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KiR0RunB.lean ====
import proofs.«173690_j65120294142423_1_alg».proof.Proof.KiR0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body where the reduction coordinate is strictly between 0 and 11 (neither branch taken): on whole memrefs —
    the two factors' blocks at `x0`, `x1`, the output's buffer at any `xi2`, the accumulator at what the point before
    left, `xs0` — it runs to the continuation holding the three windows' buffers as they were and the accumulator with
    the pieces `LS0` written (last first). It stores nothing into the output's buffer (`L2 = []`). -/
noncomputable def kernelRun0_B (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond0_0 i) (hc1 : ¬cond0_1 i)
    (x0 : Vec F S3072x1024 .f32) (x1 : Vec F S1024x64 .f32) (xs0 : Vec F S3072x64 .f32) :
    Σ' (L2 : List (View.Piece (Elt F) S3072x64 .f32)), { LS0 : List (View.Piece (Elt F) S3072x64 .f32) //
      ∀ (xi2 : Vec F S3072x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__big_matmul_kernel i arg2 harg2 arg3 harg3 arg4 harg4 arg5 harg5) K } := by
  refine ⟨[], ?_, fun xi2 E K => ?run⟩
  case run =>
    simp only [cc0__big_matmul_kernel_eq_skeleton]; unfold cc0__big_matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KiR0RunC.lean ====
import proofs.«173690_j65120294142423_1_alg».proof.Proof.KiR0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body where the reduction coordinate is 11, the last, and not 0 (first branch not taken, second taken): on whole
    memrefs — the two factors' blocks at `x0`, `x1`, the output's buffer at anything, the accumulator at what the point
    before left, `xs0` — it runs to the continuation holding the factors' buffers as they were, the output's buffer with
    the pieces `L2` written and the accumulator with the pieces `LS0` written (last first). -/
noncomputable def kernelRun0_C (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond0_0 i) (hc1 : cond0_1 i)
    (x0 : Vec F S3072x1024 .f32) (x1 : Vec F S1024x64 .f32) (xs0 : Vec F S3072x64 .f32) :
    Σ' (L2 : List (View.Piece (Elt F) S3072x64 .f32)), { LS0 : List (View.Piece (Elt F) S3072x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__big_matmul_kernel i arg2 harg2 arg3 harg3 arg4 harg4 arg5 harg5) K } := by
  refine ⟨?_, ?_, fun E K => ?run⟩
  case run =>
    simp only [cc0__big_matmul_kernel_eq_skeleton]; unfold cc0__big_matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KiR0Frame.lean ====
/- Region 0 (the first accumulating matrix product, grid 4 × 12): what the output window's staging buffer and the
   accumulator hold after each grid point, the proof data of the region's pipeline at entry contents `V`, and the
   body obligation. A row tile is twelve consecutive points: the first zeroes the accumulator and adds the first
   partial product, the middle ones add theirs, the last adds its own and stores the finished sum into the output
   window, which is written back only there. -/
import proofs.«173690_j65120294142423_1_alg».proof.Proof.KiR0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output's staging buffer and in the accumulator -/

/-- At a first point of a row tile the body stores nothing into the output window: no pieces. A placeholder
    that nothing consults, since at these points the window is neither written back nor read at the next point. -/
def out0_A_2 (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : cond0_0 i) (hc1 : ¬cond0_1 i)
    (x0 : Vec F S3072x1024 .f32) (x1 : Vec F S1024x64 .f32) : Vec F S3072x64 .f32 :=
  VO0_2.read (Elt F) (VO0_2.writes (Elt F) VO0_2.junk (kernelRun0_A c i arg2 harg2 arg3 harg3 arg4 harg4 arg5 harg5 hc0 hc1 x0 x1).1)

/-- At a first point of a row tile the pieces stored into the accumulator (the zero fill, then the first partial
    product over it) cover it. -/
theorem scover0_A_0 (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : cond0_0 i) (hc1 : ¬cond0_1 i)
    (x0 : Vec F S3072x1024 .f32) (x1 : Vec F S1024x64 .f32) (y : S3072x64.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S3072x64.size (by sl_kernel_rfl) y

/-- What a first point of a row tile leaves in the accumulator: its pieces read back. -/
def sout0_A_0 (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : cond0_0 i) (hc1 : ¬cond0_1 i)
    (x0 : Vec F S3072x1024 .f32) (x1 : Vec F S1024x64 .f32) : Vec F S3072x64 .f32 :=
  VS0_0.read (Elt F) (VS0_0.writes (Elt F) VS0_0.junk (kernelRun0_A c i arg2 harg2 arg3 harg3 arg4 harg4 arg5 harg5 hc0 hc1 x0 x1).2.1)

/-- At a middle point of a row tile the body stores nothing into the output window: no pieces, a placeholder. -/
def out0_B_2 (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond0_0 i) (hc1 : ¬cond0_1 i)
    (x0 : Vec F S3072x1024 .f32) (x1 : Vec F S1024x64 .f32) (xs0 : Vec F S3072x64 .f32) : Vec F S3072x64 .f32 :=
  VO0_2.read (Elt F) (VO0_2.writes (Elt F) VO0_2.junk (kernelRun0_B c i arg2 harg2 arg3 harg3 arg4 harg4 arg5 harg5 hc0 hc1 x0 x1 xs0).1)

/-- At a middle point the one piece stored into the accumulator (what it held plus this point's partial product)
    covers it. -/
theorem scover0_B_0 (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond0_0 i) (hc1 : ¬cond0_1 i)
    (x0 : Vec F S3072x1024 .f32) (x1 : Vec F S1024x64 .f32) (xs0 : Vec F S3072x64 .f32) (y : S3072x64.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S3072x64.size (by sl_kernel_rfl) y

/-- What a middle point leaves in the accumulator: its piece read back. -/
def sout0_B_0 (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond0_0 i) (hc1 : ¬cond0_1 i)
    (x0 : Vec F S3072x1024 .f32) (x1 : Vec F S1024x64 .f32) (xs0 : Vec F S3072x64 .f32) : Vec F S3072x64 .f32 :=
  VS0_0.read (Elt F) (VS0_0.writes (Elt F) VS0_0.junk (kernelRun0_B c i arg2 harg2 arg3 harg3 arg4 harg4 arg5 harg5 hc0 hc1 x0 x1 xs0).2.1)

/-- At the last point of a row tile the one store into the output window (the finished accumulator) covers its block. -/
theorem cover0_C_2 (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond0_0 i) (hc1 : cond0_1 i)
    (x0 : Vec F S3072x1024 .f32) (x1 : Vec F S1024x64 .f32) (xs0 : Vec F S3072x64 .f32) (y : S3072x64.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S3072x64.size (by sl_kernel_rfl) y

/-- What the last point of a row tile leaves in the output's staging buffer: its piece read back. -/
def out0_C_2 (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond0_0 i) (hc1 : cond0_1 i)
    (x0 : Vec F S3072x1024 .f32) (x1 : Vec F S1024x64 .f32) (xs0 : Vec F S3072x64 .f32) : Vec F S3072x64 .f32 :=
  VO0_2.read (Elt F) (VO0_2.writes (Elt F) VO0_2.junk (kernelRun0_C c i arg2 harg2 arg3 harg3 arg4 harg4 arg5 harg5 hc0 hc1 x0 x1 xs0).1)

/-- At the last point the one piece stored into the accumulator covers it. -/
theorem scover0_C_0 (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond0_0 i) (hc1 : cond0_1 i)
    (x0 : Vec F S3072x1024 .f32) (x1 : Vec F S1024x64 .f32) (xs0 : Vec F S3072x64 .f32) (y : S3072x64.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S3072x64.size (by sl_kernel_rfl) y

/-- What the last point of a row tile leaves in the accumulator: its piece read back. -/
def sout0_C_0 (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond0_0 i) (hc1 : cond0_1 i)
    (x0 : Vec F S3072x1024 .f32) (x1 : Vec F S1024x64 .f32) (xs0 : Vec F S3072x64 .f32) : Vec F S3072x64 .f32 :=
  VS0_0.read (Elt F) (VS0_0.writes (Elt F) VS0_0.junk (kernelRun0_C c i arg2 harg2 arg3 harg3 arg4 harg4 arg5 harg5 hc0 hc1 x0 x1 xs0).2.1)

/-! ## What the output's buffer and the accumulator hold after each point -/

/-- The accumulation. After the body at position `n`: the output window's staging buffer, then the accumulator.
    The position's residue mod 12 selects the case (0: first point of a row tile, 11: last, otherwise a middle
    point); the case is run at the point's memrefs and its two input blocks, the accumulator entering at what
    position `n - 1` left in it. A residue both 0 and 11 is no point. -/
def outsAt0 (c : Dev nD) : (n : ℕ) → n < cfg0.N → Vec F S3072x64 .f32 × Vec F S3072x64 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 12 = 0 then
      if h1 : (n + 1) % 12 = 11 then
        False.elim (by have hN : n + 1 < 48 := lt_of_lt_of_eq hn (show cfg0.N = 48 from N_0); omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 12 = 11 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- `outsAt0` at a first point of a row tile. -/
theorem outsAt0_A (c : Dev nD) (t : Fin cfg0.N) (h0 : t.val % 12 = 0) (h1 : ¬t.val % 12 = 11) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a middle point: that case over what the point before left in the accumulator. -/
theorem outsAt0_B (c : Dev nD) (t : Fin cfg0.N) (h0 : ¬t.val % 12 = 0) (h1 : ¬t.val % 12 = 11) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at the last point of a row tile: that case over what the point before left in the accumulator. -/
theorem outsAt0_C (c : Dev nD) (t : Fin cfg0.N) (h0 : ¬t.val % 12 = 0) (h1 : t.val % 12 = 11) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`. Before the first point: what the launch hands over (the accumulator
    at anything). Afterwards: the accumulator at what the point before left in it (`outsAt0`'s second component),
    the core's other scoped buffers unopened, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulator at that point's contents. -/
theorem PhiS0_succ (c : Dev nD) (n : ℕ) (hn : n < cfg0.N) :
    PhiS0 V c (n + 1) hn = iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The proof data of this call's pipeline on core `c`: the arrays as the region finds them (`V`); after the body
    at point `t` each input's buffer at its block and the output's at `outsAt0`'s first component; the invariant
    `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- Every share is the full one. -/
theorem q_eq0 (c : Dev nD) (w : Fin cfg0.W) : (dat0 V c).q w = fullShare := rfl

/-- Nothing is owed at any position. -/
theorem owed_eq0 (c : Dev nD) (t : Fin (cfg0.N + 1)) : (dat0 V c).owed t = 0 := rfl

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The two inputs' memrefs hold their blocks; the residue of the position mod 12 says which
    case the point is in, so that case's run applies. The invariant hands the body the accumulator at what the point
    before left (at anything at the very first point) and takes it back at this point's contents, the pieces stored
    covering it; the core's other scoped buffers and the generator register pass through untouched; nothing is owed
    throughout. The output window is handed back as found except at the last point of a row tile, where its one
    store covers it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 48 := lt_of_lt_of_eq t.isLt (show cfg0.N = 48 from N_0)
  by_cases h0 : t.val % 12 = 0
  · by_cases h1 : t.val % 12 = 11
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hrest⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _)
            iexact Hrest
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, Hrest⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _)
            iexact Hrest
          iexact Hg
        isplitl [Ho]; · iexact Ho
        isplitl [H0]; · iexact H0
        isplitl [H1]; · iexact H1
        iexists _; iexact H2
  · by_cases h1 : t.val % 12 = 11
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      by_cases hz : t.val = 0
      · exfalso; omega
      · rw [PhiS0_castSucc V c t, PhiS0_pos V c _ _ hz]
        iintro ⟨⟨⟨HS0, Hrest⟩, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk0 V c 0 t) (iblk0 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_C_0 c _ _ _ _ _ _ _ _ _ _ _ _ _ _)
            iexact Hrest
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, Hrest⟩, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_B_0 c _ _ _ _ _ _ _ _ _ _ _ _ _ _)
            iexact Hrest
          iexact Hg
        isplitl [Ho]; · iexact Ho
        isplitl [H0]; · iexact H0
        isplitl [H1]; · iexact H1
        iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives back what the launch handed over: the accumulator's named
    contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 48 := N_0; omega)

end Cert.KernelIdeal.Hand

end
-- ==== Proof.KiR1Runs.lean ====
import proofs.«173690_j65120294142423_1_alg».proof.Proof.Gen.KernelIdeal.Launch
import proofs.«173690_j65120294142423_1_alg».proof.Proof.Gen.KernelIdeal.Skeleton
import proofs.«173690_j65120294142423_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array at the contents `V` the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the left factor's block) is fetched at every point and the body leaves it in place, so its
    current buffer holds the block of the entry contents at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1 (the right factor's block). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, over the grid (point t ↦ (t / 12, t % 12)) -/

/-- The first branch is taken when the reduction coordinate is 0: the accumulator is cleared there. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 12 = 0 :=
  (by decide +kernel : ∀ t : Fin grid1.N, cond1_0 (grid1.coords t) ↔ t.val % 12 = 0)

/-- The second branch is taken when the reduction coordinate is 11, the last: the accumulator is copied out there. -/
abbrev cond1_1 (i : grid1.Coords) : Prop := k1_cond2 i = 1#1
theorem hcond1_1 : ∀ t : Fin cfg1.N, cond1_1 (grid1.coords t) ↔ t.val % 12 = 11 :=
  (by decide +kernel : ∀ t : Fin grid1.N, cond1_1 (grid1.coords t) ↔ t.val % 12 = 11)

/-! ## Where the windows are idle -/

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where the reduction coordinate is 0 (and not last) the output window is idle and is not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- Where the reduction coordinate is strictly between 0 and 11 the output window is idle and is not written back. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- Where the reduction coordinate is 11 the output window is live: the body stores into it. -/
theorem liveAt1_2_C : ∀ t : Fin cfg1.N, ¬cond1_0 (grid1.coords t) → cond1_1 (grid1.coords t) → cfg1.idle 2 (grid1.coords t) = false := by decide +kernel

/-! ## The memrefs the body is called on -/

/-- One buffer of the output window, through which its contents are stated. -/
abbrev VO1_2 : View sig .tc .vmem S3072x64 .f32 := (Memref.whole cc1_stg2_0 : Memref sig .tc .vmem S3072x64 .f32).view
/-- Each window's current buffer at point `t`, and its wholeness. -/
abbrev ms1_0 (t : Fin cfg1.N) : Memref sig .tc .vmem S3072x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S3072x64 .f32 := win1_2.stage (cfg1.slots t 2)
abbrev hs1_2 (t : Fin cfg1.N) : (ms1_2 t).IsWhole := hstage1_2 ((cfg1.slots t 2).cast nbuf1_2)
/-- The accumulator: a whole scoped buffer of the kernel's own, passed beside the windows. -/
abbrev scM1_0 : Memref sig .tc .vmem S3072x64 .f32 := Memref.whole cc1_scratch0
/-- The accumulator as a view: what it holds between points is stated through it. -/
abbrev VS1_0 : View sig .tc .vmem S3072x64 .f32 := scM1_0.view

/-- The region's invariant with the accumulator as a memref owned at some contents; every other scoped buffer of
    the core that is no buffer of this call's windows (the other call's) stays unopened beside it. -/
theorem PhiA1_eq (c : Dev nD) :
    (Pipeline.ΦA spec1 c : sProp 𝕄)
      = iprop(iprop((∃ d, owns (c : Thread nD τ) scM1_0 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [bigSepL_singleton, scM1_0, owns_whole]; try rfl

end Cert.KernelIdeal.Hand

end
-- ==== Proof.KiR1RunA.lean ====
import proofs.«173690_j65120294142423_1_alg».proof.Proof.KiR1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body where the reduction coordinate is 0 and not the last (first branch taken, second not): on whole memrefs —
    the two factors' blocks at `x0`, `x1`, the output's buffer at any `xi2`, the accumulator at anything — it runs to
    the continuation holding the three windows' buffers as they were and the accumulator with the pieces `LS0` written
    (last first). It stores nothing into the output's buffer (`L2 = []`). -/
noncomputable def kernelRun1_A (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : cond1_0 i) (hc1 : ¬cond1_1 i)
    (x0 : Vec F S3072x1024 .f32) (x1 : Vec F S1024x64 .f32) :
    Σ' (L2 : List (View.Piece (Elt F) S3072x64 .f32)), { LS0 : List (View.Piece (Elt F) S3072x64 .f32) //
      ∀ (xi2 : Vec F S3072x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__big_matmul_kernel i arg2 harg2 arg3 harg3 arg4 harg4 arg5 harg5) K } := by
  refine ⟨[], ?_, fun xi2 E K => ?run⟩
  case run =>
    simp only [cc1__big_matmul_kernel_eq_skeleton]; unfold cc1__big_matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KiR1RunB.lean ====
import proofs.«173690_j65120294142423_1_alg».proof.Proof.KiR1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body where the reduction coordinate is strictly between 0 and 11 (neither branch taken): on whole memrefs —
    the two factors' blocks at `x0`, `x1`, the output's buffer at any `xi2`, the accumulator at what the point before
    left, `xs0` — it runs to the continuation holding the three windows' buffers as they were and the accumulator with
    the pieces `LS0` written (last first). It stores nothing into the output's buffer (`L2 = []`). -/
noncomputable def kernelRun1_B (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond1_0 i) (hc1 : ¬cond1_1 i)
    (x0 : Vec F S3072x1024 .f32) (x1 : Vec F S1024x64 .f32) (xs0 : Vec F S3072x64 .f32) :
    Σ' (L2 : List (View.Piece (Elt F) S3072x64 .f32)), { LS0 : List (View.Piece (Elt F) S3072x64 .f32) //
      ∀ (xi2 : Vec F S3072x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__big_matmul_kernel i arg2 harg2 arg3 harg3 arg4 harg4 arg5 harg5) K } := by
  refine ⟨[], ?_, fun xi2 E K => ?run⟩
  case run =>
    simp only [cc1__big_matmul_kernel_eq_skeleton]; unfold cc1__big_matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KiR1RunC.lean ====
import proofs.«173690_j65120294142423_1_alg».proof.Proof.KiR1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body where the reduction coordinate is 11, the last, and not 0 (first branch not taken, second taken): on whole
    memrefs — the two factors' blocks at `x0`, `x1`, the output's buffer at anything, the accumulator at what the point
    before left, `xs0` — it runs to the continuation holding the factors' buffers as they were, the output's buffer with
    the pieces `L2` written and the accumulator with the pieces `LS0` written (last first). -/
noncomputable def kernelRun1_C (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond1_0 i) (hc1 : cond1_1 i)
    (x0 : Vec F S3072x1024 .f32) (x1 : Vec F S1024x64 .f32) (xs0 : Vec F S3072x64 .f32) :
    Σ' (L2 : List (View.Piece (Elt F) S3072x64 .f32)), { LS0 : List (View.Piece (Elt F) S3072x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__big_matmul_kernel i arg2 harg2 arg3 harg3 arg4 harg4 arg5 harg5) K } := by
  refine ⟨?_, ?_, fun E K => ?run⟩
  case run =>
    simp only [cc1__big_matmul_kernel_eq_skeleton]; unfold cc1__big_matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KiR1Frame.lean ====
/- Region 0 (the first accumulating matrix product, grid 4 × 12): what the output window's staging buffer and the
   accumulator hold after each grid point, the proof data of the region's pipeline at entry contents `V`, and the
   body obligation. A row tile is twelve consecutive points: the first zeroes the accumulator and adds the first
   partial product, the middle ones add theirs, the last adds its own and stores the finished sum into the output
   window, which is written back only there. -/
import proofs.«173690_j65120294142423_1_alg».proof.Proof.KiR1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output's staging buffer and in the accumulator -/

/-- At a first point of a row tile the body stores nothing into the output window: no pieces. A placeholder
    that nothing consults, since at these points the window is neither written back nor read at the next point. -/
def out1_A_2 (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : cond1_0 i) (hc1 : ¬cond1_1 i)
    (x0 : Vec F S3072x1024 .f32) (x1 : Vec F S1024x64 .f32) : Vec F S3072x64 .f32 :=
  VO1_2.read (Elt F) (VO1_2.writes (Elt F) VO1_2.junk (kernelRun1_A c i arg2 harg2 arg3 harg3 arg4 harg4 arg5 harg5 hc0 hc1 x0 x1).1)

/-- At a first point of a row tile the pieces stored into the accumulator (the zero fill, then the first partial
    product over it) cover it. -/
theorem scover1_A_0 (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : cond1_0 i) (hc1 : ¬cond1_1 i)
    (x0 : Vec F S3072x1024 .f32) (x1 : Vec F S1024x64 .f32) (y : S3072x64.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S3072x64.size (by sl_kernel_rfl) y

/-- What a first point of a row tile leaves in the accumulator: its pieces read back. -/
def sout1_A_0 (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : cond1_0 i) (hc1 : ¬cond1_1 i)
    (x0 : Vec F S3072x1024 .f32) (x1 : Vec F S1024x64 .f32) : Vec F S3072x64 .f32 :=
  VS1_0.read (Elt F) (VS1_0.writes (Elt F) VS1_0.junk (kernelRun1_A c i arg2 harg2 arg3 harg3 arg4 harg4 arg5 harg5 hc0 hc1 x0 x1).2.1)

/-- At a middle point of a row tile the body stores nothing into the output window: no pieces, a placeholder. -/
def out1_B_2 (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond1_0 i) (hc1 : ¬cond1_1 i)
    (x0 : Vec F S3072x1024 .f32) (x1 : Vec F S1024x64 .f32) (xs0 : Vec F S3072x64 .f32) : Vec F S3072x64 .f32 :=
  VO1_2.read (Elt F) (VO1_2.writes (Elt F) VO1_2.junk (kernelRun1_B c i arg2 harg2 arg3 harg3 arg4 harg4 arg5 harg5 hc0 hc1 x0 x1 xs0).1)

/-- At a middle point the one piece stored into the accumulator (what it held plus this point's partial product)
    covers it. -/
theorem scover1_B_0 (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond1_0 i) (hc1 : ¬cond1_1 i)
    (x0 : Vec F S3072x1024 .f32) (x1 : Vec F S1024x64 .f32) (xs0 : Vec F S3072x64 .f32) (y : S3072x64.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S3072x64.size (by sl_kernel_rfl) y

/-- What a middle point leaves in the accumulator: its piece read back. -/
def sout1_B_0 (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond1_0 i) (hc1 : ¬cond1_1 i)
    (x0 : Vec F S3072x1024 .f32) (x1 : Vec F S1024x64 .f32) (xs0 : Vec F S3072x64 .f32) : Vec F S3072x64 .f32 :=
  VS1_0.read (Elt F) (VS1_0.writes (Elt F) VS1_0.junk (kernelRun1_B c i arg2 harg2 arg3 harg3 arg4 harg4 arg5 harg5 hc0 hc1 x0 x1 xs0).2.1)

/-- At the last point of a row tile the one store into the output window (the finished accumulator) covers its block. -/
theorem cover1_C_2 (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond1_0 i) (hc1 : cond1_1 i)
    (x0 : Vec F S3072x1024 .f32) (x1 : Vec F S1024x64 .f32) (xs0 : Vec F S3072x64 .f32) (y : S3072x64.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S3072x64.size (by sl_kernel_rfl) y

/-- What the last point of a row tile leaves in the output's staging buffer: its piece read back. -/
def out1_C_2 (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond1_0 i) (hc1 : cond1_1 i)
    (x0 : Vec F S3072x1024 .f32) (x1 : Vec F S1024x64 .f32) (xs0 : Vec F S3072x64 .f32) : Vec F S3072x64 .f32 :=
  VO1_2.read (Elt F) (VO1_2.writes (Elt F) VO1_2.junk (kernelRun1_C c i arg2 harg2 arg3 harg3 arg4 harg4 arg5 harg5 hc0 hc1 x0 x1 xs0).1)

/-- At the last point the one piece stored into the accumulator covers it. -/
theorem scover1_C_0 (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond1_0 i) (hc1 : cond1_1 i)
    (x0 : Vec F S3072x1024 .f32) (x1 : Vec F S1024x64 .f32) (xs0 : Vec F S3072x64 .f32) (y : S3072x64.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S3072x64.size (by sl_kernel_rfl) y

/-- What the last point of a row tile leaves in the accumulator: its piece read back. -/
def sout1_C_0 (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond1_0 i) (hc1 : cond1_1 i)
    (x0 : Vec F S3072x1024 .f32) (x1 : Vec F S1024x64 .f32) (xs0 : Vec F S3072x64 .f32) : Vec F S3072x64 .f32 :=
  VS1_0.read (Elt F) (VS1_0.writes (Elt F) VS1_0.junk (kernelRun1_C c i arg2 harg2 arg3 harg3 arg4 harg4 arg5 harg5 hc0 hc1 x0 x1 xs0).2.1)

/-! ## What the output's buffer and the accumulator hold after each point -/

/-- The accumulation. After the body at position `n`: the output window's staging buffer, then the accumulator.
    The position's residue mod 12 selects the case (0: first point of a row tile, 11: last, otherwise a middle
    point); the case is run at the point's memrefs and its two input blocks, the accumulator entering at what
    position `n - 1` left in it. A residue both 0 and 11 is no point. -/
def outsAt1 (c : Dev nD) : (n : ℕ) → n < cfg1.N → Vec F S3072x64 .f32 × Vec F S3072x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 12 = 0 then
      if h1 : (n + 1) % 12 = 11 then
        False.elim (by have hN : n + 1 < 48 := lt_of_lt_of_eq hn (show cfg1.N = 48 from N_1); omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 12 = 11 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a first point of a row tile. -/
theorem outsAt1_A (c : Dev nD) (t : Fin cfg1.N) (h0 : t.val % 12 = 0) (h1 : ¬t.val % 12 = 11) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a middle point: that case over what the point before left in the accumulator. -/
theorem outsAt1_B (c : Dev nD) (t : Fin cfg1.N) (h0 : ¬t.val % 12 = 0) (h1 : ¬t.val % 12 = 11) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last point of a row tile: that case over what the point before left in the accumulator. -/
theorem outsAt1_C (c : Dev nD) (t : Fin cfg1.N) (h0 : ¬t.val % 12 = 0) (h1 : t.val % 12 = 11) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`. Before the first point: what the launch hands over (the accumulator
    at anything). Afterwards: the accumulator at what the point before left in it (`outsAt1`'s second component),
    the core's other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of this call's pipeline on core `c`: the arrays as the region finds them (`V`); after the body
    at point `t` each input's buffer at its block and the output's at `outsAt1`'s first component; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- Every share is the full one. -/
theorem q_eq1 (c : Dev nD) (w : Fin cfg1.W) : (dat1 V c).q w = fullShare := rfl

/-- Nothing is owed at any position. -/
theorem owed_eq1 (c : Dev nD) (t : Fin (cfg1.N + 1)) : (dat1 V c).owed t = 0 := rfl

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The two inputs' memrefs hold their blocks; the residue of the position mod 12 says which
    case the point is in, so that case's run applies. The invariant hands the body the accumulator at what the point
    before left (at anything at the very first point) and takes it back at this point's contents, the pieces stored
    covering it; the core's other scoped buffers and the generator register pass through untouched; nothing is owed
    throughout. The output window is handed back as found except at the last point of a row tile, where its one
    store covers it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 48 := lt_of_lt_of_eq t.isLt (show cfg1.N = 48 from N_1)
  by_cases h0 : t.val % 12 = 0
  · by_cases h1 : t.val % 12 = 11
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _)
            iexact Hrest
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, Hrest⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _)
            iexact Hrest
          iexact Hg
        isplitl [Ho]; · iexact Ho
        isplitl [H0]; · iexact H0
        isplitl [H1]; · iexact H1
        iexists _; iexact H2
  · by_cases h1 : t.val % 12 = 11
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_C_0 c _ _ _ _ _ _ _ _ _ _ _ _ _ _)
            iexact Hrest
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_B_0 c _ _ _ _ _ _ _ _ _ _ _ _ _ _)
            iexact Hrest
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the accumulator's named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 48 := N_1; omega)

end Cert.KernelIdeal.Hand

end
-- ==== Proof.KiLaunch.lean ====
/-
  The whole program as a sequence of items: six stretches of host operations and, between them, the two pipelined products
  `adj · v`. Each product is a grid of 4 × 12 points: point (i, k) multiplies a 3072 × 1024 block of `adj` with a 1024 × 64
  block of `v` into an accumulator that is cleared at k = 0 and copied to the output block at k = 11. Here the two
  pipelines' records (what their arrays hold on entry and on exit, the body's obligation at every point, what rides
  beside the buffers) are put into the program's run: from any memory every execution terminates and every unscoped buffer
  ends at what the items leave in it in order. The frame and the value claims are both read off that one run.
-/
import proofs.«173690_j65120294142423_1_alg».proof.Proof.Gen.KernelIdeal.Regions
import proofs.«173690_j65120294142423_1_alg».proof.Proof.Gen.KernelIdeal.Points
import proofs.«173690_j65120294142423_1_alg».proof.Proof.Gen.KernelIdeal.Skeleton
import proofs.«173690_j65120294142423_1_alg».proof.Proof.KiR0Frame
import proofs.«173690_j65120294142423_1_alg».proof.Proof.KiR1Frame
import Idealize.ShloMosaic.Lib.Pipeline.Kit
import Idealize.ShloMosaic.Lib.Pipeline.Frame
import Idealize.ShloMosaic.Lib.Pipeline.FrameBody
import Idealize.ShloMosaic.Lib.Pipeline.FrameSuffix
import Idealize.ShloMosaic.Lib.Pipeline.Regions
import Idealize.ShloMosaic.Lib.Pipeline.RegionsLoop
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two regions leave, and the buffers' contents between @main's items -/

/-- Region 0 is entered with the buffers after the first host stretch. -/
abbrev Ve0 : (c : Dev nD) → (b : Ref sig .tc) → Buf (Elt F) ((c : Thread nD τ).loc b) := fun c b => Gen.V1 m c b
/-- What region 0 leaves in its output array: the write-backs of its 48 points folded. -/
def o1 (c : Dev nD) : Buf (Elt F) ((c : Thread nD τ).loc main_v1) := (dat0 (Ve0 m) c).arrAt 2 cfg0.N
/-- The buffers after region 0. -/
def W2 (c : Dev nD) : Valuation τ sig (Elt F) := Function.update (Gen.V1 m c) main_v1 (o1 m c)
/-- The regions' outputs known so far: region 0's. -/
def outsA : Gen.Outs (F := F) := fun _ r c => W2 m c r
theorem V2_outsA (c : Dev nD) : Gen.V2 m (outsA m) c = W2 m c := by
  show Function.update (Gen.V1 m c) main_v1 (W2 m c main_v1) = W2 m c
  unfold W2; rw [Function.update_self]
/-- Region 1 is entered with the buffers after the host stretches that follow region 0. -/
abbrev Ve1 : (c : Dev nD) → (b : Ref sig .tc) → Buf (Elt F) ((c : Thread nD τ).loc b) := fun c b => Gen.V5 m (outsA m) c b
/-- What region 1 leaves in its output array. -/
def o2 (c : Dev nD) : Buf (Elt F) ((c : Thread nD τ).loc main_v42) := (dat1 (Ve1 m) c).arrAt 2 cfg1.N
/-- The buffers after region 1. -/
def W6 (c : Dev nD) : Valuation τ sig (Elt F) := Function.update (Gen.V5 m (outsA m) c) main_v42 (o2 m c)
/-- Both regions' outputs. -/
def outs : Gen.Outs (F := F) := fun J r c => if J = 2 then W2 m c r else W6 m c r
theorem V2_outs (c : Dev nD) : Gen.V2 m (outs m) c = W2 m c := by
  show Function.update (Gen.V1 m c) main_v1 (if (2 : ℕ) = 2 then W2 m c main_v1 else W6 m c main_v1) = W2 m c
  rw [if_pos rfl]; unfold W2; rw [Function.update_self]
theorem V5_outs (c : Dev nD) : Gen.V5 m (outs m) c = Gen.V5 m (outsA m) c := by
  show StableHlo.after hostOps1_2 (StableHlo.after hostOps1_1 (StableHlo.after hostOps1 (Gen.V2 m (outs m) c)))
    = StableHlo.after hostOps1_2 (StableHlo.after hostOps1_1 (StableHlo.after hostOps1 (Gen.V2 m (outsA m) c)))
  rw [V2_outs, V2_outsA]
theorem V6_outs (c : Dev nD) : Gen.V6 m (outs m) c = W6 m c := by
  show Function.update (Gen.V5 m (outs m) c) main_v42 (if (6 : ℕ) = 2 then W2 m c main_v42 else W6 m c main_v42) = W6 m c
  rw [if_neg (by decide), V5_outs]; unfold W6; rw [Function.update_self]

/-! ## The proof data family and the thread states -/

/-- No pallas_call has a prefetched table. -/
abbrev adm : (p : Fin 2) → (pcfgs (F := F) p).Adm := fun p => (cfgs p).toPCfg_adm

/-- Every region's proof data, each at its own entry contents. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c

abbrev 𝒱₀ : Variants := Variants.none
abbrev Lq : GSem nD τ sig → Finset Unit := fun _ => ∅
abbrev lvq : GSem nD τ sig → Unit → ℕ := fun _ _ => 0

/-- What rides beside the buffers through every item: the generator register at some state, and the core owing nothing. -/
abbrev R (c : Dev nD) : sProp 𝕄 := iprop((∃ r, prngReg c r) ∗ ∃ W, owes (c : Thread nD τ) (0 : CellTallies nD τ sig Unit) W)

/-- After region 0 each of its three arrays holds what the pipeline leaves: the two inputs as entered, the output its
    folded write-backs. -/
theorem hF0 (c : Dev nD) (w : Fin cfg0.W) : (pdats m 0 c).arrAt w cfg0.N = Gen.V2 m (outs m) c (Pipeline.arrRef spec0 w) := by
  rw [V2_outs]
  have hne : ∀ r : Ref sig .tc, r ≠ main_v1 → W2 m c r = Gen.V1 m c r := fun r hr => by
    unfold W2; exact Function.update_of_ne (StableHlo.devRef_ne_of_ne hr) _ _
  fin_cases w
  · exact ((dat0 (Ve0 m) c).arrAt_in 0 rfl _).trans ((A_eq0 (Ve0 m) c 0).trans (hne main_arg1 (by decide)).symm)
  · exact ((dat0 (Ve0 m) c).arrAt_in 1 rfl _).trans ((A_eq0 (Ve0 m) c 1).trans (hne main_v0 (by decide)).symm)
  · show (dat0 (Ve0 m) c).arrAt 2 cfg0.N = W2 m c main_v1
    unfold W2 o1; rw [Function.update_self]
/-- Every other buffer is as region 0 found it. -/
theorem hrest0 (c : Dev nD) : ∀ b, b ∉ Finset.univ.image (Pipeline.arrRef spec0) → (fun b : Ref sig .tc => Gen.V2 m (outs m) c b) b = Ve0 m c b := by
  intro b hb
  show Gen.V2 m (outs m) c b = Gen.V1 m c b
  rw [V2_outs]; unfold W2
  exact Function.update_of_ne (StableHlo.devRef_ne_of_ne fun e => hb (Finset.mem_image.mpr ⟨2, Finset.mem_univ _, e.symm⟩)) _ _

set_option backward.isDefEq.respectTransparency.types false in
/-- Region 0 as an item of @main: entered with every unscoped buffer at the contents after the first host stretch, left with
    its output array at what the pipeline wrote back. -/
def reg0 : Pipeline.RegionSeg (pcfgs (F := F)) adm (pdats m) () defs₀ 𝒱₀ Lq lvq 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ Lq lvq 0 fun c t => owed_eq0 (Ve0 m) c t
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun w => q_eq0 (Ve0 m) c w) (Ve0 m c) fun w => A_eq0 (Ve0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Ve0 m) c)
    unfold Pipeline.ΦA
    iintro ⟨Hp, -, Hr⟩
    isplitl [Hr]; · iexact Hr
    iexact Hp
  hout c := by
    rw [Pipeline.ownSems0_none]
    refine (hout0 (Ve0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q_eq0 (Ve0 m) c w)
      (Ve0 m c) (fun b : Ref sig .tc => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    have ho : (pdats m 0 c).owed (Fin.last (Pipeline.pin (pcfgs (F := F)) adm 0).N) = 0 := owed_eq0 (Ve0 m) c _
    unfold Pipeline.Dat.owesAt Pipeline.owesWithin
    rw [ho]
    icases HO with ⟨%W, -, HO⟩; iexists W; iexact HO

/-- After region 1 each of its three arrays holds what the pipeline leaves: the two inputs as entered, the output its
    folded write-backs. -/
theorem hF1 (c : Dev nD) (w : Fin cfg1.W) : (pdats m 1 c).arrAt w cfg1.N = Gen.V6 m (outs m) c (Pipeline.arrRef spec1 w) := by
  rw [V6_outs]
  have hne : ∀ r : Ref sig .tc, r ≠ main_v42 → W6 m c r = Gen.V5 m (outsA m) c r := fun r hr => by
    unfold W6; exact Function.update_of_ne (StableHlo.devRef_ne_of_ne hr) _ _
  fin_cases w
  · exact ((dat1 (Ve1 m) c).arrAt_in 0 rfl _).trans ((A_eq1 (Ve1 m) c 0).trans (hne main_arg1 (by decide)).symm)
  · exact ((dat1 (Ve1 m) c).arrAt_in 1 rfl _).trans ((A_eq1 (Ve1 m) c 1).trans (hne main_v41 (by decide)).symm)
  · show (dat1 (Ve1 m) c).arrAt 2 cfg1.N = W6 m c main_v42
    unfold W6 o2; rw [Function.update_self]
/-- Every other buffer is as region 1 found it. -/
theorem hrest1 (c : Dev nD) : ∀ b, b ∉ Finset.univ.image (Pipeline.arrRef spec1) → (fun b : Ref sig .tc => Gen.V6 m (outs m) c b) b = Ve1 m c b := by
  intro b hb
  show Gen.V6 m (outs m) c b = Gen.V5 m (outsA m) c b
  rw [V6_outs]; unfold W6
  exact Function.update_of_ne (StableHlo.devRef_ne_of_ne fun e => hb (Finset.mem_image.mpr ⟨2, Finset.mem_univ _, e.symm⟩)) _ _

set_option backward.isDefEq.respectTransparency.types false in
/-- Region 1 as an item of @main: entered with every unscoped buffer at the contents after the host stretches that follow
    region 0, left with its output array at what the pipeline wrote back. -/
def reg1 : Pipeline.RegionSeg (pcfgs (F := F)) adm (pdats m) () defs₀ 𝒱₀ Lq lvq 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ Lq lvq 1 fun c t => owed_eq1 (Ve1 m) c t
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none, V5_outs]
    have hsplit := Pipeline.arrays_of_unscopedBufs (p := 1) (pcfgs (F := F)) adm (pdats m) launch1.win launch1.arr_whole c
      ((pdats m 1 c).share_full fun w => q_eq1 (Ve1 m) c w) (Ve1 m c) fun w => A_eq1 (Ve1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Ve1 m) c)
    unfold Pipeline.ΦA
    iintro ⟨Hp, -, Hr⟩
    isplitl [Hr]; · iexact Hr
    iexact Hp
  hout c := by
    rw [Pipeline.ownSems0_none]
    refine (hout1 (Ve1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q_eq1 (Ve1 m) c w)
      (Ve1 m c) (fun b : Ref sig .tc => Gen.V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    have ho : (pdats m 1 c).owed (Fin.last (Pipeline.pin (pcfgs (F := F)) adm 1).N) = 0 := owed_eq1 (Ve1 m) c _
    unfold Pipeline.Dat.owesAt Pipeline.owesWithin
    rw [ho]
    icases HO with ⟨%W, -, HO⟩; iexists W; iexact HO

/-! ## The launch -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem outs_v1 (c : Dev nD) : outs m 2 main_v1 c = (dat0 (Ve0 m) c).arrAt 2 cfg0.N := by
  show (if (2 : ℕ) = 2 then W2 m c main_v1 else W6 m c main_v1) = _
  rw [if_pos rfl]; unfold W2 o1; rw [Function.update_self]
theorem outs_v42 (c : Dev nD) : outs m 6 main_v42 c = (dat1 (Ve1 m) c).arrAt 2 cfg1.N := by
  show (if (6 : ℕ) = 2 then W2 m c main_v42 else W6 m c main_v42) = _
  rw [if_neg (by decide)]; unfold W6 o2; rw [Function.update_self]

/-- Beside the buffers every item carries the same state. -/
abbrev Eq : Fin 3 → Dev nD → sProp 𝕄 := fun _ c => R c

set_option backward.isDefEq.respectTransparency.types false in
/-- THE RUN. From any memory with zero counters every weakly fair execution of @main terminates, nothing faulting, and in the
    final memory every unscoped buffer of a core holds what the items of @main leave there in order: the host stretches'
    results and, in the two output arrays, what the two pipelines wrote back. -/
theorem run_all : θ_run defs (onTc (τ := τ) (main (F := F))) ⟨m, fun _ => 0, ρ⟩
    (fun r => ∀ c : Dev nD, ∀ b ∈ Pipeline.ucRefs τ sig, r.2.mem ((c : Thread nD τ).1, b) = Gen.V8 m (outs m) c b) := by
  refine Pipeline.θ_run_regions_kit_dev (pcfgs (F := F)) adm (pdats m) () cellOf_inj emb₁ defs₀ 𝒱₀ Lq lvq m ρ main
    (Gen.segs m (outs m) 𝒱₀ Lq lvq Eq () (pdats m) (reg0 m) (reg1 m))
    (fun c Q => by
      rewrite [main_chain c, Seg.run_eq_chain,
        show (Gen.segs m (outs m) 𝒱₀ Lq lvq Eq () (pdats m) (reg0 m) (reg1 m) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V8 m (outs m) c))
    (hch := fun c => ⟨.rfl, .rfl, .rfl, .rfl, .rfl, .rfl, .rfl, .rfl, sep_mono .rfl (by iintro ⟨-, H⟩; iexact H)⟩)
    (hinit := by
      refine Pipeline.initEach Lq lvq fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V8 m (outs m) c b)
    (hfin := fun c s' => by
      iintro ⟨Hh, HSI⟩
      unfold StableHlo.held
      imodintro
      iapply (pointsTo_read_all (Pipeline.ucRefs τ sig) (fun b => (((c : Thread nD τ)).1, b)) (Gen.V8 m (outs m) c) s')
      isplitl [Hh] <;> iassumption)
    (hQ := fun s h c => h c)

end Cert.KernelIdeal.Hand

end
-- ==== Proof.KbR0Runs.lean ====
import proofs.«173690_j65120294142423_1_alg».proof.Proof.Gen.Kernel.Launch
import proofs.«173690_j65120294142423_1_alg».proof.Proof.Gen.Kernel.Skeleton
import proofs.«173690_j65120294142423_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array at the contents `V` the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the left factor's block) is fetched at every point and the body leaves it in place, so its
    current buffer holds the block of the entry contents at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1 (the right factor's block). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, over the grid (point t ↦ (t / 12, t % 12)) -/

/-- The first branch is taken when the reduction coordinate is 0: the accumulator is cleared there. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 12 = 0 :=
  (by decide +kernel : ∀ t : Fin grid0.N, cond0_0 (grid0.coords t) ↔ t.val % 12 = 0)

/-- The second branch is taken when the reduction coordinate is 11, the last: the accumulator is copied out there. -/
abbrev cond0_1 (i : grid0.Coords) : Prop := k0_cond2 i = 1#1
theorem hcond0_1 : ∀ t : Fin cfg0.N, cond0_1 (grid0.coords t) ↔ t.val % 12 = 11 :=
  (by decide +kernel : ∀ t : Fin grid0.N, cond0_1 (grid0.coords t) ↔ t.val % 12 = 11)

/-! ## Where the windows are idle -/

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Where the reduction coordinate is 0 (and not last) the output window is idle and is not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- Where the reduction coordinate is strictly between 0 and 11 the output window is idle and is not written back. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- Where the reduction coordinate is 11 the output window is live: the body stores into it. -/
theorem liveAt0_2_C : ∀ t : Fin cfg0.N, ¬cond0_0 (grid0.coords t) → cond0_1 (grid0.coords t) → cfg0.idle 2 (grid0.coords t) = false := by decide +kernel

/-! ## The memrefs the body is called on -/

/-- One buffer of the output window, through which its contents are stated. -/
abbrev VO0_2 : View sig .tc .vmem S3072x64 .f32 := (Memref.whole cc0_stg2_0 : Memref sig .tc .vmem S3072x64 .f32).view
/-- Each window's current buffer at point `t`, and its wholeness. -/
abbrev ms0_0 (t : Fin cfg0.N) : Memref sig .tc .vmem S3072x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3072x64 .f32 := win0_2.stage (cfg0.slots t 2)
abbrev hs0_2 (t : Fin cfg0.N) : (ms0_2 t).IsWhole := hstage0_2 ((cfg0.slots t 2).cast nbuf0_2)
/-- The accumulator: a whole scoped buffer of the kernel's own, passed beside the windows. -/
abbrev scM0_0 : Memref sig .tc .vmem S3072x64 .f32 := Memref.whole cc0_scratch0
/-- The accumulator as a view: what it holds between points is stated through it. -/
abbrev VS0_0 : View sig .tc .vmem S3072x64 .f32 := scM0_0.view

/-- The region's invariant with the accumulator as a memref owned at some contents; every other scoped buffer of
    the core that is no buffer of this call's windows (the other call's) stays unopened beside it. -/
theorem PhiA0_eq (c : Dev nD) :
    (Pipeline.ΦA spec0 c : sProp 𝕄)
      = iprop(iprop((∃ d, owns (c : Thread nD τ) scM0_0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [bigSepL_singleton, scM0_0, owns_whole]; try rfl

end Cert.Kernel.Hand

end
-- ==== Proof.KbR0RunA.lean ====
import proofs.«173690_j65120294142423_1_alg».proof.Proof.KbR0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body where the reduction coordinate is 0 and not the last (first branch taken, second not): on whole memrefs —
    the two factors' blocks at `x0`, `x1`, the output's buffer at any `xi2`, the accumulator at anything — it runs to
    the continuation holding the three windows' buffers as they were and the accumulator with the pieces `LS0` written
    (last first). It stores nothing into the output's buffer (`L2 = []`). -/
noncomputable def kernelRun0_A (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : cond0_0 i) (hc1 : ¬cond0_1 i)
    (x0 : Vec F S3072x1024 .f32) (x1 : Vec F S1024x64 .f32) :
    Σ' (L2 : List (View.Piece (Elt F) S3072x64 .f32)), { LS0 : List (View.Piece (Elt F) S3072x64 .f32) //
      ∀ (xi2 : Vec F S3072x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__big_matmul_kernel i arg2 harg2 arg3 harg3 arg4 harg4 arg5 harg5) K } := by
  refine ⟨[], ?_, fun xi2 E K => ?run⟩
  case run =>
    simp only [cc0__big_matmul_kernel_eq_skeleton]; unfold cc0__big_matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KbR0RunB.lean ====
import proofs.«173690_j65120294142423_1_alg».proof.Proof.KbR0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body where the reduction coordinate is strictly between 0 and 11 (neither branch taken): on whole memrefs —
    the two factors' blocks at `x0`, `x1`, the output's buffer at any `xi2`, the accumulator at what the point before
    left, `xs0` — it runs to the continuation holding the three windows' buffers as they were and the accumulator with
    the pieces `LS0` written (last first). It stores nothing into the output's buffer (`L2 = []`). -/
noncomputable def kernelRun0_B (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond0_0 i) (hc1 : ¬cond0_1 i)
    (x0 : Vec F S3072x1024 .f32) (x1 : Vec F S1024x64 .f32) (xs0 : Vec F S3072x64 .f32) :
    Σ' (L2 : List (View.Piece (Elt F) S3072x64 .f32)), { LS0 : List (View.Piece (Elt F) S3072x64 .f32) //
      ∀ (xi2 : Vec F S3072x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__big_matmul_kernel i arg2 harg2 arg3 harg3 arg4 harg4 arg5 harg5) K } := by
  refine ⟨[], ?_, fun xi2 E K => ?run⟩
  case run =>
    simp only [cc0__big_matmul_kernel_eq_skeleton]; unfold cc0__big_matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KbR0RunC.lean ====
import proofs.«173690_j65120294142423_1_alg».proof.Proof.KbR0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body where the reduction coordinate is 11, the last, and not 0 (first branch not taken, second taken): on whole
    memrefs — the two factors' blocks at `x0`, `x1`, the output's buffer at anything, the accumulator at what the point
    before left, `xs0` — it runs to the continuation holding the factors' buffers as they were, the output's buffer with
    the pieces `L2` written and the accumulator with the pieces `LS0` written (last first). -/
noncomputable def kernelRun0_C (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond0_0 i) (hc1 : cond0_1 i)
    (x0 : Vec F S3072x1024 .f32) (x1 : Vec F S1024x64 .f32) (xs0 : Vec F S3072x64 .f32) :
    Σ' (L2 : List (View.Piece (Elt F) S3072x64 .f32)), { LS0 : List (View.Piece (Elt F) S3072x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__big_matmul_kernel i arg2 harg2 arg3 harg3 arg4 harg4 arg5 harg5) K } := by
  refine ⟨?_, ?_, fun E K => ?run⟩
  case run =>
    simp only [cc0__big_matmul_kernel_eq_skeleton]; unfold cc0__big_matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KbR0Frame.lean ====
/- Region 0 (the first accumulating matrix product, grid 4 × 12): what the output window's staging buffer and the
   accumulator hold after each grid point, the proof data of the region's pipeline at entry contents `V`, and the
   body obligation. A row tile is twelve consecutive points: the first zeroes the accumulator and adds the first
   partial product, the middle ones add theirs, the last adds its own and stores the finished sum into the output
   window, which is written back only there. -/
import proofs.«173690_j65120294142423_1_alg».proof.Proof.KbR0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output's staging buffer and in the accumulator -/

/-- At a first point of a row tile the body stores nothing into the output window: no pieces. A placeholder
    that nothing consults, since at these points the window is neither written back nor read at the next point. -/
def out0_A_2 (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : cond0_0 i) (hc1 : ¬cond0_1 i)
    (x0 : Vec F S3072x1024 .f32) (x1 : Vec F S1024x64 .f32) : Vec F S3072x64 .f32 :=
  VO0_2.read (Elt F) (VO0_2.writes (Elt F) VO0_2.junk (kernelRun0_A c i arg2 harg2 arg3 harg3 arg4 harg4 arg5 harg5 hc0 hc1 x0 x1).1)

/-- At a first point of a row tile the pieces stored into the accumulator (the zero fill, then the first partial
    product over it) cover it. -/
theorem scover0_A_0 (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : cond0_0 i) (hc1 : ¬cond0_1 i)
    (x0 : Vec F S3072x1024 .f32) (x1 : Vec F S1024x64 .f32) (y : S3072x64.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S3072x64.size (by sl_kernel_rfl) y

/-- What a first point of a row tile leaves in the accumulator: its pieces read back. -/
def sout0_A_0 (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : cond0_0 i) (hc1 : ¬cond0_1 i)
    (x0 : Vec F S3072x1024 .f32) (x1 : Vec F S1024x64 .f32) : Vec F S3072x64 .f32 :=
  VS0_0.read (Elt F) (VS0_0.writes (Elt F) VS0_0.junk (kernelRun0_A c i arg2 harg2 arg3 harg3 arg4 harg4 arg5 harg5 hc0 hc1 x0 x1).2.1)

/-- At a middle point of a row tile the body stores nothing into the output window: no pieces, a placeholder. -/
def out0_B_2 (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond0_0 i) (hc1 : ¬cond0_1 i)
    (x0 : Vec F S3072x1024 .f32) (x1 : Vec F S1024x64 .f32) (xs0 : Vec F S3072x64 .f32) : Vec F S3072x64 .f32 :=
  VO0_2.read (Elt F) (VO0_2.writes (Elt F) VO0_2.junk (kernelRun0_B c i arg2 harg2 arg3 harg3 arg4 harg4 arg5 harg5 hc0 hc1 x0 x1 xs0).1)

/-- At a middle point the one piece stored into the accumulator (what it held plus this point's partial product)
    covers it. -/
theorem scover0_B_0 (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond0_0 i) (hc1 : ¬cond0_1 i)
    (x0 : Vec F S3072x1024 .f32) (x1 : Vec F S1024x64 .f32) (xs0 : Vec F S3072x64 .f32) (y : S3072x64.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S3072x64.size (by sl_kernel_rfl) y

/-- What a middle point leaves in the accumulator: its piece read back. -/
def sout0_B_0 (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond0_0 i) (hc1 : ¬cond0_1 i)
    (x0 : Vec F S3072x1024 .f32) (x1 : Vec F S1024x64 .f32) (xs0 : Vec F S3072x64 .f32) : Vec F S3072x64 .f32 :=
  VS0_0.read (Elt F) (VS0_0.writes (Elt F) VS0_0.junk (kernelRun0_B c i arg2 harg2 arg3 harg3 arg4 harg4 arg5 harg5 hc0 hc1 x0 x1 xs0).2.1)

/-- At the last point of a row tile the one store into the output window (the finished accumulator) covers its block. -/
theorem cover0_C_2 (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond0_0 i) (hc1 : cond0_1 i)
    (x0 : Vec F S3072x1024 .f32) (x1 : Vec F S1024x64 .f32) (xs0 : Vec F S3072x64 .f32) (y : S3072x64.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S3072x64.size (by sl_kernel_rfl) y

/-- What the last point of a row tile leaves in the output's staging buffer: its piece read back. -/
def out0_C_2 (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond0_0 i) (hc1 : cond0_1 i)
    (x0 : Vec F S3072x1024 .f32) (x1 : Vec F S1024x64 .f32) (xs0 : Vec F S3072x64 .f32) : Vec F S3072x64 .f32 :=
  VO0_2.read (Elt F) (VO0_2.writes (Elt F) VO0_2.junk (kernelRun0_C c i arg2 harg2 arg3 harg3 arg4 harg4 arg5 harg5 hc0 hc1 x0 x1 xs0).1)

/-- At the last point the one piece stored into the accumulator covers it. -/
theorem scover0_C_0 (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond0_0 i) (hc1 : cond0_1 i)
    (x0 : Vec F S3072x1024 .f32) (x1 : Vec F S1024x64 .f32) (xs0 : Vec F S3072x64 .f32) (y : S3072x64.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S3072x64.size (by sl_kernel_rfl) y

/-- What the last point of a row tile leaves in the accumulator: its piece read back. -/
def sout0_C_0 (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond0_0 i) (hc1 : cond0_1 i)
    (x0 : Vec F S3072x1024 .f32) (x1 : Vec F S1024x64 .f32) (xs0 : Vec F S3072x64 .f32) : Vec F S3072x64 .f32 :=
  VS0_0.read (Elt F) (VS0_0.writes (Elt F) VS0_0.junk (kernelRun0_C c i arg2 harg2 arg3 harg3 arg4 harg4 arg5 harg5 hc0 hc1 x0 x1 xs0).2.1)

/-! ## What the output's buffer and the accumulator hold after each point -/

/-- The accumulation. After the body at position `n`: the output window's staging buffer, then the accumulator.
    The position's residue mod 12 selects the case (0: first point of a row tile, 11: last, otherwise a middle
    point); the case is run at the point's memrefs and its two input blocks, the accumulator entering at what
    position `n - 1` left in it. A residue both 0 and 11 is no point. -/
def outsAt0 (c : Dev nD) : (n : ℕ) → n < cfg0.N → Vec F S3072x64 .f32 × Vec F S3072x64 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 12 = 0 then
      if h1 : (n + 1) % 12 = 11 then
        False.elim (by have hN : n + 1 < 48 := lt_of_lt_of_eq hn (show cfg0.N = 48 from N_0); omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 12 = 11 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- `outsAt0` at a first point of a row tile. -/
theorem outsAt0_A (c : Dev nD) (t : Fin cfg0.N) (h0 : t.val % 12 = 0) (h1 : ¬t.val % 12 = 11) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a middle point: that case over what the point before left in the accumulator. -/
theorem outsAt0_B (c : Dev nD) (t : Fin cfg0.N) (h0 : ¬t.val % 12 = 0) (h1 : ¬t.val % 12 = 11) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at the last point of a row tile: that case over what the point before left in the accumulator. -/
theorem outsAt0_C (c : Dev nD) (t : Fin cfg0.N) (h0 : ¬t.val % 12 = 0) (h1 : t.val % 12 = 11) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`. Before the first point: what the launch hands over (the accumulator
    at anything). Afterwards: the accumulator at what the point before left in it (`outsAt0`'s second component),
    the core's other scoped buffers unopened, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulator at that point's contents. -/
theorem PhiS0_succ (c : Dev nD) (n : ℕ) (hn : n < cfg0.N) :
    PhiS0 V c (n + 1) hn = iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The proof data of this call's pipeline on core `c`: the arrays as the region finds them (`V`); after the body
    at point `t` each input's buffer at its block and the output's at `outsAt0`'s first component; the invariant
    `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- Every share is the full one. -/
theorem q_eq0 (c : Dev nD) (w : Fin cfg0.W) : (dat0 V c).q w = fullShare := rfl

/-- Nothing is owed at any position. -/
theorem owed_eq0 (c : Dev nD) (t : Fin (cfg0.N + 1)) : (dat0 V c).owed t = 0 := rfl

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The two inputs' memrefs hold their blocks; the residue of the position mod 12 says which
    case the point is in, so that case's run applies. The invariant hands the body the accumulator at what the point
    before left (at anything at the very first point) and takes it back at this point's contents, the pieces stored
    covering it; the core's other scoped buffers and the generator register pass through untouched; nothing is owed
    throughout. The output window is handed back as found except at the last point of a row tile, where its one
    store covers it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 48 := lt_of_lt_of_eq t.isLt (show cfg0.N = 48 from N_0)
  by_cases h0 : t.val % 12 = 0
  · by_cases h1 : t.val % 12 = 11
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hrest⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _)
            iexact Hrest
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, Hrest⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _)
            iexact Hrest
          iexact Hg
        isplitl [Ho]; · iexact Ho
        isplitl [H0]; · iexact H0
        isplitl [H1]; · iexact H1
        iexists _; iexact H2
  · by_cases h1 : t.val % 12 = 11
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      by_cases hz : t.val = 0
      · exfalso; omega
      · rw [PhiS0_castSucc V c t, PhiS0_pos V c _ _ hz]
        iintro ⟨⟨⟨HS0, Hrest⟩, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk0 V c 0 t) (iblk0 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_C_0 c _ _ _ _ _ _ _ _ _ _ _ _ _ _)
            iexact Hrest
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, Hrest⟩, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_B_0 c _ _ _ _ _ _ _ _ _ _ _ _ _ _)
            iexact Hrest
          iexact Hg
        isplitl [Ho]; · iexact Ho
        isplitl [H0]; · iexact H0
        isplitl [H1]; · iexact H1
        iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives back what the launch handed over: the accumulator's named
    contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 48 := N_0; omega)

end Cert.Kernel.Hand

end
-- ==== Proof.KbR1Runs.lean ====
import proofs.«173690_j65120294142423_1_alg».proof.Proof.Gen.Kernel.Launch
import proofs.«173690_j65120294142423_1_alg».proof.Proof.Gen.Kernel.Skeleton
import proofs.«173690_j65120294142423_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array at the contents `V` the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the left factor's block) is fetched at every point and the body leaves it in place, so its
    current buffer holds the block of the entry contents at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1 (the right factor's block). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, over the grid (point t ↦ (t / 12, t % 12)) -/

/-- The first branch is taken when the reduction coordinate is 0: the accumulator is cleared there. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 12 = 0 :=
  (by decide +kernel : ∀ t : Fin grid1.N, cond1_0 (grid1.coords t) ↔ t.val % 12 = 0)

/-- The second branch is taken when the reduction coordinate is 11, the last: the accumulator is copied out there. -/
abbrev cond1_1 (i : grid1.Coords) : Prop := k1_cond2 i = 1#1
theorem hcond1_1 : ∀ t : Fin cfg1.N, cond1_1 (grid1.coords t) ↔ t.val % 12 = 11 :=
  (by decide +kernel : ∀ t : Fin grid1.N, cond1_1 (grid1.coords t) ↔ t.val % 12 = 11)

/-! ## Where the windows are idle -/

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where the reduction coordinate is 0 (and not last) the output window is idle and is not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- Where the reduction coordinate is strictly between 0 and 11 the output window is idle and is not written back. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- Where the reduction coordinate is 11 the output window is live: the body stores into it. -/
theorem liveAt1_2_C : ∀ t : Fin cfg1.N, ¬cond1_0 (grid1.coords t) → cond1_1 (grid1.coords t) → cfg1.idle 2 (grid1.coords t) = false := by decide +kernel

/-! ## The memrefs the body is called on -/

/-- One buffer of the output window, through which its contents are stated. -/
abbrev VO1_2 : View sig .tc .vmem S3072x64 .f32 := (Memref.whole cc1_stg2_0 : Memref sig .tc .vmem S3072x64 .f32).view
/-- Each window's current buffer at point `t`, and its wholeness. -/
abbrev ms1_0 (t : Fin cfg1.N) : Memref sig .tc .vmem S3072x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S3072x64 .f32 := win1_2.stage (cfg1.slots t 2)
abbrev hs1_2 (t : Fin cfg1.N) : (ms1_2 t).IsWhole := hstage1_2 ((cfg1.slots t 2).cast nbuf1_2)
/-- The accumulator: a whole scoped buffer of the kernel's own, passed beside the windows. -/
abbrev scM1_0 : Memref sig .tc .vmem S3072x64 .f32 := Memref.whole cc1_scratch0
/-- The accumulator as a view: what it holds between points is stated through it. -/
abbrev VS1_0 : View sig .tc .vmem S3072x64 .f32 := scM1_0.view

/-- The region's invariant with the accumulator as a memref owned at some contents; every other scoped buffer of
    the core that is no buffer of this call's windows (the other call's) stays unopened beside it. -/
theorem PhiA1_eq (c : Dev nD) :
    (Pipeline.ΦA spec1 c : sProp 𝕄)
      = iprop(iprop((∃ d, owns (c : Thread nD τ) scM1_0 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [bigSepL_singleton, scM1_0, owns_whole]; try rfl

end Cert.Kernel.Hand

end
-- ==== Proof.KbR1RunA.lean ====
import proofs.«173690_j65120294142423_1_alg».proof.Proof.KbR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body where the reduction coordinate is 0 and not the last (first branch taken, second not): on whole memrefs —
    the two factors' blocks at `x0`, `x1`, the output's buffer at any `xi2`, the accumulator at anything — it runs to
    the continuation holding the three windows' buffers as they were and the accumulator with the pieces `LS0` written
    (last first). It stores nothing into the output's buffer (`L2 = []`). -/
noncomputable def kernelRun1_A (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : cond1_0 i) (hc1 : ¬cond1_1 i)
    (x0 : Vec F S3072x1024 .f32) (x1 : Vec F S1024x64 .f32) :
    Σ' (L2 : List (View.Piece (Elt F) S3072x64 .f32)), { LS0 : List (View.Piece (Elt F) S3072x64 .f32) //
      ∀ (xi2 : Vec F S3072x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__big_matmul_kernel i arg2 harg2 arg3 harg3 arg4 harg4 arg5 harg5) K } := by
  refine ⟨[], ?_, fun xi2 E K => ?run⟩
  case run =>
    simp only [cc1__big_matmul_kernel_eq_skeleton]; unfold cc1__big_matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KbR1RunB.lean ====
import proofs.«173690_j65120294142423_1_alg».proof.Proof.KbR1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body where the reduction coordinate is strictly between 0 and 11 (neither branch taken): on whole memrefs —
    the two factors' blocks at `x0`, `x1`, the output's buffer at any `xi2`, the accumulator at what the point before
    left, `xs0` — it runs to the continuation holding the three windows' buffers as they were and the accumulator with
    the pieces `LS0` written (last first). It stores nothing into the output's buffer (`L2 = []`). -/
noncomputable def kernelRun1_B (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond1_0 i) (hc1 : ¬cond1_1 i)
    (x0 : Vec F S3072x1024 .f32) (x1 : Vec F S1024x64 .f32) (xs0 : Vec F S3072x64 .f32) :
    Σ' (L2 : List (View.Piece (Elt F) S3072x64 .f32)), { LS0 : List (View.Piece (Elt F) S3072x64 .f32) //
      ∀ (xi2 : Vec F S3072x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__big_matmul_kernel i arg2 harg2 arg3 harg3 arg4 harg4 arg5 harg5) K } := by
  refine ⟨[], ?_, fun xi2 E K => ?run⟩
  case run =>
    simp only [cc1__big_matmul_kernel_eq_skeleton]; unfold cc1__big_matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KbR1RunC.lean ====
import proofs.«173690_j65120294142423_1_alg».proof.Proof.KbR1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body where the reduction coordinate is 11, the last, and not 0 (first branch not taken, second taken): on whole
    memrefs — the two factors' blocks at `x0`, `x1`, the output's buffer at anything, the accumulator at what the point
    before left, `xs0` — it runs to the continuation holding the factors' buffers as they were, the output's buffer with
    the pieces `L2` written and the accumulator with the pieces `LS0` written (last first). -/
noncomputable def kernelRun1_C (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond1_0 i) (hc1 : cond1_1 i)
    (x0 : Vec F S3072x1024 .f32) (x1 : Vec F S1024x64 .f32) (xs0 : Vec F S3072x64 .f32) :
    Σ' (L2 : List (View.Piece (Elt F) S3072x64 .f32)), { LS0 : List (View.Piece (Elt F) S3072x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__big_matmul_kernel i arg2 harg2 arg3 harg3 arg4 harg4 arg5 harg5) K } := by
  refine ⟨?_, ?_, fun E K => ?run⟩
  case run =>
    simp only [cc1__big_matmul_kernel_eq_skeleton]; unfold cc1__big_matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KbR1Frame.lean ====
/- Region 0 (the first accumulating matrix product, grid 4 × 12): what the output window's staging buffer and the
   accumulator hold after each grid point, the proof data of the region's pipeline at entry contents `V`, and the
   body obligation. A row tile is twelve consecutive points: the first zeroes the accumulator and adds the first
   partial product, the middle ones add theirs, the last adds its own and stores the finished sum into the output
   window, which is written back only there. -/
import proofs.«173690_j65120294142423_1_alg».proof.Proof.KbR1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output's staging buffer and in the accumulator -/

/-- At a first point of a row tile the body stores nothing into the output window: no pieces. A placeholder
    that nothing consults, since at these points the window is neither written back nor read at the next point. -/
def out1_A_2 (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : cond1_0 i) (hc1 : ¬cond1_1 i)
    (x0 : Vec F S3072x1024 .f32) (x1 : Vec F S1024x64 .f32) : Vec F S3072x64 .f32 :=
  VO1_2.read (Elt F) (VO1_2.writes (Elt F) VO1_2.junk (kernelRun1_A c i arg2 harg2 arg3 harg3 arg4 harg4 arg5 harg5 hc0 hc1 x0 x1).1)

/-- At a first point of a row tile the pieces stored into the accumulator (the zero fill, then the first partial
    product over it) cover it. -/
theorem scover1_A_0 (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : cond1_0 i) (hc1 : ¬cond1_1 i)
    (x0 : Vec F S3072x1024 .f32) (x1 : Vec F S1024x64 .f32) (y : S3072x64.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S3072x64.size (by sl_kernel_rfl) y

/-- What a first point of a row tile leaves in the accumulator: its pieces read back. -/
def sout1_A_0 (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : cond1_0 i) (hc1 : ¬cond1_1 i)
    (x0 : Vec F S3072x1024 .f32) (x1 : Vec F S1024x64 .f32) : Vec F S3072x64 .f32 :=
  VS1_0.read (Elt F) (VS1_0.writes (Elt F) VS1_0.junk (kernelRun1_A c i arg2 harg2 arg3 harg3 arg4 harg4 arg5 harg5 hc0 hc1 x0 x1).2.1)

/-- At a middle point of a row tile the body stores nothing into the output window: no pieces, a placeholder. -/
def out1_B_2 (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond1_0 i) (hc1 : ¬cond1_1 i)
    (x0 : Vec F S3072x1024 .f32) (x1 : Vec F S1024x64 .f32) (xs0 : Vec F S3072x64 .f32) : Vec F S3072x64 .f32 :=
  VO1_2.read (Elt F) (VO1_2.writes (Elt F) VO1_2.junk (kernelRun1_B c i arg2 harg2 arg3 harg3 arg4 harg4 arg5 harg5 hc0 hc1 x0 x1 xs0).1)

/-- At a middle point the one piece stored into the accumulator (what it held plus this point's partial product)
    covers it. -/
theorem scover1_B_0 (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond1_0 i) (hc1 : ¬cond1_1 i)
    (x0 : Vec F S3072x1024 .f32) (x1 : Vec F S1024x64 .f32) (xs0 : Vec F S3072x64 .f32) (y : S3072x64.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S3072x64.size (by sl_kernel_rfl) y

/-- What a middle point leaves in the accumulator: its piece read back. -/
def sout1_B_0 (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond1_0 i) (hc1 : ¬cond1_1 i)
    (x0 : Vec F S3072x1024 .f32) (x1 : Vec F S1024x64 .f32) (xs0 : Vec F S3072x64 .f32) : Vec F S3072x64 .f32 :=
  VS1_0.read (Elt F) (VS1_0.writes (Elt F) VS1_0.junk (kernelRun1_B c i arg2 harg2 arg3 harg3 arg4 harg4 arg5 harg5 hc0 hc1 x0 x1 xs0).2.1)

/-- At the last point of a row tile the one store into the output window (the finished accumulator) covers its block. -/
theorem cover1_C_2 (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond1_0 i) (hc1 : cond1_1 i)
    (x0 : Vec F S3072x1024 .f32) (x1 : Vec F S1024x64 .f32) (xs0 : Vec F S3072x64 .f32) (y : S3072x64.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S3072x64.size (by sl_kernel_rfl) y

/-- What the last point of a row tile leaves in the output's staging buffer: its piece read back. -/
def out1_C_2 (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond1_0 i) (hc1 : cond1_1 i)
    (x0 : Vec F S3072x1024 .f32) (x1 : Vec F S1024x64 .f32) (xs0 : Vec F S3072x64 .f32) : Vec F S3072x64 .f32 :=
  VO1_2.read (Elt F) (VO1_2.writes (Elt F) VO1_2.junk (kernelRun1_C c i arg2 harg2 arg3 harg3 arg4 harg4 arg5 harg5 hc0 hc1 x0 x1 xs0).1)

/-- At the last point the one piece stored into the accumulator covers it. -/
theorem scover1_C_0 (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond1_0 i) (hc1 : cond1_1 i)
    (x0 : Vec F S3072x1024 .f32) (x1 : Vec F S1024x64 .f32) (xs0 : Vec F S3072x64 .f32) (y : S3072x64.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S3072x64.size (by sl_kernel_rfl) y

/-- What the last point of a row tile leaves in the accumulator: its piece read back. -/
def sout1_C_0 (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond1_0 i) (hc1 : cond1_1 i)
    (x0 : Vec F S3072x1024 .f32) (x1 : Vec F S1024x64 .f32) (xs0 : Vec F S3072x64 .f32) : Vec F S3072x64 .f32 :=
  VS1_0.read (Elt F) (VS1_0.writes (Elt F) VS1_0.junk (kernelRun1_C c i arg2 harg2 arg3 harg3 arg4 harg4 arg5 harg5 hc0 hc1 x0 x1 xs0).2.1)

/-! ## What the output's buffer and the accumulator hold after each point -/

/-- The accumulation. After the body at position `n`: the output window's staging buffer, then the accumulator.
    The position's residue mod 12 selects the case (0: first point of a row tile, 11: last, otherwise a middle
    point); the case is run at the point's memrefs and its two input blocks, the accumulator entering at what
    position `n - 1` left in it. A residue both 0 and 11 is no point. -/
def outsAt1 (c : Dev nD) : (n : ℕ) → n < cfg1.N → Vec F S3072x64 .f32 × Vec F S3072x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 12 = 0 then
      if h1 : (n + 1) % 12 = 11 then
        False.elim (by have hN : n + 1 < 48 := lt_of_lt_of_eq hn (show cfg1.N = 48 from N_1); omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 12 = 11 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a first point of a row tile. -/
theorem outsAt1_A (c : Dev nD) (t : Fin cfg1.N) (h0 : t.val % 12 = 0) (h1 : ¬t.val % 12 = 11) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a middle point: that case over what the point before left in the accumulator. -/
theorem outsAt1_B (c : Dev nD) (t : Fin cfg1.N) (h0 : ¬t.val % 12 = 0) (h1 : ¬t.val % 12 = 11) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last point of a row tile: that case over what the point before left in the accumulator. -/
theorem outsAt1_C (c : Dev nD) (t : Fin cfg1.N) (h0 : ¬t.val % 12 = 0) (h1 : t.val % 12 = 11) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`. Before the first point: what the launch hands over (the accumulator
    at anything). Afterwards: the accumulator at what the point before left in it (`outsAt1`'s second component),
    the core's other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of this call's pipeline on core `c`: the arrays as the region finds them (`V`); after the body
    at point `t` each input's buffer at its block and the output's at `outsAt1`'s first component; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- Every share is the full one. -/
theorem q_eq1 (c : Dev nD) (w : Fin cfg1.W) : (dat1 V c).q w = fullShare := rfl

/-- Nothing is owed at any position. -/
theorem owed_eq1 (c : Dev nD) (t : Fin (cfg1.N + 1)) : (dat1 V c).owed t = 0 := rfl

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The two inputs' memrefs hold their blocks; the residue of the position mod 12 says which
    case the point is in, so that case's run applies. The invariant hands the body the accumulator at what the point
    before left (at anything at the very first point) and takes it back at this point's contents, the pieces stored
    covering it; the core's other scoped buffers and the generator register pass through untouched; nothing is owed
    throughout. The output window is handed back as found except at the last point of a row tile, where its one
    store covers it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 48 := lt_of_lt_of_eq t.isLt (show cfg1.N = 48 from N_1)
  by_cases h0 : t.val % 12 = 0
  · by_cases h1 : t.val % 12 = 11
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _)
            iexact Hrest
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, Hrest⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _)
            iexact Hrest
          iexact Hg
        isplitl [Ho]; · iexact Ho
        isplitl [H0]; · iexact H0
        isplitl [H1]; · iexact H1
        iexists _; iexact H2
  · by_cases h1 : t.val % 12 = 11
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_C_0 c _ _ _ _ _ _ _ _ _ _ _ _ _ _)
            iexact Hrest
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_B_0 c _ _ _ _ _ _ _ _ _ _ _ _ _ _)
            iexact Hrest
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the accumulator's named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 48 := N_1; omega)

end Cert.Kernel.Hand

end
-- ==== Proof.KbLaunch.lean ====
/-
  The whole program as a sequence of items: six stretches of host operations and, between them, the two pipelined products
  `adj · v`. Each product is a grid of 4 × 12 points: point (i, k) multiplies a 3072 × 1024 block of `adj` with a 1024 × 64
  block of `v` into an accumulator that is cleared at k = 0 and copied to the output block at k = 11. Here the two
  pipelines' records (what their arrays hold on entry and on exit, the body's obligation at every point, what rides
  beside the buffers) are put into the program's run: from any memory every execution terminates and every unscoped buffer
  ends at what the items leave in it in order. The frame and the value claims are both read off that one run.
-/
import proofs.«173690_j65120294142423_1_alg».proof.Proof.Gen.Kernel.Regions
import proofs.«173690_j65120294142423_1_alg».proof.Proof.Gen.Kernel.Points
import proofs.«173690_j65120294142423_1_alg».proof.Proof.Gen.Kernel.Skeleton
import proofs.«173690_j65120294142423_1_alg».proof.Proof.KbR0Frame
import proofs.«173690_j65120294142423_1_alg».proof.Proof.KbR1Frame
import Idealize.ShloMosaic.Lib.Pipeline.Kit
import Idealize.ShloMosaic.Lib.Pipeline.Frame
import Idealize.ShloMosaic.Lib.Pipeline.FrameBody
import Idealize.ShloMosaic.Lib.Pipeline.FrameSuffix
import Idealize.ShloMosaic.Lib.Pipeline.Regions
import Idealize.ShloMosaic.Lib.Pipeline.RegionsLoop
import Idealize.ShloMosaic.Lib.Tactic

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two regions leave, and the buffers' contents between @main's items -/

/-- Region 0 is entered with the buffers after the first host stretch. -/
abbrev Ve0 : (c : Dev nD) → (b : Ref sig .tc) → Buf (Elt F) ((c : Thread nD τ).loc b) := fun c b => Gen.V1 m c b
/-- What region 0 leaves in its output array: the write-backs of its 48 points folded. -/
def o1 (c : Dev nD) : Buf (Elt F) ((c : Thread nD τ).loc main_v1) := (dat0 (Ve0 m) c).arrAt 2 cfg0.N
/-- The buffers after region 0. -/
def W2 (c : Dev nD) : Valuation τ sig (Elt F) := Function.update (Gen.V1 m c) main_v1 (o1 m c)
/-- The regions' outputs known so far: region 0's. -/
def outsA : Gen.Outs (F := F) := fun _ r c => W2 m c r
theorem V2_outsA (c : Dev nD) : Gen.V2 m (outsA m) c = W2 m c := by
  show Function.update (Gen.V1 m c) main_v1 (W2 m c main_v1) = W2 m c
  unfold W2; rw [Function.update_self]
/-- Region 1 is entered with the buffers after the host stretches that follow region 0. -/
abbrev Ve1 : (c : Dev nD) → (b : Ref sig .tc) → Buf (Elt F) ((c : Thread nD τ).loc b) := fun c b => Gen.V5 m (outsA m) c b
/-- What region 1 leaves in its output array. -/
def o2 (c : Dev nD) : Buf (Elt F) ((c : Thread nD τ).loc main_v42) := (dat1 (Ve1 m) c).arrAt 2 cfg1.N
/-- The buffers after region 1. -/
def W6 (c : Dev nD) : Valuation τ sig (Elt F) := Function.update (Gen.V5 m (outsA m) c) main_v42 (o2 m c)
/-- Both regions' outputs. -/
def outs : Gen.Outs (F := F) := fun J r c => if J = 2 then W2 m c r else W6 m c r
theorem V2_outs (c : Dev nD) : Gen.V2 m (outs m) c = W2 m c := by
  show Function.update (Gen.V1 m c) main_v1 (if (2 : ℕ) = 2 then W2 m c main_v1 else W6 m c main_v1) = W2 m c
  rw [if_pos rfl]; unfold W2; rw [Function.update_self]
theorem V5_outs (c : Dev nD) : Gen.V5 m (outs m) c = Gen.V5 m (outsA m) c := by
  show StableHlo.after hostOps1_2 (StableHlo.after hostOps1_1 (StableHlo.after hostOps1 (Gen.V2 m (outs m) c)))
    = StableHlo.after hostOps1_2 (StableHlo.after hostOps1_1 (StableHlo.after hostOps1 (Gen.V2 m (outsA m) c)))
  rw [V2_outs, V2_outsA]
theorem V6_outs (c : Dev nD) : Gen.V6 m (outs m) c = W6 m c := by
  show Function.update (Gen.V5 m (outs m) c) main_v42 (if (6 : ℕ) = 2 then W2 m c main_v42 else W6 m c main_v42) = W6 m c
  rw [if_neg (by decide), V5_outs]; unfold W6; rw [Function.update_self]

/-! ## The proof data family and the thread states -/

/-- No pallas_call has a prefetched table. -/
abbrev adm : (p : Fin 2) → (pcfgs (F := F) p).Adm := fun p => (cfgs p).toPCfg_adm

/-- Every region's proof data, each at its own entry contents. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c

abbrev 𝒱₀ : Variants := Variants.none
abbrev Lq : GSem nD τ sig → Finset Unit := fun _ => ∅
abbrev lvq : GSem nD τ sig → Unit → ℕ := fun _ _ => 0

/-- What rides beside the buffers through every item: the generator register at some state, and the core owing nothing. -/
abbrev R (c : Dev nD) : sProp 𝕄 := iprop((∃ r, prngReg c r) ∗ ∃ W, owes (c : Thread nD τ) (0 : CellTallies nD τ sig Unit) W)

/-- After region 0 each of its three arrays holds what the pipeline leaves: the two inputs as entered, the output its
    folded write-backs. -/
theorem hF0 (c : Dev nD) (w : Fin cfg0.W) : (pdats m 0 c).arrAt w cfg0.N = Gen.V2 m (outs m) c (Pipeline.arrRef spec0 w) := by
  rw [V2_outs]
  have hne : ∀ r : Ref sig .tc, r ≠ main_v1 → W2 m c r = Gen.V1 m c r := fun r hr => by
    unfold W2; exact Function.update_of_ne (StableHlo.devRef_ne_of_ne hr) _ _
  fin_cases w
  · exact ((dat0 (Ve0 m) c).arrAt_in 0 rfl _).trans ((A_eq0 (Ve0 m) c 0).trans (hne main_arg1 (by decide)).symm)
  · exact ((dat0 (Ve0 m) c).arrAt_in 1 rfl _).trans ((A_eq0 (Ve0 m) c 1).trans (hne main_v0 (by decide)).symm)
  · show (dat0 (Ve0 m) c).arrAt 2 cfg0.N = W2 m c main_v1
    unfold W2 o1; rw [Function.update_self]
/-- Every other buffer is as region 0 found it. -/
theorem hrest0 (c : Dev nD) : ∀ b, b ∉ Finset.univ.image (Pipeline.arrRef spec0) → (fun b : Ref sig .tc => Gen.V2 m (outs m) c b) b = Ve0 m c b := by
  intro b hb
  show Gen.V2 m (outs m) c b = Gen.V1 m c b
  rw [V2_outs]; unfold W2
  exact Function.update_of_ne (StableHlo.devRef_ne_of_ne fun e => hb (Finset.mem_image.mpr ⟨2, Finset.mem_univ _, e.symm⟩)) _ _

set_option backward.isDefEq.respectTransparency.types false in
/-- Region 0 as an item of @main: entered with every unscoped buffer at the contents after the first host stretch, left with
    its output array at what the pipeline wrote back. -/
def reg0 : Pipeline.RegionSeg (pcfgs (F := F)) adm (pdats m) () defs₀ 𝒱₀ Lq lvq 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ Lq lvq 0 fun c t => owed_eq0 (Ve0 m) c t
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun w => q_eq0 (Ve0 m) c w) (Ve0 m c) fun w => A_eq0 (Ve0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Ve0 m) c)
    unfold Pipeline.ΦA
    iintro ⟨Hp, -, Hr⟩
    isplitl [Hr]; · iexact Hr
    iexact Hp
  hout c := by
    rw [Pipeline.ownSems0_none]
    refine (hout0 (Ve0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q_eq0 (Ve0 m) c w)
      (Ve0 m c) (fun b : Ref sig .tc => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    have ho : (pdats m 0 c).owed (Fin.last (Pipeline.pin (pcfgs (F := F)) adm 0).N) = 0 := owed_eq0 (Ve0 m) c _
    unfold Pipeline.Dat.owesAt Pipeline.owesWithin
    rw [ho]
    icases HO with ⟨%W, -, HO⟩; iexists W; iexact HO

/-- After region 1 each of its three arrays holds what the pipeline leaves: the two inputs as entered, the output its
    folded write-backs. -/
theorem hF1 (c : Dev nD) (w : Fin cfg1.W) : (pdats m 1 c).arrAt w cfg1.N = Gen.V6 m (outs m) c (Pipeline.arrRef spec1 w) := by
  rw [V6_outs]
  have hne : ∀ r : Ref sig .tc, r ≠ main_v42 → W6 m c r = Gen.V5 m (outsA m) c r := fun r hr => by
    unfold W6; exact Function.update_of_ne (StableHlo.devRef_ne_of_ne hr) _ _
  fin_cases w
  · exact ((dat1 (Ve1 m) c).arrAt_in 0 rfl _).trans ((A_eq1 (Ve1 m) c 0).trans (hne main_arg1 (by decide)).symm)
  · exact ((dat1 (Ve1 m) c).arrAt_in 1 rfl _).trans ((A_eq1 (Ve1 m) c 1).trans (hne main_v41 (by decide)).symm)
  · show (dat1 (Ve1 m) c).arrAt 2 cfg1.N = W6 m c main_v42
    unfold W6 o2; rw [Function.update_self]
/-- Every other buffer is as region 1 found it. -/
theorem hrest1 (c : Dev nD) : ∀ b, b ∉ Finset.univ.image (Pipeline.arrRef spec1) → (fun b : Ref sig .tc => Gen.V6 m (outs m) c b) b = Ve1 m c b := by
  intro b hb
  show Gen.V6 m (outs m) c b = Gen.V5 m (outsA m) c b
  rw [V6_outs]; unfold W6
  exact Function.update_of_ne (StableHlo.devRef_ne_of_ne fun e => hb (Finset.mem_image.mpr ⟨2, Finset.mem_univ _, e.symm⟩)) _ _

set_option backward.isDefEq.respectTransparency.types false in
/-- Region 1 as an item of @main: entered with every unscoped buffer at the contents after the host stretches that follow
    region 0, left with its output array at what the pipeline wrote back. -/
def reg1 : Pipeline.RegionSeg (pcfgs (F := F)) adm (pdats m) () defs₀ 𝒱₀ Lq lvq 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ Lq lvq 1 fun c t => owed_eq1 (Ve1 m) c t
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none, V5_outs]
    have hsplit := Pipeline.arrays_of_unscopedBufs (p := 1) (pcfgs (F := F)) adm (pdats m) launch1.win launch1.arr_whole c
      ((pdats m 1 c).share_full fun w => q_eq1 (Ve1 m) c w) (Ve1 m c) fun w => A_eq1 (Ve1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Ve1 m) c)
    unfold Pipeline.ΦA
    iintro ⟨Hp, -, Hr⟩
    isplitl [Hr]; · iexact Hr
    iexact Hp
  hout c := by
    rw [Pipeline.ownSems0_none]
    refine (hout1 (Ve1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q_eq1 (Ve1 m) c w)
      (Ve1 m c) (fun b : Ref sig .tc => Gen.V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    have ho : (pdats m 1 c).owed (Fin.last (Pipeline.pin (pcfgs (F := F)) adm 1).N) = 0 := owed_eq1 (Ve1 m) c _
    unfold Pipeline.Dat.owesAt Pipeline.owesWithin
    rw [ho]
    icases HO with ⟨%W, -, HO⟩; iexists W; iexact HO

/-! ## The launch -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem outs_v1 (c : Dev nD) : outs m 2 main_v1 c = (dat0 (Ve0 m) c).arrAt 2 cfg0.N := by
  show (if (2 : ℕ) = 2 then W2 m c main_v1 else W6 m c main_v1) = _
  rw [if_pos rfl]; unfold W2 o1; rw [Function.update_self]
theorem outs_v42 (c : Dev nD) : outs m 6 main_v42 c = (dat1 (Ve1 m) c).arrAt 2 cfg1.N := by
  show (if (6 : ℕ) = 2 then W2 m c main_v42 else W6 m c main_v42) = _
  rw [if_neg (by decide)]; unfold W6 o2; rw [Function.update_self]

/-- Beside the buffers every item carries the same state. -/
abbrev Eq : Fin 3 → Dev nD → sProp 𝕄 := fun _ c => R c

set_option backward.isDefEq.respectTransparency.types false in
/-- THE RUN. From any memory with zero counters every weakly fair execution of @main terminates, nothing faulting, and in the
    final memory every unscoped buffer of a core holds what the items of @main leave there in order: the host stretches'
    results and, in the two output arrays, what the two pipelines wrote back. -/
theorem run_all : θ_run defs (onTc (τ := τ) (main (F := F))) ⟨m, fun _ => 0, ρ⟩
    (fun r => ∀ c : Dev nD, ∀ b ∈ Pipeline.ucRefs τ sig, r.2.mem ((c : Thread nD τ).1, b) = Gen.V8 m (outs m) c b) := by
  refine Pipeline.θ_run_regions_kit_dev (pcfgs (F := F)) adm (pdats m) () cellOf_inj emb₁ defs₀ 𝒱₀ Lq lvq m ρ main
    (Gen.segs m (outs m) 𝒱₀ Lq lvq Eq () (pdats m) (reg0 m) (reg1 m))
    (fun c Q => by
      rewrite [main_chain c, Seg.run_eq_chain,
        show (Gen.segs m (outs m) 𝒱₀ Lq lvq Eq () (pdats m) (reg0 m) (reg1 m) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V8 m (outs m) c))
    (hch := fun c => ⟨.rfl, .rfl, .rfl, .rfl, .rfl, .rfl, .rfl, .rfl, sep_mono .rfl (by iintro ⟨-, H⟩; iexact H)⟩)
    (hinit := by
      refine Pipeline.initEach Lq lvq fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V8 m (outs m) c b)
    (hfin := fun c s' => by
      iintro ⟨Hh, HSI⟩
      unfold StableHlo.held
      imodintro
      iapply (pointsTo_read_all (Pipeline.ucRefs τ sig) (fun b => (((c : Thread nD τ)).1, b)) (Gen.V8 m (outs m) c) s')
      isplitl [Hh] <;> iassumption)
    (hQ := fun s h c => h c)

end Cert.Kernel.Hand

end
-- ==== Proof.KiR0Blocks.lean ====
/-
  Region 0's two input blocks, read at an index of the arrays the region is entered with.

  Grid point t stands for the pair (i, k) = (t / 12, t % 12). The left factor's block at t is rows 3072·i … 3072·i + 3071
  and columns 1024·k … 1024·k + 1023 of the [12288, 12288] array; the right factor's block is rows 1024·k … 1024·k + 1023
  of the [12288, 64] array; the output's block is rows 3072·i … 3072·i + 3071 of the [12288, 64] result.
-/
import proofs.«173690_j65120294142423_1_alg».proof.Proof.KiR0Runs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (V : (c : Dev nD) → (b : Ref sig .tc) → Buf (Elt F) ((c : Thread nD τ).loc b))

/-- The three windows' block indices at every grid point. -/
theorem idx_facts0 : ∀ t : Fin cfg0.N,
    win0_0.index t (0 : Fin 2) = t.val / 12 ∧ win0_0.index t (1 : Fin 2) = t.val % 12
    ∧ win0_1.index t (0 : Fin 2) = t.val % 12 ∧ win0_1.index t (1 : Fin 2) = 0
    ∧ win0_2.index t (0 : Fin 2) = t.val / 12 ∧ win0_2.index t (1 : Fin 2) = 0 :=
  (by decide +kernel : ∀ t : Fin grid0.N, _)

/-- The left factor's block at point `t`, at an index. -/
theorem iblk0_0_apply (c : Dev nD) (t : Fin cfg0.N) (x : S3072x1024.Idx) (k : S12288x12288.Idx)
    (hk0 : (k 0).val = 3072 * (t.val / 12) + (x 0).val) (hk1 : (k 1).val = 1024 * (t.val % 12) + (x 1).val) :
    (iblk0 V c 0 t : Vec F S3072x1024 .f32) x = (V c main_arg1 : S12288x12288.Idx → Elt F .f32) k := by
  obtain ⟨e0, e1, -, -, -, -⟩ := idx_facts0 t
  unfold iblk0
  rw [View.read_apply]
  show V c main_arg1 _ = V c main_arg1 _
  congr 1
  funext a
  apply Fin.ext
  match a with
  | ⟨0, _⟩ => show win0_0.index t 0 * 3072 + 1 * (x 0).val = (k 0).val; rw [e0, hk0]; omega
  | ⟨1, _⟩ => show win0_0.index t 1 * 1024 + 1 * (x 1).val = (k 1).val; rw [e1, hk1]; omega

/-- The right factor's block at point `t`, at an index. -/
theorem iblk0_1_apply (c : Dev nD) (t : Fin cfg0.N) (x : S1024x64.Idx) (k : S12288x64.Idx)
    (hk0 : (k 0).val = 1024 * (t.val % 12) + (x 0).val) (hk1 : (k 1).val = (x 1).val) :
    (iblk0 V c 1 t : Vec F S1024x64 .f32) x = (V c main_v0 : S12288x64.Idx → Elt F .f32) k := by
  obtain ⟨-, -, e0, e1, -, -⟩ := idx_facts0 t
  unfold iblk0
  rw [View.read_apply]
  show V c main_v0 _ = V c main_v0 _
  congr 1
  funext a
  apply Fin.ext
  match a with
  | ⟨0, _⟩ => show win0_1.index t 0 * 1024 + 1 * (x 0).val = (k 0).val; rw [e0, hk0]; omega
  | ⟨1, _⟩ => show win0_1.index t 1 * 64 + 1 * (x 1).val = (k 1).val; rw [e1, hk1]; omega

/-- Any function on the result array, read through the output's block at point `t`, at an index. -/
theorem oblk0_2_apply (c : Dev nD) (G : Buf (Elt F) ((c : Thread nD τ).loc main_v1)) (t : Fin cfg0.N) (x : S3072x64.Idx) (k : S12288x64.Idx)
    (hk0 : (k 0).val = 3072 * (t.val / 12) + (x 0).val) (hk1 : (k 1).val = (x 1).val) :
    (((cfg0.win 2).blk t).view.read (Elt F) G : Vec F S3072x64 .f32) x = (G : S12288x64.Idx → Elt F .f32) k := by
  obtain ⟨-, -, -, -, e0, e1⟩ := idx_facts0 t
  rw [View.read_apply]
  show G _ = G _
  congr 1
  funext a
  apply Fin.ext
  match a with
  | ⟨0, _⟩ => show win0_2.index t 0 * 3072 + 1 * (x 0).val = (k 0).val; rw [e0, hk0]; omega
  | ⟨1, _⟩ => show win0_2.index t 1 * 64 + 1 * (x 1).val = (k 1).val; rw [e1, hk1]; omega

/-- An index of the result array lies in point `t`'s output block iff each coordinate lies in the block's range. -/
theorem mem_blk0_2 (t : Fin cfg0.N) (i : S12288x64.Idx) :
    i ∈ ((cfg0.win 2).blk t).view.set ↔ ∀ a : Fin 2, win0_2.index t a * S3072x64.size a ≤ (i a).val ∧ (i a).val < win0_2.index t a * S3072x64.size a + S3072x64.size a := by
  show i ∈ ((View.whole main_v1).slice (win0_2.rect t)).set ↔ _
  rw [View.set_slice_whole, Rect.mem_set_unit]
  exact Iff.rfl

/-- Every index of the result array lies in the block written back at the last point of its row tile:
    row r is in tile r / 3072, whose last point is 12 · (r / 3072) + 11. -/
theorem cover0_2 (i : S12288x64.Idx) :
    ∃ t : Fin cfg0.N, (cfg0.win 2).flush t = true ∧ i ∈ ((cfg0.win 2).blk t).view.set := by
  have hN : cfg0.N = 48 := N_0
  have hi0 : (i 0).val < 12288 := (i 0).isLt
  have hi1 : (i 1).val < 64 := (i 1).isLt
  have hlt : 12 * ((i 0).val / 3072) + 11 < cfg0.N := by rw [hN]; omega
  have ht : (⟨12 * ((i 0).val / 3072) + 11, hlt⟩ : Fin cfg0.N).val = 12 * ((i 0).val / 3072) + 11 := rfl
  refine ⟨⟨12 * ((i 0).val / 3072) + 11, hlt⟩, (flush0_2 _).mpr (by rw [ht]; omega), ?_⟩
  rw [mem_blk0_2]
  obtain ⟨-, -, -, -, e0, e1⟩ := idx_facts0 ⟨12 * ((i 0).val / 3072) + 11, hlt⟩
  intro a
  match a with
  | ⟨0, _⟩ =>
    show win0_2.index ⟨12 * ((i 0).val / 3072) + 11, hlt⟩ (0 : Fin 2) * 3072 ≤ (i 0).val ∧ (i 0).val < win0_2.index ⟨12 * ((i 0).val / 3072) + 11, hlt⟩ (0 : Fin 2) * 3072 + 3072
    rw [e0, ht]; omega
  | ⟨1, _⟩ =>
    show win0_2.index ⟨12 * ((i 0).val / 3072) + 11, hlt⟩ (1 : Fin 2) * 64 ≤ (i 1).val ∧ (i 1).val < win0_2.index ⟨12 * ((i 0).val / 3072) + 11, hlt⟩ (1 : Fin 2) * 64 + 64
    rw [e1]; omega

end Cert.KernelIdeal.Hand
-- ==== Proof.KiR0Pieces.lean ====
/-
  What the kernel body of region 0 leaves, case by case, as one term of the blocks it loads.

  With the reduction coordinate at 0 the accumulator tile ends at (zero tile) + block₀ · block₁; at a middle
  coordinate at (what it held) + block₀ · block₁; at the last coordinate likewise, and the same tile is copied to
  the output. Each store and load covers its whole tile, so the canonical contents of a case's stores are the
  payload of the last store, with every load reading the whole of what was stored before it.
-/
import proofs.«173690_j65120294142423_1_alg».proof.Proof.KiR0RunC
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-- The offsets of a whole-tile access. -/
private theorem hz : (![0, 0] : Fin 2 → Nat) = fun _ => 0 := funext fun a => by fin_cases a <;> rfl

/-- Reduction coordinate 0: the accumulator is zeroed, read back, and left at the zero tile plus the product. -/
theorem canon0_A_S (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : cond0_0 i) (hc1 : ¬cond0_1 i) (x0 : Vec F S3072x1024 .f32) (x1 : Vec F S1024x64 .f32) :
    View.canon (kernelRun0_A c i arg2 harg2 arg3 harg3 arg4 harg4 arg5 harg5 hc0 hc1 x0 x1).2.1 = k0_pay2 x0 x1 (k0_pay1 (F := F)) := by
  unfold kernelRun0_A
  dsimp only
  try sl_unfold_words
  rw [View.canon_cons_unit_zero (S := S3072x64) hz, View.readCov_unit_zero (S := S3072x64) _ hz]
  simp only [View.readAt_eq_ld, harg2.read_unread, harg3.read_unread, View.ld_unit_zero (S := S3072x1024) hz, View.ld_unit_zero (S := S1024x64) hz]

/-- A middle reduction coordinate: the accumulator is left at what it held plus the product. -/
theorem canon0_B_S (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond0_0 i) (hc1 : ¬cond0_1 i) (x0 : Vec F S3072x1024 .f32) (x1 : Vec F S1024x64 .f32) (xs0 : Vec F S3072x64 .f32) :
    View.canon (kernelRun0_B c i arg2 harg2 arg3 harg3 arg4 harg4 arg5 harg5 hc0 hc1 x0 x1 xs0).2.1 = k0_pay2 x0 x1 xs0 := by
  unfold kernelRun0_B
  dsimp only
  try sl_unfold_words
  rw [View.canon_unit_zero (S := S3072x64) hz]
  simp only [View.readAt_eq_ld, harg2.read_unread, harg3.read_unread, harg5.read_unread, View.ld_unit_zero (S := S3072x1024) hz, View.ld_unit_zero (S := S1024x64) hz, View.ld_unit_zero (S := S3072x64) hz]

/-- The last reduction coordinate: the accumulator is left at what it held plus the product … -/
theorem canon0_C_S (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond0_0 i) (hc1 : cond0_1 i) (x0 : Vec F S3072x1024 .f32) (x1 : Vec F S1024x64 .f32) (xs0 : Vec F S3072x64 .f32) :
    View.canon (kernelRun0_C c i arg2 harg2 arg3 harg3 arg4 harg4 arg5 harg5 hc0 hc1 x0 x1 xs0).2.1 = k0_pay2 x0 x1 xs0 := by
  unfold kernelRun0_C
  dsimp only
  try sl_unfold_words
  rw [View.canon_unit_zero (S := S3072x64) hz]
  simp only [View.readAt_eq_ld, harg2.read_unread, harg3.read_unread, harg5.read_unread, View.ld_unit_zero (S := S3072x1024) hz, View.ld_unit_zero (S := S1024x64) hz, View.ld_unit_zero (S := S3072x64) hz]

/-- … and is copied to the output's tile. -/
theorem canon0_C_O (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond0_0 i) (hc1 : cond0_1 i) (x0 : Vec F S3072x1024 .f32) (x1 : Vec F S1024x64 .f32) (xs0 : Vec F S3072x64 .f32) :
    View.canon (kernelRun0_C c i arg2 harg2 arg3 harg3 arg4 harg4 arg5 harg5 hc0 hc1 x0 x1 xs0).1 = k0_pay2 x0 x1 xs0 := by
  unfold kernelRun0_C
  dsimp only
  try sl_unfold_words
  rw [View.canon_unit_zero (S := S3072x64) hz, View.readCov_unit_zero (S := S3072x64) _ hz]
  simp only [View.readAt_eq_ld, harg2.read_unread, harg3.read_unread, harg5.read_unread, View.ld_unit_zero (S := S3072x1024) hz, View.ld_unit_zero (S := S1024x64) hz, View.ld_unit_zero (S := S3072x64) hz]

end Cert.KernelIdeal.Hand
-- ==== Proof.KiPayload.lean ====
/-
  The two payloads of region 0's kernel body, read at one index of the [3072, 64] tile, at the ideal values.

  The first payload is the zero tile. The second is the carried tile plus the product of the [3072, 1024] block with
  the [1024, 64] block: at (p, q) the carried value plus the sum over the 1024 contraction places j of
  block₀(p, j) · block₁(j, q). The narrowing of both operands before the product is the identity at the ideal values,
  and a cast of a tile to its own shape changes nothing.
-/
import proofs.«173690_j65120294142423_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

/-! ## The product's operand indices, one axis at a time -/

theorem lhs_k0_0 (i : S3072x64.Idx) (q : dot_S3072x1024_S1024x64_S3072x64_1_0_0_1_n_n.contr.Idx) :
    (dot_S3072x1024_S1024x64_S3072x64_1_0_0_1_n_n.lhsIdx i q 0).val = (i 0).val := by
  unfold DotDims.lhsIdx
  rw [dif_neg (show ¬(0 : Fin S3072x1024.rank) ∈ dot_S3072x1024_S1024x64_S3072x64_1_0_0_1_n_n.lhsBatch by decide), dif_pos (show (0 : Fin S3072x1024.rank) ∈ dot_S3072x1024_S1024x64_S3072x64_1_0_0_1_n_n.lhsNonContracting by decide)]
  rfl
theorem lhs_k0_1 (i : S3072x64.Idx) (q : dot_S3072x1024_S1024x64_S3072x64_1_0_0_1_n_n.contr.Idx) :
    (dot_S3072x1024_S1024x64_S3072x64_1_0_0_1_n_n.lhsIdx i q 1).val = (q ⟨0, by decide⟩).val :=
  dot_S3072x1024_S1024x64_S3072x64_1_0_0_1_n_n.lhsIdx_val_of_single rfl i q
theorem rhs_k0_0 (i : S3072x64.Idx) (q : dot_S3072x1024_S1024x64_S3072x64_1_0_0_1_n_n.contr.Idx) :
    (dot_S3072x1024_S1024x64_S3072x64_1_0_0_1_n_n.rhsIdx i q 0).val = (q ⟨0, by decide⟩).val :=
  dot_S3072x1024_S1024x64_S3072x64_1_0_0_1_n_n.rhsIdx_val_of_single rfl i q
theorem rhs_k0_1 (i : S3072x64.Idx) (q : dot_S3072x1024_S1024x64_S3072x64_1_0_0_1_n_n.contr.Idx) :
    (dot_S3072x1024_S1024x64_S3072x64_1_0_0_1_n_n.rhsIdx i q 1).val = (i 1).val := by
  unfold DotDims.rhsIdx
  rw [dif_neg (show ¬(1 : Fin S1024x64.rank) ∈ dot_S3072x1024_S1024x64_S3072x64_1_0_0_1_n_n.rhsBatch by decide), dif_pos (show (1 : Fin S1024x64.rank) ∈ dot_S3072x1024_S1024x64_S3072x64_1_0_0_1_n_n.rhsNonContracting by decide)]
  rfl

/-! ## The payloads at an index -/

/-- The zero tile. -/
theorem k0_pay1_apply (p : Fin 3072) (q : Fin 64) : (k0_pay1 (F := Ideal)) (ix2 p q) = 0 := by
  unfold Gen.k0_pay1
  simp only [shapeCast_self]
  show Ideal.ofBits .f32 0x00000000#32 = 0
  exact Ideal.ofBits_zero_f32

/-- The carried tile plus the product of the two blocks. -/
theorem k0_pay2_apply (x0 : Vec Ideal S3072x1024 .f32) (x1 : Vec Ideal S1024x64 .f32) (acc : Vec Ideal S3072x64 .f32)
    (p : Fin 3072) (q : Fin 64) :
    k0_pay2 x0 x1 acc (ix2 p q) = acc (ix2 p q) + ∑ j : Fin 1024, x0 (ix2 p j) * x1 (ix2 j q) := by
  unfold Gen.k0_pay2
  simp only [shapeCast_self]
  rw [addf_apply]
  simp only [matmul]
  rw [Ideal.matmul_constant_zero_apply, ← Equiv.sum_comp (ValueIdx.contrEquiv1 dot_S3072x1024_S1024x64_S3072x64_1_0_0_1_n_n 1024 rfl rfl).symm]
  refine congrArg (acc (ix2 p q) + ·) (Finset.sum_congr rfl fun k _ => ?_)
  have hk := ValueIdx.contrEquiv1_symm_val dot_S3072x1024_S1024x64_S3072x64_1_0_0_1_n_n 1024 rfl rfl k
  have el : dot_S3072x1024_S1024x64_S3072x64_1_0_0_1_n_n.lhsIdx (ix2 p q) ((ValueIdx.contrEquiv1 dot_S3072x1024_S1024x64_S3072x64_1_0_0_1_n_n 1024 rfl rfl).symm k) = ix2 p k := funext fun a => Fin.ext (by
    match a with
    | ⟨0, _⟩ => exact lhs_k0_0 _ _
    | ⟨1, _⟩ => exact (lhs_k0_1 _ _).trans hk)
  have er : dot_S3072x1024_S1024x64_S3072x64_1_0_0_1_n_n.rhsIdx (ix2 p q) ((ValueIdx.contrEquiv1 dot_S3072x1024_S1024x64_S3072x64_1_0_0_1_n_n 1024 rfl rfl).symm k) = ix2 k q := funext fun a => Fin.ext (by
    match a with
    | ⟨0, _⟩ => exact (rhs_k0_0 _ _).trans hk
    | ⟨1, _⟩ => exact rhs_k0_1 _ _)
  rw [truncf_apply, truncf_apply, el, er]

end Cert.KernelIdeal.Hand
-- ==== Proof.MatSum.lean ====
/-
  Regrouping of finite sums in an additive commutative monoid (used at the extended reals, where only
  commutativity and associativity of addition are available: no cancellation and no finiteness are assumed).

  * A sum over `m * n` terms equals the sum, over `m` consecutive runs, of the sums of the `n` terms of each run.
  * A sequence that starts at `0 + s 0` and adds `s (k+1)` at every step is the running sum of `s`.
-/
import Mathlib.Algebra.BigOperators.Fin
import Mathlib.Data.Fintype.BigOperators
import Mathlib.Logic.Equiv.Fin.Basic

namespace Cert.MatSum

open scoped BigOperators

variable {M : Type*} [AddCommMonoid M]

/-- The `j`-th term of the `k`-th run of length `n` sits below `m * n`. -/
theorem run_lt {m n : ℕ} (k : Fin m) (j : Fin n) : n * k.val + j.val < m * n := by
  have hk : k.val + 1 ≤ m := k.isLt
  calc n * k.val + j.val < n * k.val + n := Nat.add_lt_add_left j.isLt _
    _ = n * (k.val + 1) := (Nat.mul_succ n k.val).symm
    _ ≤ n * m := Nat.mul_le_mul_left n hk
    _ = m * n := Nat.mul_comm n m

/-- A sum of `m * n` terms, cut into `m` consecutive runs of `n` terms. -/
theorem sum_runs (m n : ℕ) (f : Fin (m * n) → M)
    (hlt : ∀ (k : Fin m) (j : Fin n), n * k.val + j.val < m * n) :
    ∑ k : Fin m, ∑ j : Fin n, f ⟨n * k.val + j.val, hlt k j⟩ = ∑ i : Fin (m * n), f i := by
  rw [← Equiv.sum_comp finProdFinEquiv f, Fintype.sum_prod_type]
  refine Finset.sum_congr rfl fun k _ => Finset.sum_congr rfl fun j _ => ?_
  exact congrArg f (Fin.ext (Nat.add_comm _ _))

/-- Twelve runs of 1024 terms make up a sum of 12288 terms. -/
theorem sum_12_runs_1024 (f : Fin 12288 → M)
    (hlt : ∀ (k : Fin 12) (j : Fin 1024), 1024 * k.val + j.val < 12288) :
    ∑ k : Fin 12, ∑ j : Fin 1024, f ⟨1024 * k.val + j.val, hlt k j⟩ = ∑ i : Fin 12288, f i :=
  sum_runs 12 1024 f hlt

/-- The bound of the previous statement, for every run and every place in it. -/
theorem lt_12288 (k : Fin 12) (j : Fin 1024) : 1024 * k.val + j.val < 12288 := run_lt (m := 12) k j

/-- A sequence with `acc 0 = 0 + s 0` and `acc (k+1) = acc k + s (k+1)` below `n` is the running sum of `s`. -/
theorem fold_eq_sum_range (n : ℕ) (acc s : ℕ → M) (h0 : acc 0 = 0 + s 0)
    (hs : ∀ k, k + 1 < n → acc (k + 1) = acc k + s (k + 1)) :
    ∀ k, k < n → acc k = ∑ i ∈ Finset.range (k + 1), s i := by
  intro k
  induction k with
  | zero => intro _; rw [h0, zero_add, Finset.sum_range_one]
  | succ k ih =>
    intro hk
    rw [hs k hk, ih (Nat.lt_of_succ_lt hk), Finset.sum_range_succ _ (k + 1)]

/-- After twelve steps the sequence holds the sum of the twelve summands. -/
theorem fold_12 (acc s : ℕ → M) (h0 : acc 0 = 0 + s 0)
    (hs : ∀ k, k + 1 < 12 → acc (k + 1) = acc k + s (k + 1)) :
    acc 11 = ∑ k : Fin 12, s k.val := by
  rw [fold_eq_sum_range 12 acc s h0 hs 11 (by decide), Fin.sum_univ_eq_sum_range]

/-- The running sum over the first twelve naturals is the sum over `Fin 12`. -/
theorem sum_range_12 (s : ℕ → M) : ∑ i ∈ Finset.range (11 + 1), s i = ∑ k : Fin 12, s k.val :=
  (Fin.sum_univ_eq_sum_range s 12).symm

end Cert.MatSum
-- ==== Proof.KiR0Value.lean ====
/-
  What region 0 leaves in its output array, at the ideal values: the matrix product of the two arrays it reads.

  Grid point t stands for (i, k) = (t / 12, t % 12): row tile i of 3072 rows, reduction step k over 1024 columns.
  Within a row tile the accumulator tile after step k holds, at (p, q), the sum over the first k + 1 runs of 1024
  contraction places j of adj(3072·i + p, j) · v(j, q) (induction over k: the first step adds its run to zero, each
  later step adds its run to what the step before left). The last step copies the accumulator to the output tile,
  which is written back as rows 3072·i … 3072·i + 3071 of the result; twelve runs of 1024 places are the 12288
  places of the full contraction; the four written-back tiles cover the result array.
-/
import proofs.«173690_j65120294142423_1_alg».proof.Proof.KiR0Frame
import proofs.«173690_j65120294142423_1_alg».proof.Proof.KiR0Blocks
import proofs.«173690_j65120294142423_1_alg».proof.Proof.KiR0Pieces
import proofs.«173690_j65120294142423_1_alg».proof.Proof.KiPayload
import proofs.«173690_j65120294142423_1_alg».proof.Proof.MatSum
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The body's cases, over the names of the accumulation -/

section Cases
variable {F : FTy → Type} [FloatOps F]

theorem sout0_A_eq (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : cond0_0 i) (hc1 : ¬cond0_1 i) (x0 : Vec F S3072x1024 .f32) (x1 : Vec F S1024x64 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  exact canon0_A_S c i arg2 harg2 arg3 harg3 arg4 harg4 arg5 harg5 hc0 hc1 x0 x1

theorem sout0_B_eq (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond0_0 i) (hc1 : ¬cond0_1 i) (x0 : Vec F S3072x1024 .f32) (x1 : Vec F S1024x64 .f32) (xs0 : Vec F S3072x64 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  exact canon0_B_S c i arg2 harg2 arg3 harg3 arg4 harg4 arg5 harg5 hc0 hc1 x0 x1 xs0

theorem sout0_C_eq (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond0_0 i) (hc1 : cond0_1 i) (x0 : Vec F S3072x1024 .f32) (x1 : Vec F S1024x64 .f32) (xs0 : Vec F S3072x64 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  exact canon0_C_S c i arg2 harg2 arg3 harg3 arg4 harg4 arg5 harg5 hc0 hc1 x0 x1 xs0

theorem out0_C_eq (c : Dev nD) (i : grid0.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond0_0 i) (hc1 : cond0_1 i) (x0 : Vec F S3072x1024 .f32) (x1 : Vec F S1024x64 .f32) (xs0 : Vec F S3072x64 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  exact canon0_C_O c i arg2 harg2 arg3 harg3 arg4 harg4 arg5 harg5 hc0 hc1 x0 x1 xs0

end Cases

/-! ## The sums -/

/-- The j-th product of entry (r, q) of the product of `A` and `B`. -/
def term0 (A : Vec Ideal S12288x12288 .f32) (B : Vec Ideal S12288x64 .f32) (r : Fin 12288) (q : Fin 64) (j : Fin 12288) : Elt Ideal .f32 :=
  A (ix2 r j) * B (ix2 j q)

/-- The k-th run of 1024 consecutive products of entry (r, q). -/
def run0 (A : Vec Ideal S12288x12288 .f32) (B : Vec Ideal S12288x64 .f32) (r : Fin 12288) (q : Fin 64) (k : ℕ) : Elt Ideal .f32 :=
  ∑ j : Fin 1024, term0 A B r q ⟨(1024 * k + j.val) % 12288, Nat.mod_lt _ (by decide)⟩

/-- Twelve runs make up the full contraction. -/
theorem runs0_total (A : Vec Ideal S12288x12288 .f32) (B : Vec Ideal S12288x64 .f32) (r : Fin 12288) (q : Fin 64) :
    ∑ k ∈ Finset.range 12, run0 A B r q k = ∑ j : Fin 12288, term0 A B r q j := by
  rw [← Fin.sum_univ_eq_sum_range (fun k => run0 A B r q k) 12, ← Cert.MatSum.sum_12_runs_1024 (term0 A B r q) Cert.MatSum.lt_12288]
  refine Finset.sum_congr rfl fun k _ => ?_
  unfold run0
  refine Finset.sum_congr rfl fun j _ => ?_
  exact congrArg (term0 A B r q) (Fin.ext (Nat.mod_eq_of_lt (Cert.MatSum.lt_12288 k j)))

/-- The product of a [12288, 12288] array with a [12288, 64] array. -/
def matProd0 (A : Vec Ideal S12288x12288 .f32) (B : Vec Ideal S12288x64 .f32) : Vec Ideal S12288x64 .f32 :=
  fun idx => ∑ j : Fin 12288, A (ix2 (idx 0) j) * B (ix2 j (idx 1))

variable (V : (c : Dev nD) → (b : Ref sig .tc) → Buf (Elt Ideal) ((c : Thread nD τ).loc b))

/-- The product of the two blocks at point `t`, at (p, q): run t % 12 of the entry in row 3072·(t / 12) + p. -/
theorem prod0_eq (c : Dev nD) (t : Fin cfg0.N) (p : Fin 3072) (q : Fin 64) (r : Fin 12288) (hr : r.val = 3072 * (t.val / 12) + p.val)
    (x0 : Vec Ideal S3072x1024 .f32) (x1 : Vec Ideal S1024x64 .f32) (hx0 : x0 = iblk0 V c 0 t) (hx1 : x1 = iblk0 V c 1 t) :
    ∑ j : Fin 1024, x0 (ix2 p j) * x1 (ix2 j q) = run0 (V c main_arg1) (V c main_v0) r q (t.val % 12) := by
  subst hx0 hx1
  unfold run0 term0
  refine Finset.sum_congr rfl fun j _ => ?_
  have hj : j.val < 1024 := j.isLt
  have hk : t.val % 12 < 12 := Nat.mod_lt _ (by decide)
  have hm : (1024 * (t.val % 12) + j.val) % 12288 = 1024 * (t.val % 12) + j.val := Nat.mod_eq_of_lt (by omega)
  rw [iblk0_0_apply V c t (ix2 p j) (ix2 r ⟨(1024 * (t.val % 12) + j.val) % 12288, Nat.mod_lt _ (by decide)⟩) hr hm,
    iblk0_1_apply V c t (ix2 j q) (ix2 ⟨(1024 * (t.val % 12) + j.val) % 12288, Nat.mod_lt _ (by decide)⟩ q) hm rfl]

/-! ## The accumulator, step by step -/

theorem outsAt0_congr (c : Dev nD) {n n' : ℕ} (e : n = n') (h : n < cfg0.N) (h' : n' < cfg0.N) :
    outsAt0 V c n h = outsAt0 V c n' h' := by subst e; rfl

/-- After step k of row tile i the accumulator holds, at (p, q), the first k + 1 runs of the entry in row 3072·i + p. -/
theorem acc0_eq (c : Dev nD) (i : ℕ) : ∀ (k : ℕ) (hk : k < 12) (h : 12 * i + k < cfg0.N) (p : Fin 3072) (q : Fin 64)
    (r : Fin 12288) (hr : r.val = 3072 * i + p.val),
    (outsAt0 V c (12 * i + k) h).2 (ix2 p q) = ∑ k' ∈ Finset.range (k + 1), run0 (V c main_arg1) (V c main_v0) r q k'
  | 0, hk, h, p, q, r, hr => by
    have h0 : (⟨12 * i + 0, h⟩ : Fin cfg0.N).val % 12 = 0 := by show (12 * i + 0) % 12 = 0; omega
    have h1 : ¬(⟨12 * i + 0, h⟩ : Fin cfg0.N).val % 12 = 11 := by show ¬(12 * i + 0) % 12 = 11; omega
    have hpr := prod0_eq V c ⟨12 * i + 0, h⟩ p q r (by show r.val = 3072 * ((12 * i + 0) / 12) + p.val; omega) _ _ rfl rfl
    rw [h0] at hpr
    rw [outsAt0_A V c ⟨12 * i + 0, h⟩ h0 h1]
    dsimp only
    rw [sout0_A_eq, k0_pay2_apply, k0_pay1_apply, zero_add, Finset.sum_range_one]
    exact hpr
  | k + 1, hk, h, p, q, r, hr => by
    have hN : cfg0.N = 48 := N_0
    have ih := acc0_eq c i k (by omega) (by omega) p q r hr
    have h0 : ¬(⟨12 * i + (k + 1), h⟩ : Fin cfg0.N).val % 12 = 0 := by show ¬(12 * i + (k + 1)) % 12 = 0; omega
    have hprev : 12 * i + (k + 1) - 1 = 12 * i + k := by omega
    have hpr := prod0_eq V c ⟨12 * i + (k + 1), h⟩ p q r (by show r.val = 3072 * ((12 * i + (k + 1)) / 12) + p.val; omega) _ _ rfl rfl
    have hmod : (⟨12 * i + (k + 1), h⟩ : Fin cfg0.N).val % 12 = k + 1 := by show (12 * i + (k + 1)) % 12 = k + 1; omega
    rw [hmod] at hpr
    have hacc : ∀ (hh : 12 * i + (k + 1) - 1 < cfg0.N), (outsAt0 V c (12 * i + (k + 1) - 1) hh).2 (ix2 p q) = ∑ k' ∈ Finset.range (k + 1), run0 (V c main_arg1) (V c main_v0) r q k' := fun hh => by
      rw [outsAt0_congr V c hprev hh (by omega)]; exact ih
    by_cases h1 : (⟨12 * i + (k + 1), h⟩ : Fin cfg0.N).val % 12 = 11
    · rw [outsAt0_C V c ⟨12 * i + (k + 1), h⟩ h0 h1]
      dsimp only
      rw [sout0_C_eq, k0_pay2_apply, hacc, hpr, Finset.sum_range_succ _ (k + 1)]
    · rw [outsAt0_B V c ⟨12 * i + (k + 1), h⟩ h0 h1]
      dsimp only
      rw [sout0_B_eq, k0_pay2_apply, hacc, hpr, Finset.sum_range_succ _ (k + 1)]

/-- At the last step of a row tile the output tile holds, at (p, q), the full contraction of the entry in row 3072·(t / 12) + p. -/
theorem outRow0_eq (c : Dev nD) (t : Fin cfg0.N) (ht : t.val % 12 = 11) (p : Fin 3072) (q : Fin 64) (r : Fin 12288)
    (hr : r.val = 3072 * (t.val / 12) + p.val) :
    (outsAt0 V c t.val t.isLt).1 (ix2 p q) = ∑ j : Fin 12288, term0 (V c main_arg1) (V c main_v0) r q j := by
  have hN : cfg0.N = 48 := N_0
  have htl : t.val < cfg0.N := t.isLt
  have h0 : ¬t.val % 12 = 0 := by omega
  have hprev : t.val - 1 = 12 * (t.val / 12) + 10 := by omega
  have hpr := prod0_eq V c t p q r hr _ _ rfl rfl
  rw [ht] at hpr
  have hacc : ∀ (hh : t.val - 1 < cfg0.N), (outsAt0 V c (t.val - 1) hh).2 (ix2 p q) = ∑ k' ∈ Finset.range (10 + 1), run0 (V c main_arg1) (V c main_v0) r q k' := fun hh => by
    rw [outsAt0_congr V c hprev hh (by omega)]; exact acc0_eq V c (t.val / 12) 10 (by decide) (by omega) p q r hr
  rw [outsAt0_C V c t h0 ht]
  dsimp only
  rw [out0_C_eq, k0_pay2_apply, hacc, hpr, ← Finset.sum_range_succ (fun k' => run0 (V c main_arg1) (V c main_v0) r q k') (10 + 1)]
  exact runs0_total (V c main_arg1) (V c main_v0) r q

/-! ## The result array -/

/-- The matrix product of the two arrays the region reads, as contents of the region's output array. -/
def matOut0 (c : Dev nD) : Buf (Elt Ideal) ((c : Thread nD τ).loc main_v1) :=
  matProd0 (V c main_arg1) (V c main_v0)

/-- What the last point of a row tile writes back is that tile's rows of the product. -/
theorem flushed0_2_eq (c : Dev nD) (t : Fin cfg0.N) (hf : (cfg0.win 2).flush t = true) :
    (dat0 V c).flushed 2 t = ((cfg0.win 2).blk t).view.read (Elt Ideal) (matOut0 V c) := by
  have ht : t.val % 12 = 11 := (flush0_2 t).mp hf
  have hN : cfg0.N = 48 := N_0
  have htl : t.val < cfg0.N := t.isLt
  show (cfg0.win 2).cut (grid0.coords t) ((dat0 V c).after 2 t) = _
  rw [after0_2]
  funext (y : S3072x64.Idx)
  obtain ⟨p, q, rfl⟩ : ∃ (p : Fin 3072) (q : Fin 64), y = ix2 p q := ⟨y 0, y 1, eq_ix2 y⟩
  have hp : p.val < 3072 := p.isLt
  have hlt : 3072 * (t.val / 12) + p.val < 12288 := by omega
  rw [oblk0_2_apply c (matOut0 V c) t (ix2 p q) (ix2 ⟨3072 * (t.val / 12) + p.val, hlt⟩ q) rfl rfl]
  show (outsAt0 V c t.val t.isLt).1 (ix2 p q) = _
  rw [outRow0_eq V c t ht p q ⟨3072 * (t.val / 12) + p.val, hlt⟩ rfl]
  rfl

/-- The region's output array ends holding the matrix product. -/
theorem arrAt0_2 (c : Dev nD) : (dat0 (F := Ideal) V c).arrAt 2 cfg0.N = matOut0 V c :=
  (dat0 V c).arrAt_eq_of_cover 2 (matOut0 V c) (flushed0_2_eq V c) cover0_2

end Cert.KernelIdeal.Hand
-- ==== Proof.KiR1Blocks.lean ====
/-
  Region 0's two input blocks, read at an index of the arrays the region is entered with.

  Grid point t stands for the pair (i, k) = (t / 12, t % 12). The left factor's block at t is rows 3072·i … 3072·i + 3071
  and columns 1024·k … 1024·k + 1023 of the [12288, 12288] array; the right factor's block is rows 1024·k … 1024·k + 1023
  of the [12288, 64] array; the output's block is rows 3072·i … 3072·i + 3071 of the [12288, 64] result.
-/
import proofs.«173690_j65120294142423_1_alg».proof.Proof.KiR1Runs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (V : (c : Dev nD) → (b : Ref sig .tc) → Buf (Elt F) ((c : Thread nD τ).loc b))

/-- The three windows' block indices at every grid point. -/
theorem idx_facts1 : ∀ t : Fin cfg1.N,
    win1_0.index t (0 : Fin 2) = t.val / 12 ∧ win1_0.index t (1 : Fin 2) = t.val % 12
    ∧ win1_1.index t (0 : Fin 2) = t.val % 12 ∧ win1_1.index t (1 : Fin 2) = 0
    ∧ win1_2.index t (0 : Fin 2) = t.val / 12 ∧ win1_2.index t (1 : Fin 2) = 0 :=
  (by decide +kernel : ∀ t : Fin grid1.N, _)

/-- The left factor's block at point `t`, at an index. -/
theorem iblk1_0_apply (c : Dev nD) (t : Fin cfg1.N) (x : S3072x1024.Idx) (k : S12288x12288.Idx)
    (hk0 : (k 0).val = 3072 * (t.val / 12) + (x 0).val) (hk1 : (k 1).val = 1024 * (t.val % 12) + (x 1).val) :
    (iblk1 V c 0 t : Vec F S3072x1024 .f32) x = (V c main_arg1 : S12288x12288.Idx → Elt F .f32) k := by
  obtain ⟨e0, e1, -, -, -, -⟩ := idx_facts1 t
  unfold iblk1
  rw [View.read_apply]
  show V c main_arg1 _ = V c main_arg1 _
  congr 1
  funext a
  apply Fin.ext
  match a with
  | ⟨0, _⟩ => show win1_0.index t 0 * 3072 + 1 * (x 0).val = (k 0).val; rw [e0, hk0]; omega
  | ⟨1, _⟩ => show win1_0.index t 1 * 1024 + 1 * (x 1).val = (k 1).val; rw [e1, hk1]; omega

/-- The right factor's block at point `t`, at an index. -/
theorem iblk1_1_apply (c : Dev nD) (t : Fin cfg1.N) (x : S1024x64.Idx) (k : S12288x64.Idx)
    (hk0 : (k 0).val = 1024 * (t.val % 12) + (x 0).val) (hk1 : (k 1).val = (x 1).val) :
    (iblk1 V c 1 t : Vec F S1024x64 .f32) x = (V c main_v41 : S12288x64.Idx → Elt F .f32) k := by
  obtain ⟨-, -, e0, e1, -, -⟩ := idx_facts1 t
  unfold iblk1
  rw [View.read_apply]
  show V c main_v41 _ = V c main_v41 _
  congr 1
  funext a
  apply Fin.ext
  match a with
  | ⟨0, _⟩ => show win1_1.index t 0 * 1024 + 1 * (x 0).val = (k 0).val; rw [e0, hk0]; omega
  | ⟨1, _⟩ => show win1_1.index t 1 * 64 + 1 * (x 1).val = (k 1).val; rw [e1, hk1]; omega

/-- Any function on the result array, read through the output's block at point `t`, at an index. -/
theorem oblk1_2_apply (c : Dev nD) (G : Buf (Elt F) ((c : Thread nD τ).loc main_v42)) (t : Fin cfg1.N) (x : S3072x64.Idx) (k : S12288x64.Idx)
    (hk0 : (k 0).val = 3072 * (t.val / 12) + (x 0).val) (hk1 : (k 1).val = (x 1).val) :
    (((cfg1.win 2).blk t).view.read (Elt F) G : Vec F S3072x64 .f32) x = (G : S12288x64.Idx → Elt F .f32) k := by
  obtain ⟨-, -, -, -, e0, e1⟩ := idx_facts1 t
  rw [View.read_apply]
  show G _ = G _
  congr 1
  funext a
  apply Fin.ext
  match a with
  | ⟨0, _⟩ => show win1_2.index t 0 * 3072 + 1 * (x 0).val = (k 0).val; rw [e0, hk0]; omega
  | ⟨1, _⟩ => show win1_2.index t 1 * 64 + 1 * (x 1).val = (k 1).val; rw [e1, hk1]; omega

/-- An index of the result array lies in point `t`'s output block iff each coordinate lies in the block's range. -/
theorem mem_blk1_2 (t : Fin cfg1.N) (i : S12288x64.Idx) :
    i ∈ ((cfg1.win 2).blk t).view.set ↔ ∀ a : Fin 2, win1_2.index t a * S3072x64.size a ≤ (i a).val ∧ (i a).val < win1_2.index t a * S3072x64.size a + S3072x64.size a := by
  show i ∈ ((View.whole main_v42).slice (win1_2.rect t)).set ↔ _
  rw [View.set_slice_whole, Rect.mem_set_unit]
  exact Iff.rfl

/-- Every index of the result array lies in the block written back at the last point of its row tile:
    row r is in tile r / 3072, whose last point is 12 · (r / 3072) + 11. -/
theorem cover1_2 (i : S12288x64.Idx) :
    ∃ t : Fin cfg1.N, (cfg1.win 2).flush t = true ∧ i ∈ ((cfg1.win 2).blk t).view.set := by
  have hN : cfg1.N = 48 := N_1
  have hi0 : (i 0).val < 12288 := (i 0).isLt
  have hi1 : (i 1).val < 64 := (i 1).isLt
  have hlt : 12 * ((i 0).val / 3072) + 11 < cfg1.N := by rw [hN]; omega
  have ht : (⟨12 * ((i 0).val / 3072) + 11, hlt⟩ : Fin cfg1.N).val = 12 * ((i 0).val / 3072) + 11 := rfl
  refine ⟨⟨12 * ((i 0).val / 3072) + 11, hlt⟩, (flush1_2 _).mpr (by rw [ht]; omega), ?_⟩
  rw [mem_blk1_2]
  obtain ⟨-, -, -, -, e0, e1⟩ := idx_facts1 ⟨12 * ((i 0).val / 3072) + 11, hlt⟩
  intro a
  match a with
  | ⟨0, _⟩ =>
    show win1_2.index ⟨12 * ((i 0).val / 3072) + 11, hlt⟩ (0 : Fin 2) * 3072 ≤ (i 0).val ∧ (i 0).val < win1_2.index ⟨12 * ((i 0).val / 3072) + 11, hlt⟩ (0 : Fin 2) * 3072 + 3072
    rw [e0, ht]; omega
  | ⟨1, _⟩ =>
    show win1_2.index ⟨12 * ((i 0).val / 3072) + 11, hlt⟩ (1 : Fin 2) * 64 ≤ (i 1).val ∧ (i 1).val < win1_2.index ⟨12 * ((i 0).val / 3072) + 11, hlt⟩ (1 : Fin 2) * 64 + 64
    rw [e1]; omega

end Cert.KernelIdeal.Hand
-- ==== Proof.KiR1Pieces.lean ====
/-
  What the kernel body of region 0 leaves, case by case, as one term of the blocks it loads.

  With the reduction coordinate at 0 the accumulator tile ends at (zero tile) + block₀ · block₁; at a middle
  coordinate at (what it held) + block₀ · block₁; at the last coordinate likewise, and the same tile is copied to
  the output. Each store and load covers its whole tile, so the canonical contents of a case's stores are the
  payload of the last store, with every load reading the whole of what was stored before it.
-/
import proofs.«173690_j65120294142423_1_alg».proof.Proof.KiR1RunC
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-- The offsets of a whole-tile access. -/
private theorem hz : (![0, 0] : Fin 2 → Nat) = fun _ => 0 := funext fun a => by fin_cases a <;> rfl

/-- Reduction coordinate 0: the accumulator is zeroed, read back, and left at the zero tile plus the product. -/
theorem canon1_A_S (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : cond1_0 i) (hc1 : ¬cond1_1 i) (x0 : Vec F S3072x1024 .f32) (x1 : Vec F S1024x64 .f32) :
    View.canon (kernelRun1_A c i arg2 harg2 arg3 harg3 arg4 harg4 arg5 harg5 hc0 hc1 x0 x1).2.1 = k1_pay2 x0 x1 (k1_pay1 (F := F)) := by
  unfold kernelRun1_A
  dsimp only
  try sl_unfold_words
  rw [View.canon_cons_unit_zero (S := S3072x64) hz, View.readCov_unit_zero (S := S3072x64) _ hz]
  simp only [View.readAt_eq_ld, harg2.read_unread, harg3.read_unread, View.ld_unit_zero (S := S3072x1024) hz, View.ld_unit_zero (S := S1024x64) hz]

/-- A middle reduction coordinate: the accumulator is left at what it held plus the product. -/
theorem canon1_B_S (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond1_0 i) (hc1 : ¬cond1_1 i) (x0 : Vec F S3072x1024 .f32) (x1 : Vec F S1024x64 .f32) (xs0 : Vec F S3072x64 .f32) :
    View.canon (kernelRun1_B c i arg2 harg2 arg3 harg3 arg4 harg4 arg5 harg5 hc0 hc1 x0 x1 xs0).2.1 = k1_pay2 x0 x1 xs0 := by
  unfold kernelRun1_B
  dsimp only
  try sl_unfold_words
  rw [View.canon_unit_zero (S := S3072x64) hz]
  simp only [View.readAt_eq_ld, harg2.read_unread, harg3.read_unread, harg5.read_unread, View.ld_unit_zero (S := S3072x1024) hz, View.ld_unit_zero (S := S1024x64) hz, View.ld_unit_zero (S := S3072x64) hz]

/-- The last reduction coordinate: the accumulator is left at what it held plus the product … -/
theorem canon1_C_S (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond1_0 i) (hc1 : cond1_1 i) (x0 : Vec F S3072x1024 .f32) (x1 : Vec F S1024x64 .f32) (xs0 : Vec F S3072x64 .f32) :
    View.canon (kernelRun1_C c i arg2 harg2 arg3 harg3 arg4 harg4 arg5 harg5 hc0 hc1 x0 x1 xs0).2.1 = k1_pay2 x0 x1 xs0 := by
  unfold kernelRun1_C
  dsimp only
  try sl_unfold_words
  rw [View.canon_unit_zero (S := S3072x64) hz]
  simp only [View.readAt_eq_ld, harg2.read_unread, harg3.read_unread, harg5.read_unread, View.ld_unit_zero (S := S3072x1024) hz, View.ld_unit_zero (S := S1024x64) hz, View.ld_unit_zero (S := S3072x64) hz]

/-- … and is copied to the output's tile. -/
theorem canon1_C_O (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond1_0 i) (hc1 : cond1_1 i) (x0 : Vec F S3072x1024 .f32) (x1 : Vec F S1024x64 .f32) (xs0 : Vec F S3072x64 .f32) :
    View.canon (kernelRun1_C c i arg2 harg2 arg3 harg3 arg4 harg4 arg5 harg5 hc0 hc1 x0 x1 xs0).1 = k1_pay2 x0 x1 xs0 := by
  unfold kernelRun1_C
  dsimp only
  try sl_unfold_words
  rw [View.canon_unit_zero (S := S3072x64) hz, View.readCov_unit_zero (S := S3072x64) _ hz]
  simp only [View.readAt_eq_ld, harg2.read_unread, harg3.read_unread, harg5.read_unread, View.ld_unit_zero (S := S3072x1024) hz, View.ld_unit_zero (S := S1024x64) hz, View.ld_unit_zero (S := S3072x64) hz]

end Cert.KernelIdeal.Hand
-- ==== Proof.KiR1Payload.lean ====
/-
  The two payloads of region 0's kernel body, read at one index of the [3072, 64] tile, at the ideal values.

  The first payload is the zero tile. The second is the carried tile plus the product of the [3072, 1024] block with
  the [1024, 64] block: at (p, q) the carried value plus the sum over the 1024 contraction places j of
  block₀(p, j) · block₁(j, q). The narrowing of both operands before the product is the identity at the ideal values,
  and a cast of a tile to its own shape changes nothing.
-/
import proofs.«173690_j65120294142423_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

/-! ## The product's operand indices, one axis at a time -/

theorem lhs_k1_0 (i : S3072x64.Idx) (q : dot_S3072x1024_S1024x64_S3072x64_1_0_0_1_n_n.contr.Idx) :
    (dot_S3072x1024_S1024x64_S3072x64_1_0_0_1_n_n.lhsIdx i q 0).val = (i 0).val := by
  unfold DotDims.lhsIdx
  rw [dif_neg (show ¬(0 : Fin S3072x1024.rank) ∈ dot_S3072x1024_S1024x64_S3072x64_1_0_0_1_n_n.lhsBatch by decide), dif_pos (show (0 : Fin S3072x1024.rank) ∈ dot_S3072x1024_S1024x64_S3072x64_1_0_0_1_n_n.lhsNonContracting by decide)]
  rfl
theorem lhs_k1_1 (i : S3072x64.Idx) (q : dot_S3072x1024_S1024x64_S3072x64_1_0_0_1_n_n.contr.Idx) :
    (dot_S3072x1024_S1024x64_S3072x64_1_0_0_1_n_n.lhsIdx i q 1).val = (q ⟨0, by decide⟩).val :=
  dot_S3072x1024_S1024x64_S3072x64_1_0_0_1_n_n.lhsIdx_val_of_single rfl i q
theorem rhs_k1_0 (i : S3072x64.Idx) (q : dot_S3072x1024_S1024x64_S3072x64_1_0_0_1_n_n.contr.Idx) :
    (dot_S3072x1024_S1024x64_S3072x64_1_0_0_1_n_n.rhsIdx i q 0).val = (q ⟨0, by decide⟩).val :=
  dot_S3072x1024_S1024x64_S3072x64_1_0_0_1_n_n.rhsIdx_val_of_single rfl i q
theorem rhs_k1_1 (i : S3072x64.Idx) (q : dot_S3072x1024_S1024x64_S3072x64_1_0_0_1_n_n.contr.Idx) :
    (dot_S3072x1024_S1024x64_S3072x64_1_0_0_1_n_n.rhsIdx i q 1).val = (i 1).val := by
  unfold DotDims.rhsIdx
  rw [dif_neg (show ¬(1 : Fin S1024x64.rank) ∈ dot_S3072x1024_S1024x64_S3072x64_1_0_0_1_n_n.rhsBatch by decide), dif_pos (show (1 : Fin S1024x64.rank) ∈ dot_S3072x1024_S1024x64_S3072x64_1_0_0_1_n_n.rhsNonContracting by decide)]
  rfl

/-! ## The payloads at an index -/

/-- The zero tile. -/
theorem k1_pay1_apply (p : Fin 3072) (q : Fin 64) : (k1_pay1 (F := Ideal)) (ix2 p q) = 0 := by
  unfold Gen.k1_pay1
  simp only [shapeCast_self]
  show Ideal.ofBits .f32 0x00000000#32 = 0
  exact Ideal.ofBits_zero_f32

/-- The carried tile plus the product of the two blocks. -/
theorem k1_pay2_apply (x0 : Vec Ideal S3072x1024 .f32) (x1 : Vec Ideal S1024x64 .f32) (acc : Vec Ideal S3072x64 .f32)
    (p : Fin 3072) (q : Fin 64) :
    k1_pay2 x0 x1 acc (ix2 p q) = acc (ix2 p q) + ∑ j : Fin 1024, x0 (ix2 p j) * x1 (ix2 j q) := by
  unfold Gen.k1_pay2
  simp only [shapeCast_self]
  rw [addf_apply]
  simp only [matmul]
  rw [Ideal.matmul_constant_zero_apply, ← Equiv.sum_comp (ValueIdx.contrEquiv1 dot_S3072x1024_S1024x64_S3072x64_1_0_0_1_n_n 1024 rfl rfl).symm]
  refine congrArg (acc (ix2 p q) + ·) (Finset.sum_congr rfl fun k _ => ?_)
  have hk := ValueIdx.contrEquiv1_symm_val dot_S3072x1024_S1024x64_S3072x64_1_0_0_1_n_n 1024 rfl rfl k
  have el : dot_S3072x1024_S1024x64_S3072x64_1_0_0_1_n_n.lhsIdx (ix2 p q) ((ValueIdx.contrEquiv1 dot_S3072x1024_S1024x64_S3072x64_1_0_0_1_n_n 1024 rfl rfl).symm k) = ix2 p k := funext fun a => Fin.ext (by
    match a with
    | ⟨0, _⟩ => exact lhs_k1_0 _ _
    | ⟨1, _⟩ => exact (lhs_k1_1 _ _).trans hk)
  have er : dot_S3072x1024_S1024x64_S3072x64_1_0_0_1_n_n.rhsIdx (ix2 p q) ((ValueIdx.contrEquiv1 dot_S3072x1024_S1024x64_S3072x64_1_0_0_1_n_n 1024 rfl rfl).symm k) = ix2 k q := funext fun a => Fin.ext (by
    match a with
    | ⟨0, _⟩ => exact (rhs_k1_0 _ _).trans hk
    | ⟨1, _⟩ => exact rhs_k1_1 _ _)
  rw [truncf_apply, truncf_apply, el, er]

end Cert.KernelIdeal.Hand
-- ==== Proof.KiR1Value.lean ====
/-
  What region 0 leaves in its output array, at the ideal values: the matrix product of the two arrays it reads.

  Grid point t stands for (i, k) = (t / 12, t % 12): row tile i of 3072 rows, reduction step k over 1024 columns.
  Within a row tile the accumulator tile after step k holds, at (p, q), the sum over the first k + 1 runs of 1024
  contraction places j of adj(3072·i + p, j) · v(j, q) (induction over k: the first step adds its run to zero, each
  later step adds its run to what the step before left). The last step copies the accumulator to the output tile,
  which is written back as rows 3072·i … 3072·i + 3071 of the result; twelve runs of 1024 places are the 12288
  places of the full contraction; the four written-back tiles cover the result array.
-/
import proofs.«173690_j65120294142423_1_alg».proof.Proof.KiR1Frame
import proofs.«173690_j65120294142423_1_alg».proof.Proof.KiR1Blocks
import proofs.«173690_j65120294142423_1_alg».proof.Proof.KiR1Pieces
import proofs.«173690_j65120294142423_1_alg».proof.Proof.KiR1Payload
import proofs.«173690_j65120294142423_1_alg».proof.Proof.MatSum
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The body's cases, over the names of the accumulation -/

section Cases
variable {F : FTy → Type} [FloatOps F]

theorem sout1_A_eq (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : cond1_0 i) (hc1 : ¬cond1_1 i) (x0 : Vec F S3072x1024 .f32) (x1 : Vec F S1024x64 .f32) :
    sout1_A_0 c i arg2 harg2 arg3 harg3 arg4 harg4 arg5 harg5 hc0 hc1 x0 x1 = k1_pay2 x0 x1 (k1_pay1 (F := F)) := by
  unfold sout1_A_0
  rw [View.read_writes_eq_canon _ _ _ (scover1_A_0 c i arg2 harg2 arg3 harg3 arg4 harg4 arg5 harg5 hc0 hc1 x0 x1)]
  exact canon1_A_S c i arg2 harg2 arg3 harg3 arg4 harg4 arg5 harg5 hc0 hc1 x0 x1

theorem sout1_B_eq (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond1_0 i) (hc1 : ¬cond1_1 i) (x0 : Vec F S3072x1024 .f32) (x1 : Vec F S1024x64 .f32) (xs0 : Vec F S3072x64 .f32) :
    sout1_B_0 c i arg2 harg2 arg3 harg3 arg4 harg4 arg5 harg5 hc0 hc1 x0 x1 xs0 = k1_pay2 x0 x1 xs0 := by
  unfold sout1_B_0
  rw [View.read_writes_eq_canon _ _ _ (scover1_B_0 c i arg2 harg2 arg3 harg3 arg4 harg4 arg5 harg5 hc0 hc1 x0 x1 xs0)]
  exact canon1_B_S c i arg2 harg2 arg3 harg3 arg4 harg4 arg5 harg5 hc0 hc1 x0 x1 xs0

theorem sout1_C_eq (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond1_0 i) (hc1 : cond1_1 i) (x0 : Vec F S3072x1024 .f32) (x1 : Vec F S1024x64 .f32) (xs0 : Vec F S3072x64 .f32) :
    sout1_C_0 c i arg2 harg2 arg3 harg3 arg4 harg4 arg5 harg5 hc0 hc1 x0 x1 xs0 = k1_pay2 x0 x1 xs0 := by
  unfold sout1_C_0
  rw [View.read_writes_eq_canon _ _ _ (scover1_C_0 c i arg2 harg2 arg3 harg3 arg4 harg4 arg5 harg5 hc0 hc1 x0 x1 xs0)]
  exact canon1_C_S c i arg2 harg2 arg3 harg3 arg4 harg4 arg5 harg5 hc0 hc1 x0 x1 xs0

theorem out1_C_eq (c : Dev nD) (i : grid1.Coords) (arg2 : Memref sig .tc .vmem S3072x1024 .f32) (harg2 : arg2.IsWhole) (arg3 : Memref sig .tc .vmem S1024x64 .f32) (harg3 : arg3.IsWhole) (arg4 : Memref sig .tc .vmem S3072x64 .f32) (harg4 : arg4.IsWhole) (arg5 : Memref sig .tc .vmem S3072x64 .f32) (harg5 : arg5.IsWhole) (hc0 : ¬cond1_0 i) (hc1 : cond1_1 i) (x0 : Vec F S3072x1024 .f32) (x1 : Vec F S1024x64 .f32) (xs0 : Vec F S3072x64 .f32) :
    out1_C_2 c i arg2 harg2 arg3 harg3 arg4 harg4 arg5 harg5 hc0 hc1 x0 x1 xs0 = k1_pay2 x0 x1 xs0 := by
  unfold out1_C_2
  rw [View.read_writes_eq_canon _ _ _ (cover1_C_2 c i arg2 harg2 arg3 harg3 arg4 harg4 arg5 harg5 hc0 hc1 x0 x1 xs0)]
  exact canon1_C_O c i arg2 harg2 arg3 harg3 arg4 harg4 arg5 harg5 hc0 hc1 x0 x1 xs0

end Cases

/-! ## The sums -/

/-- The j-th product of entry (r, q) of the product of `A` and `B`. -/
def term1 (A : Vec Ideal S12288x12288 .f32) (B : Vec Ideal S12288x64 .f32) (r : Fin 12288) (q : Fin 64) (j : Fin 12288) : Elt Ideal .f32 :=
  A (ix2 r j) * B (ix2 j q)

/-- The k-th run of 1024 consecutive products of entry (r, q). -/
def run1 (A : Vec Ideal S12288x12288 .f32) (B : Vec Ideal S12288x64 .f32) (r : Fin 12288) (q : Fin 64) (k : ℕ) : Elt Ideal .f32 :=
  ∑ j : Fin 1024, term1 A B r q ⟨(1024 * k + j.val) % 12288, Nat.mod_lt _ (by decide)⟩

/-- Twelve runs make up the full contraction. -/
theorem runs1_total (A : Vec Ideal S12288x12288 .f32) (B : Vec Ideal S12288x64 .f32) (r : Fin 12288) (q : Fin 64) :
    ∑ k ∈ Finset.range 12, run1 A B r q k = ∑ j : Fin 12288, term1 A B r q j := by
  rw [← Fin.sum_univ_eq_sum_range (fun k => run1 A B r q k) 12, ← Cert.MatSum.sum_12_runs_1024 (term1 A B r q) Cert.MatSum.lt_12288]
  refine Finset.sum_congr rfl fun k _ => ?_
  unfold run1
  refine Finset.sum_congr rfl fun j _ => ?_
  exact congrArg (term1 A B r q) (Fin.ext (Nat.mod_eq_of_lt (Cert.MatSum.lt_12288 k j)))

/-- The product of a [12288, 12288] array with a [12288, 64] array. -/
def matProd1 (A : Vec Ideal S12288x12288 .f32) (B : Vec Ideal S12288x64 .f32) : Vec Ideal S12288x64 .f32 :=
  fun idx => ∑ j : Fin 12288, A (ix2 (idx 0) j) * B (ix2 j (idx 1))

variable (V : (c : Dev nD) → (b : Ref sig .tc) → Buf (Elt Ideal) ((c : Thread nD τ).loc b))

/-- The product of the two blocks at point `t`, at (p, q): run t % 12 of the entry in row 3072·(t / 12) + p. -/
theorem prod1_eq (c : Dev nD) (t : Fin cfg1.N) (p : Fin 3072) (q : Fin 64) (r : Fin 12288) (hr : r.val = 3072 * (t.val / 12) + p.val)
    (x0 : Vec Ideal S3072x1024 .f32) (x1 : Vec Ideal S1024x64 .f32) (hx0 : x0 = iblk1 V c 0 t) (hx1 : x1 = iblk1 V c 1 t) :
    ∑ j : Fin 1024, x0 (ix2 p j) * x1 (ix2 j q) = run1 (V c main_arg1) (V c main_v41) r q (t.val % 12) := by
  subst hx0 hx1
  unfold run1 term1
  refine Finset.sum_congr rfl fun j _ => ?_
  have hj : j.val < 1024 := j.isLt
  have hk : t.val % 12 < 12 := Nat.mod_lt _ (by decide)
  have hm : (1024 * (t.val % 12) + j.val) % 12288 = 1024 * (t.val % 12) + j.val := Nat.mod_eq_of_lt (by omega)
  rw [iblk1_0_apply V c t (ix2 p j) (ix2 r ⟨(1024 * (t.val % 12) + j.val) % 12288, Nat.mod_lt _ (by decide)⟩) hr hm,
    iblk1_1_apply V c t (ix2 j q) (ix2 ⟨(1024 * (t.val % 12) + j.val) % 12288, Nat.mod_lt _ (by decide)⟩ q) hm rfl]

/-! ## The accumulator, step by step -/

theorem outsAt1_congr (c : Dev nD) {n n' : ℕ} (e : n = n') (h : n < cfg1.N) (h' : n' < cfg1.N) :
    outsAt1 V c n h = outsAt1 V c n' h' := by subst e; rfl

/-- After step k of row tile i the accumulator holds, at (p, q), the first k + 1 runs of the entry in row 3072·i + p. -/
theorem acc1_eq (c : Dev nD) (i : ℕ) : ∀ (k : ℕ) (hk : k < 12) (h : 12 * i + k < cfg1.N) (p : Fin 3072) (q : Fin 64)
    (r : Fin 12288) (hr : r.val = 3072 * i + p.val),
    (outsAt1 V c (12 * i + k) h).2 (ix2 p q) = ∑ k' ∈ Finset.range (k + 1), run1 (V c main_arg1) (V c main_v41) r q k'
  | 0, hk, h, p, q, r, hr => by
    have h0 : (⟨12 * i + 0, h⟩ : Fin cfg1.N).val % 12 = 0 := by show (12 * i + 0) % 12 = 0; omega
    have h1 : ¬(⟨12 * i + 0, h⟩ : Fin cfg1.N).val % 12 = 11 := by show ¬(12 * i + 0) % 12 = 11; omega
    have hpr := prod1_eq V c ⟨12 * i + 0, h⟩ p q r (by show r.val = 3072 * ((12 * i + 0) / 12) + p.val; omega) _ _ rfl rfl
    rw [h0] at hpr
    rw [outsAt1_A V c ⟨12 * i + 0, h⟩ h0 h1]
    dsimp only
    rw [sout1_A_eq, k1_pay2_apply, k1_pay1_apply, zero_add, Finset.sum_range_one]
    exact hpr
  | k + 1, hk, h, p, q, r, hr => by
    have hN : cfg1.N = 48 := N_1
    have ih := acc1_eq c i k (by omega) (by omega) p q r hr
    have h0 : ¬(⟨12 * i + (k + 1), h⟩ : Fin cfg1.N).val % 12 = 0 := by show ¬(12 * i + (k + 1)) % 12 = 0; omega
    have hprev : 12 * i + (k + 1) - 1 = 12 * i + k := by omega
    have hpr := prod1_eq V c ⟨12 * i + (k + 1), h⟩ p q r (by show r.val = 3072 * ((12 * i + (k + 1)) / 12) + p.val; omega) _ _ rfl rfl
    have hmod : (⟨12 * i + (k + 1), h⟩ : Fin cfg1.N).val % 12 = k + 1 := by show (12 * i + (k + 1)) % 12 = k + 1; omega
    rw [hmod] at hpr
    have hacc : ∀ (hh : 12 * i + (k + 1) - 1 < cfg1.N), (outsAt1 V c (12 * i + (k + 1) - 1) hh).2 (ix2 p q) = ∑ k' ∈ Finset.range (k + 1), run1 (V c main_arg1) (V c main_v41) r q k' := fun hh => by
      rw [outsAt1_congr V c hprev hh (by omega)]; exact ih
    by_cases h1 : (⟨12 * i + (k + 1), h⟩ : Fin cfg1.N).val % 12 = 11
    · rw [outsAt1_C V c ⟨12 * i + (k + 1), h⟩ h0 h1]
      dsimp only
      rw [sout1_C_eq, k1_pay2_apply, hacc, hpr, Finset.sum_range_succ _ (k + 1)]
    · rw [outsAt1_B V c ⟨12 * i + (k + 1), h⟩ h0 h1]
      dsimp only
      rw [sout1_B_eq, k1_pay2_apply, hacc, hpr, Finset.sum_range_succ _ (k + 1)]

/-- At the last step of a row tile the output tile holds, at (p, q), the full contraction of the entry in row 3072·(t / 12) + p. -/
theorem outRow1_eq (c : Dev nD) (t : Fin cfg1.N) (ht : t.val % 12 = 11) (p : Fin 3072) (q : Fin 64) (r : Fin 12288)
    (hr : r.val = 3072 * (t.val / 12) + p.val) :
    (outsAt1 V c t.val t.isLt).1 (ix2 p q) = ∑ j : Fin 12288, term1 (V c main_arg1) (V c main_v41) r q j := by
  have hN : cfg1.N = 48 := N_1
  have htl : t.val < cfg1.N := t.isLt
  have h0 : ¬t.val % 12 = 0 := by omega
  have hprev : t.val - 1 = 12 * (t.val / 12) + 10 := by omega
  have hpr := prod1_eq V c t p q r hr _ _ rfl rfl
  rw [ht] at hpr
  have hacc : ∀ (hh : t.val - 1 < cfg1.N), (outsAt1 V c (t.val - 1) hh).2 (ix2 p q) = ∑ k' ∈ Finset.range (10 + 1), run1 (V c main_arg1) (V c main_v41) r q k' := fun hh => by
    rw [outsAt1_congr V c hprev hh (by omega)]; exact acc1_eq V c (t.val / 12) 10 (by decide) (by omega) p q r hr
  rw [outsAt1_C V c t h0 ht]
  dsimp only
  rw [out1_C_eq, k1_pay2_apply, hacc, hpr, ← Finset.sum_range_succ (fun k' => run1 (V c main_arg1) (V c main_v41) r q k') (10 + 1)]
  exact runs1_total (V c main_arg1) (V c main_v41) r q

/-! ## The result array -/

/-- The matrix product of the two arrays the region reads, as contents of the region's output array. -/
def matOut1 (c : Dev nD) : Buf (Elt Ideal) ((c : Thread nD τ).loc main_v42) :=
  matProd1 (V c main_arg1) (V c main_v41)

/-- What the last point of a row tile writes back is that tile's rows of the product. -/
theorem flushed1_2_eq (c : Dev nD) (t : Fin cfg1.N) (hf : (cfg1.win 2).flush t = true) :
    (dat1 V c).flushed 2 t = ((cfg1.win 2).blk t).view.read (Elt Ideal) (matOut1 V c) := by
  have ht : t.val % 12 = 11 := (flush1_2 t).mp hf
  have hN : cfg1.N = 48 := N_1
  have htl : t.val < cfg1.N := t.isLt
  show (cfg1.win 2).cut (grid1.coords t) ((dat1 V c).after 2 t) = _
  rw [after1_2]
  funext (y : S3072x64.Idx)
  obtain ⟨p, q, rfl⟩ : ∃ (p : Fin 3072) (q : Fin 64), y = ix2 p q := ⟨y 0, y 1, eq_ix2 y⟩
  have hp : p.val < 3072 := p.isLt
  have hlt : 3072 * (t.val / 12) + p.val < 12288 := by omega
  rw [oblk1_2_apply c (matOut1 V c) t (ix2 p q) (ix2 ⟨3072 * (t.val / 12) + p.val, hlt⟩ q) rfl rfl]
  show (outsAt1 V c t.val t.isLt).1 (ix2 p q) = _
  rw [outRow1_eq V c t ht p q ⟨3072 * (t.val / 12) + p.val, hlt⟩ rfl]
  rfl

/-- The region's output array ends holding the matrix product. -/
theorem arrAt1_2 (c : Dev nD) : (dat1 (F := Ideal) V c).arrAt 2 cfg1.N = matOut1 V c :=
  (dat1 V c).arrAt_eq_of_cover 2 (matOut1 V c) (flushed1_2_eq V c) cover1_2

end Cert.KernelIdeal.Hand
-- ==== Proof.RefStages.lean ====
/-
  The reference program's run, one host operation at a time: the generated run and its read-at-an-index
  lemmas are imported here; what is stated below is the one stage the kernel replaces, the product
  `adj · v` over all 12288 columns, read at an index as a plain sum.
-/
import proofs.«173690_j65120294142423_1_alg».proof.Defs
import proofs.«173690_j65120294142423_1_alg».proof.Proof.Gen.ReferenceIdeal.Run
import proofs.«173690_j65120294142423_1_alg».proof.Proof.Gen.ReferenceIdeal.Read

noncomputable section

namespace Cert.ReferenceIdeal.RefStages

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx (ix2)

/-- The product of a 12288 × 12288 matrix and a 12288 × 64 matrix, entry by entry: entry (r, d) is the sum over all
    12288 columns j of `adj (r, j) * v (j, d)`. -/
def matProd (adj : (⟨S12288x12288, .f32⟩ : BufTy).Contents (Elt Ideal)) (v : (⟨S12288x64, .f32⟩ : BufTy).Contents (Elt Ideal)) :
    (⟨S12288x64, .f32⟩ : BufTy).Contents (Elt Ideal) :=
  fun idx => ∑ j : Fin 12288, adj (ix2 (idx 0) j) * v (ix2 j (idx 1))

/-- The host's `dot_general` contracting the matrix's columns against the other operand's rows is that product. -/
theorem dot_adj_eq (adj : (⟨S12288x12288, .f32⟩ : BufTy).Contents (Elt Ideal)) (v : (⟨S12288x64, .f32⟩ : BufTy).Contents (Elt Ideal)) :
    Host.dotGeneral (F := Ideal) (φ₁ := .f32) (φ₂ := .f32) dot_S12288x12288_S12288x64_S12288x64_1_0_0_1_n_n none adj v = matProd adj v := by
  funext i
  unfold matProd
  simp only [Host.dotGeneral]
  rw [Ideal.dotGeneral_apply, ← Equiv.sum_comp (ValueIdx.contrEquiv1 dot_S12288x12288_S12288x64_S12288x64_1_0_0_1_n_n 12288 rfl rfl).symm]
  refine Finset.sum_congr rfl fun k _ => ?_
  have hk := ValueIdx.contrEquiv1_symm_val dot_S12288x12288_S12288x64_S12288x64_1_0_0_1_n_n 12288 rfl rfl k
  have el : dot_S12288x12288_S12288x64_S12288x64_1_0_0_1_n_n.lhsIdx i ((ValueIdx.contrEquiv1 dot_S12288x12288_S12288x64_S12288x64_1_0_0_1_n_n 12288 rfl rfl).symm k) = ix2 (i 0) k := funext fun a => Fin.ext (by
    match a with
    | ⟨0, _⟩ => exact lhs_main_v1_0 _ _
    | ⟨1, _⟩ => exact (lhs_main_v1_1 _ _).trans hk)
  have er : dot_S12288x12288_S12288x64_S12288x64_1_0_0_1_n_n.rhsIdx i ((ValueIdx.contrEquiv1 dot_S12288x12288_S12288x64_S12288x64_1_0_0_1_n_n 12288 rfl rfl).symm k) = ix2 k (i 1) := funext fun a => Fin.ext (by
    match a with
    | ⟨0, _⟩ => exact (rhs_main_v1_0 _ _).trans hk
    | ⟨1, _⟩ => exact rhs_main_v1_1 _ _)
  rw [el, er]
  rfl

/-- The first stage the kernel replaces: `adj · (x · W1)`. -/
theorem val_main_v1_eq_matProd (x0 : (⟨S12288x64, .f32⟩ : BufTy).Contents (Elt Ideal)) (x1 : (⟨S12288x12288, .f32⟩ : BufTy).Contents (Elt Ideal)) (x2 : (⟨S64x64, .f32⟩ : BufTy).Contents (Elt Ideal)) :
    val_main_v1 (F := Ideal) x0 x1 x2 = matProd x1 (val_main_v0 (F := Ideal) x0 x2) := by
  unfold val_main_v1
  exact dot_adj_eq x1 _

/-- The second stage the kernel replaces: `adj · (h · W2)`. -/
theorem val_main_v42_eq_matProd (x0 : (⟨S12288x64, .f32⟩ : BufTy).Contents (Elt Ideal)) (x1 : (⟨S12288x12288, .f32⟩ : BufTy).Contents (Elt Ideal)) (x2 : (⟨S64x64, .f32⟩ : BufTy).Contents (Elt Ideal)) (x3 x4 : (⟨S192x64, .f32⟩ : BufTy).Contents (Elt Ideal)) (x5 x6 : (⟨S192, .f32⟩ : BufTy).Contents (Elt Ideal)) (x7 : (⟨S64x64, .f32⟩ : BufTy).Contents (Elt Ideal)) :
    val_main_v42 (F := Ideal) x0 x1 x2 x3 x4 x5 x6 x7 = matProd x1 (val_main_v41 (F := Ideal) x0 x1 x2 x3 x4 x5 x6 x7) := by
  unfold val_main_v42
  exact dot_adj_eq x1 _

end Cert.ReferenceIdeal.RefStages

end
-- ==== Proof.Bridge.lean ====
/-
  The two programs side by side. Both apply the same host operations, in the same order, to the same twelve arguments;
  they differ only at the two products `adj · v`, which one program computes by a blocked accumulation and the other
  by one contraction over all 12288 columns. Given that each blocked accumulation leaves that product, the last
  buffer of the one program holds the result term of the other.
-/
import proofs.«173690_j65120294142423_1_alg».proof.Defs
import proofs.«173690_j65120294142423_1_alg».proof.Proof.Gen.KernelIdeal.Regions
import proofs.«173690_j65120294142423_1_alg».proof.Proof.RefStages

set_option maxRecDepth 16384

noncomputable section

namespace Cert.Bridge

open Idealize.ShloMosaic Idealize.ShloMosaic.TcCoe Idealize.SL.Sem Idealize.ShloMosaic.StableHlo
open Cert.ReferenceIdeal.RefStages (matProd val_main_v1_eq_matProd val_main_v42_eq_matProd)

open Cert.KernelIdeal Cert.KernelIdeal.Gen
open Cert.ReferenceIdeal.Read

/-- The first product's right operand, `x · W1`, is the same contraction in both programs. -/
theorem stage0 (W : Valuation τ sig (Elt Ideal)) :
    after hostOps0 W main_v0 = val_main_v0 (F := Ideal) (W main_arg0) (W main_arg2) := by
  after_results
  rfl

/-- The first recurrent layer, from the first product to the rectified hidden state: the same operations in both programs. -/
theorem layer1 (W : Valuation τ sig (Elt Ideal)) (x1 : (⟨S12288x12288, .f32⟩ : BufTy).Contents (Elt Ideal)) (x2 : (⟨S64x64, .f32⟩ : BufTy).Contents (Elt Ideal))
    (hv1 : W main_v1 = val_main_v1 (F := Ideal) (W main_arg0) x1 x2) :
    after hostOps1_1 (after hostOps1 W) main_v40
      = val_main_v40 (F := Ideal) (W main_arg0) x1 x2 (W main_arg3) (W main_arg4) (W main_arg5) (W main_arg6) := by
  after_results_simp
  rw [hv1]
  rfl

/-- The second product's right operand, `h · W2`: the same contraction in both programs. -/
theorem stage41 (W : Valuation τ sig (Elt Ideal)) (x0 : (⟨S12288x64, .f32⟩ : BufTy).Contents (Elt Ideal)) (x1 : (⟨S12288x12288, .f32⟩ : BufTy).Contents (Elt Ideal)) (x2 : (⟨S64x64, .f32⟩ : BufTy).Contents (Elt Ideal)) (x3 x4 : (⟨S192x64, .f32⟩ : BufTy).Contents (Elt Ideal)) (x5 x6 : (⟨S192, .f32⟩ : BufTy).Contents (Elt Ideal))
    (hv40 : W main_v40 = val_main_v40 (F := Ideal) x0 x1 x2 x3 x4 x5 x6) :
    after hostOps1_2 W main_v41 = val_main_v41 (F := Ideal) x0 x1 x2 x3 x4 x5 x6 (W main_arg7) := by
  after_results
  rw [hv40]
  rfl

/-- The second recurrent layer, from the second product to the rectified result: the same operations in both programs. -/
theorem layer2 (W : Valuation τ sig (Elt Ideal)) (x0 : (⟨S12288x64, .f32⟩ : BufTy).Contents (Elt Ideal)) (x1 : (⟨S12288x12288, .f32⟩ : BufTy).Contents (Elt Ideal)) (x2 : (⟨S64x64, .f32⟩ : BufTy).Contents (Elt Ideal)) (x3 x4 : (⟨S192x64, .f32⟩ : BufTy).Contents (Elt Ideal)) (x5 x6 : (⟨S192, .f32⟩ : BufTy).Contents (Elt Ideal)) (x7 : (⟨S64x64, .f32⟩ : BufTy).Contents (Elt Ideal))
    (hv40 : W main_v40 = val_main_v40 (F := Ideal) x0 x1 x2 x3 x4 x5 x6)
    (hv42 : W main_v42 = val_main_v42 (F := Ideal) x0 x1 x2 x3 x4 x5 x6 x7) :
    after hostOps2_1 (after hostOps2 W) main_v81
      = val_main_v81 (F := Ideal) x0 x1 x2 x3 x4 x5 x6 x7 (W main_arg8) (W main_arg9) (W main_arg10) (W main_arg11) := by
  after_results_simp
  rw [hv40, hv42]
  rfl

/-! ## The arguments, read off the buffers between the items -/

variable (m : (ℓ : Loc nD τ sig) → Buf (Elt Ideal) ℓ) (outs : Outs (F := Ideal)) (c : Dev nD)

/-- A buffer nothing has written before the first layer holds its launch contents there. -/
theorem V2_arg (r : Ref sig .tc) (h0 : r ∉ hostOps0_W) (h1 : r ∉ ([main_v1] : List (Ref sig .tc))) :
    V2 m outs c r = V0 m c r :=
  (V2_of m outs c r h1).trans (V1_of m c r h0)

/-- A buffer nothing has written before the second product's right operand is computed holds its launch contents there. -/
theorem V4_arg (r : Ref sig .tc) (h0 : r ∉ hostOps0_W) (h1 : r ∉ ([main_v1] : List (Ref sig .tc))) (h2 : r ∉ hostOps1_W) (h3 : r ∉ hostOps1_1_W) :
    V4 m outs c r = V0 m c r :=
  (V4_of m outs c r h3).trans <| (V3_of m outs c r h2).trans <| V2_arg m outs c r h0 h1

/-- A buffer nothing has written before the second product holds its launch contents there. -/
theorem V5_arg (r : Ref sig .tc) (h0 : r ∉ hostOps0_W) (h1 : r ∉ ([main_v1] : List (Ref sig .tc))) (h2 : r ∉ hostOps1_W) (h3 : r ∉ hostOps1_1_W) (h4 : r ∉ hostOps1_2_W) :
    V5 m outs c r = V0 m c r :=
  (V5_of m outs c r h4).trans <| V4_arg m outs c r h0 h1 h2 h3

/-- A buffer nothing has written before the second layer holds its launch contents there. -/
theorem V6_arg (r : Ref sig .tc) (h0 : r ∉ hostOps0_W) (h1 : r ∉ ([main_v1] : List (Ref sig .tc))) (h2 : r ∉ hostOps1_W) (h3 : r ∉ hostOps1_1_W) (h4 : r ∉ hostOps1_2_W) (h5 : r ∉ ([main_v42] : List (Ref sig .tc))) :
    V6 m outs c r = V0 m c r :=
  (V6_of m outs c r h5).trans <| V5_arg m outs c r h0 h1 h2 h3 h4

/-! ## The chain -/

/-- With each blocked accumulation leaving the product, the last buffer is the reference's last stage at the launch arguments. -/
theorem V8_main_v81
    (h1 : outs 2 main_v1 c = matProd (V1 m c main_arg1) (V1 m c main_v0))
    (h2 : outs 6 main_v42 c = matProd (V5 m outs c main_arg1) (V5 m outs c main_v41)) :
    V8 m outs c main_v81 = val_main_v81 (F := Ideal) (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg11) := by
  -- the first product
  have hv0 : V1 m c main_v0 = val_main_v0 (F := Ideal) (V0 m c main_arg0) (V0 m c main_arg2) := stage0 (V0 m c)
  have ho1 : outs 2 main_v1 c = val_main_v1 (F := Ideal) (V0 m c main_arg0) (V0 m c main_arg1) (V0 m c main_arg2) := by
    rw [h1, val_main_v1_eq_matProd, hv0, V1_of m c main_arg1 (by decide)]
  -- the first layer
  have hW1 : V2 m outs c main_v1 = val_main_v1 (F := Ideal) (V2 m outs c main_arg0) (V0 m c main_arg1) (V0 m c main_arg2) := by
    rw [V2_arg m outs c main_arg0 (by decide) (by decide)]
    exact (Function.update_self _ _ _).trans ho1
  have hv40 : V4 m outs c main_v40 = val_main_v40 (F := Ideal) (V0 m c main_arg0) (V0 m c main_arg1) (V0 m c main_arg2) (V0 m c main_arg3) (V0 m c main_arg4) (V0 m c main_arg5) (V0 m c main_arg6) := by
    have h := layer1 (V2 m outs c) (V0 m c main_arg1) (V0 m c main_arg2) hW1
    rwa [V2_arg m outs c main_arg0 (by decide) (by decide), V2_arg m outs c main_arg3 (by decide) (by decide),
      V2_arg m outs c main_arg4 (by decide) (by decide), V2_arg m outs c main_arg5 (by decide) (by decide),
      V2_arg m outs c main_arg6 (by decide) (by decide)] at h
  -- the second product
  have hv41 : V5 m outs c main_v41 = val_main_v41 (F := Ideal) (V0 m c main_arg0) (V0 m c main_arg1) (V0 m c main_arg2) (V0 m c main_arg3) (V0 m c main_arg4) (V0 m c main_arg5) (V0 m c main_arg6) (V0 m c main_arg7) := by
    have h := stage41 (V4 m outs c) (V0 m c main_arg0) (V0 m c main_arg1) (V0 m c main_arg2) (V0 m c main_arg3) (V0 m c main_arg4) (V0 m c main_arg5) (V0 m c main_arg6) hv40
    rwa [V4_arg m outs c main_arg7 (by decide) (by decide) (by decide) (by decide)] at h
  have ho2 : outs 6 main_v42 c = val_main_v42 (F := Ideal) (V0 m c main_arg0) (V0 m c main_arg1) (V0 m c main_arg2) (V0 m c main_arg3) (V0 m c main_arg4) (V0 m c main_arg5) (V0 m c main_arg6) (V0 m c main_arg7) := by
    rw [h2, val_main_v42_eq_matProd, hv41, V5_arg m outs c main_arg1 (by decide) (by decide) (by decide) (by decide) (by decide)]
  -- the second layer
  have hv40' : V6 m outs c main_v40 = val_main_v40 (F := Ideal) (V0 m c main_arg0) (V0 m c main_arg1) (V0 m c main_arg2) (V0 m c main_arg3) (V0 m c main_arg4) (V0 m c main_arg5) (V0 m c main_arg6) :=
    (V6_of m outs c main_v40 (by decide)).trans <| (V5_of m outs c main_v40 (by decide)).trans hv40
  have hv42' : V6 m outs c main_v42 = val_main_v42 (F := Ideal) (V0 m c main_arg0) (V0 m c main_arg1) (V0 m c main_arg2) (V0 m c main_arg3) (V0 m c main_arg4) (V0 m c main_arg5) (V0 m c main_arg6) (V0 m c main_arg7) :=
    (Function.update_self _ _ _).trans ho2
  have h := layer2 (V6 m outs c) (V0 m c main_arg0) (V0 m c main_arg1) (V0 m c main_arg2) (V0 m c main_arg3) (V0 m c main_arg4) (V0 m c main_arg5) (V0 m c main_arg6) (V0 m c main_arg7) hv40' hv42'
  rwa [V6_arg m outs c main_arg8 (by decide) (by decide) (by decide) (by decide) (by decide) (by decide),
    V6_arg m outs c main_arg9 (by decide) (by decide) (by decide) (by decide) (by decide) (by decide),
    V6_arg m outs c main_arg10 (by decide) (by decide) (by decide) (by decide) (by decide) (by decide),
    V6_arg m outs c main_arg11 (by decide) (by decide) (by decide) (by decide) (by decide) (by decide)] at h

/-- The last buffer of the blocked program is the other program's result term, from memories agreeing on the twelve
    arguments. -/
theorem main_v81_eq (m' : (ℓ : Loc Cert.ReferenceIdeal.nD Cert.ReferenceIdeal.τ Cert.ReferenceIdeal.sig) → Buf (Elt Ideal) ℓ)
    (hargs : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h1 : outs 2 Cert.KernelIdeal.main_v1 c = matProd (Cert.KernelIdeal.Gen.V1 m c Cert.KernelIdeal.main_arg1) (Cert.KernelIdeal.Gen.V1 m c Cert.KernelIdeal.main_v0))
    (h2 : outs 6 Cert.KernelIdeal.main_v42 c = matProd (Cert.KernelIdeal.Gen.V5 m outs c Cert.KernelIdeal.main_arg1) (Cert.KernelIdeal.Gen.V5 m outs c Cert.KernelIdeal.main_v41)) :
    Cert.KernelIdeal.Gen.V8 m outs c Cert.KernelIdeal.main_v81 = Cert.ReferenceIdeal.Value.res_main_v81 m' c := by
  obtain ⟨e0, e1, e2, e3, e4, e5, e6, e7, e8, e9, e10, e11⟩ := hargs
  rw [Cert.ReferenceIdeal.Read.val_main_v81_eq m' c, e0, e1, e2, e3, e4, e5, e6, e7, e8, e9, e10, e11]
  exact V8_main_v81 m outs c h1 h2

end Cert.Bridge

end
-- ==== Proof.Claims.lean ====
/- The five claims of this certificate. The three frame claims: the blocked program (as printed, and read on the
   extended reals) runs with every argument array ending as launched, because no host stretch and no region writes
   one; the other program is host operations only. No operation was rewritten between the printed program and its
   reading on the extended reals. The value claim: each of the two blocked accumulations over a 4 × 12 grid leaves in
   its result array the full product of the 12288 × 12288 matrix with the 12288 × 64 operand (twelve partial
   products of 1024 columns each, summed), which is what the other program's contraction computes; every other line
   is the same host operation in both programs. -/
import proofs.«173690_j65120294142423_1_alg».proof.Defs
import proofs.«173690_j65120294142423_1_alg».proof.Proof.KiLaunch
import proofs.«173690_j65120294142423_1_alg».proof.Proof.KbLaunch
import proofs.«173690_j65120294142423_1_alg».proof.Proof.KiR0Value
import proofs.«173690_j65120294142423_1_alg».proof.Proof.KiR1Value
import proofs.«173690_j65120294142423_1_alg».proof.Proof.Bridge
import proofs.«173690_j65120294142423_1_alg».proof.Proof.RefStages
import proofs.«173690_j65120294142423_1_alg».proof.Proof.Gen.ReferenceIdeal.Run
import proofs.«173690_j65120294142423_1_alg».proof.Proof.Gen.Pre_finite_inputs

noncomputable section

/-! ## The five claims -/

namespace Cert.Proof.Claims

open Idealize.ShloMosaic Idealize.ShloMosaic.TcCoe Idealize.SL.Sem

/-- The program as printed runs, and no host stretch or region writes an argument array: each ends as launched. -/
theorem frame_p : Cert.frame_Kernel := fun m ρ _ =>
  (θ_run Cert.Kernel.defs _ _).mono (fun r h c =>
    ⟨(h c _ (Cert.Kernel.Hand.mem_uc Cert.Kernel.main_arg0 (by decide))).trans (Cert.Kernel.Gen.V8_main_arg0 m (Cert.Kernel.Hand.outs m) c),
     (h c _ (Cert.Kernel.Hand.mem_uc Cert.Kernel.main_arg1 (by decide))).trans (Cert.Kernel.Gen.V8_main_arg1 m (Cert.Kernel.Hand.outs m) c),
     (h c _ (Cert.Kernel.Hand.mem_uc Cert.Kernel.main_arg2 (by decide))).trans (Cert.Kernel.Gen.V8_main_arg2 m (Cert.Kernel.Hand.outs m) c),
     (h c _ (Cert.Kernel.Hand.mem_uc Cert.Kernel.main_arg3 (by decide))).trans (Cert.Kernel.Gen.V8_main_arg3 m (Cert.Kernel.Hand.outs m) c),
     (h c _ (Cert.Kernel.Hand.mem_uc Cert.Kernel.main_arg4 (by decide))).trans (Cert.Kernel.Gen.V8_main_arg4 m (Cert.Kernel.Hand.outs m) c),
     (h c _ (Cert.Kernel.Hand.mem_uc Cert.Kernel.main_arg5 (by decide))).trans (Cert.Kernel.Gen.V8_main_arg5 m (Cert.Kernel.Hand.outs m) c),
     (h c _ (Cert.Kernel.Hand.mem_uc Cert.Kernel.main_arg6 (by decide))).trans (Cert.Kernel.Gen.V8_main_arg6 m (Cert.Kernel.Hand.outs m) c),
     (h c _ (Cert.Kernel.Hand.mem_uc Cert.Kernel.main_arg7 (by decide))).trans (Cert.Kernel.Gen.V8_main_arg7 m (Cert.Kernel.Hand.outs m) c),
     (h c _ (Cert.Kernel.Hand.mem_uc Cert.Kernel.main_arg8 (by decide))).trans (Cert.Kernel.Gen.V8_main_arg8 m (Cert.Kernel.Hand.outs m) c),
     (h c _ (Cert.Kernel.Hand.mem_uc Cert.Kernel.main_arg9 (by decide))).trans (Cert.Kernel.Gen.V8_main_arg9 m (Cert.Kernel.Hand.outs m) c),
     (h c _ (Cert.Kernel.Hand.mem_uc Cert.Kernel.main_arg10 (by decide))).trans (Cert.Kernel.Gen.V8_main_arg10 m (Cert.Kernel.Hand.outs m) c),
     (h c _ (Cert.Kernel.Hand.mem_uc Cert.Kernel.main_arg11 (by decide))).trans (Cert.Kernel.Gen.V8_main_arg11 m (Cert.Kernel.Hand.outs m) c)⟩)
    (Cert.Kernel.Hand.run_all (F := Bits) m ρ)

/-- The same for the program read on the extended reals. -/
theorem frame_pi : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Gen.V8_main_arg0 m (Cert.KernelIdeal.Hand.outs m) c),
     (h c _ (Cert.KernelIdeal.Hand.mem_uc Cert.KernelIdeal.main_arg1 (by decide))).trans (Cert.KernelIdeal.Gen.V8_main_arg1 m (Cert.KernelIdeal.Hand.outs m) c),
     (h c _ (Cert.KernelIdeal.Hand.mem_uc Cert.KernelIdeal.main_arg2 (by decide))).trans (Cert.KernelIdeal.Gen.V8_main_arg2 m (Cert.KernelIdeal.Hand.outs m) c),
     (h c _ (Cert.KernelIdeal.Hand.mem_uc Cert.KernelIdeal.main_arg3 (by decide))).trans (Cert.KernelIdeal.Gen.V8_main_arg3 m (Cert.KernelIdeal.Hand.outs m) c),
     (h c _ (Cert.KernelIdeal.Hand.mem_uc Cert.KernelIdeal.main_arg4 (by decide))).trans (Cert.KernelIdeal.Gen.V8_main_arg4 m (Cert.KernelIdeal.Hand.outs m) c),
     (h c _ (Cert.KernelIdeal.Hand.mem_uc Cert.KernelIdeal.main_arg5 (by decide))).trans (Cert.KernelIdeal.Gen.V8_main_arg5 m (Cert.KernelIdeal.Hand.outs m) c),
     (h c _ (Cert.KernelIdeal.Hand.mem_uc Cert.KernelIdeal.main_arg6 (by decide))).trans (Cert.KernelIdeal.Gen.V8_main_arg6 m (Cert.KernelIdeal.Hand.outs m) c),
     (h c _ (Cert.KernelIdeal.Hand.mem_uc Cert.KernelIdeal.main_arg7 (by decide))).trans (Cert.KernelIdeal.Gen.V8_main_arg7 m (Cert.KernelIdeal.Hand.outs m) c),
     (h c _ (Cert.KernelIdeal.Hand.mem_uc Cert.KernelIdeal.main_arg8 (by decide))).trans (Cert.KernelIdeal.Gen.V8_main_arg8 m (Cert.KernelIdeal.Hand.outs m) c),
     (h c _ (Cert.KernelIdeal.Hand.mem_uc Cert.KernelIdeal.main_arg9 (by decide))).trans (Cert.KernelIdeal.Gen.V8_main_arg9 m (Cert.KernelIdeal.Hand.outs m) c),
     (h c _ (Cert.KernelIdeal.Hand.mem_uc Cert.KernelIdeal.main_arg10 (by decide))).trans (Cert.KernelIdeal.Gen.V8_main_arg10 m (Cert.KernelIdeal.Hand.outs m) c),
     (h c _ (Cert.KernelIdeal.Hand.mem_uc Cert.KernelIdeal.main_arg11 (by decide))).trans (Cert.KernelIdeal.Gen.V8_main_arg11 m (Cert.KernelIdeal.Hand.outs m) c)⟩)
    (Cert.KernelIdeal.Hand.run_all (F := Ideal) m ρ)

/-- The other program is host operations only: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- What the first blocked product leaves in its result array is the full product of the two arrays it read. -/
theorem stage1 (m : (ℓ : Loc Cert.KernelIdeal.nD Cert.KernelIdeal.τ Cert.KernelIdeal.sig) → Buf (Elt Ideal) ℓ) (c : Dev Cert.KernelIdeal.nD) :
    Cert.KernelIdeal.Hand.outs m 2 Cert.KernelIdeal.main_v1 c
      = Cert.ReferenceIdeal.RefStages.matProd (Cert.KernelIdeal.Gen.V1 m c Cert.KernelIdeal.main_arg1) (Cert.KernelIdeal.Gen.V1 m c Cert.KernelIdeal.main_v0) :=
  (Cert.KernelIdeal.Hand.outs_v1 m c).trans ((Cert.KernelIdeal.Hand.arrAt0_2 (Cert.KernelIdeal.Hand.Ve0 m) c).trans rfl)

/-- The same for the second blocked product, over the buffers as the lines between the two calls leave them. -/
theorem stage2 (m : (ℓ : Loc Cert.KernelIdeal.nD Cert.KernelIdeal.τ Cert.KernelIdeal.sig) → Buf (Elt Ideal) ℓ) (c : Dev Cert.KernelIdeal.nD) :
    Cert.KernelIdeal.Hand.outs m 6 Cert.KernelIdeal.main_v42 c
      = Cert.ReferenceIdeal.RefStages.matProd (Cert.KernelIdeal.Gen.V5 m (Cert.KernelIdeal.Hand.outs m) c Cert.KernelIdeal.main_arg1) (Cert.KernelIdeal.Gen.V5 m (Cert.KernelIdeal.Hand.outs m) c Cert.KernelIdeal.main_v41) := by
  rw [Cert.KernelIdeal.Hand.V5_outs m c]
  exact (Cert.KernelIdeal.Hand.outs_v42 m c).trans ((Cert.KernelIdeal.Hand.arrAt1_2 (Cert.KernelIdeal.Hand.Ve1 m) c).trans rfl)

/-- On the extended reals, from memories agreeing on the twelve arguments, both programs run, leave the arguments as
    launched and end with the same result: each blocked accumulation leaves the full matrix product (`stage1`,
    `stage2`), the remaining host lines are the same operations in both programs. -/
theorem algebraic : Cert.algebraic_KernelIdeal_ReferenceIdeal := by
  intro m ρ m' ρ' _ hagree
  refine ⟨fun c => Cert.KernelIdeal.Gen.V8 m (Cert.KernelIdeal.Hand.outs m) c Cert.KernelIdeal.main_v81, ?_, ?_⟩
  · exact (θ_run Cert.KernelIdeal.defs _ _).mono (fun r h c =>
      ⟨h c _ (Cert.KernelIdeal.Hand.mem_uc Cert.KernelIdeal.main_v81 (by decide)),
       (h c _ (Cert.KernelIdeal.Hand.mem_uc Cert.KernelIdeal.main_arg0 (by decide))).trans (Cert.KernelIdeal.Gen.V8_main_arg0 m (Cert.KernelIdeal.Hand.outs m) c),
       (h c _ (Cert.KernelIdeal.Hand.mem_uc Cert.KernelIdeal.main_arg1 (by decide))).trans (Cert.KernelIdeal.Gen.V8_main_arg1 m (Cert.KernelIdeal.Hand.outs m) c),
       (h c _ (Cert.KernelIdeal.Hand.mem_uc Cert.KernelIdeal.main_arg2 (by decide))).trans (Cert.KernelIdeal.Gen.V8_main_arg2 m (Cert.KernelIdeal.Hand.outs m) c),
       (h c _ (Cert.KernelIdeal.Hand.mem_uc Cert.KernelIdeal.main_arg3 (by decide))).trans (Cert.KernelIdeal.Gen.V8_main_arg3 m (Cert.KernelIdeal.Hand.outs m) c),
       (h c _ (Cert.KernelIdeal.Hand.mem_uc Cert.KernelIdeal.main_arg4 (by decide))).trans (Cert.KernelIdeal.Gen.V8_main_arg4 m (Cert.KernelIdeal.Hand.outs m) c),
       (h c _ (Cert.KernelIdeal.Hand.mem_uc Cert.KernelIdeal.main_arg5 (by decide))).trans (Cert.KernelIdeal.Gen.V8_main_arg5 m (Cert.KernelIdeal.Hand.outs m) c),
       (h c _ (Cert.KernelIdeal.Hand.mem_uc Cert.KernelIdeal.main_arg6 (by decide))).trans (Cert.KernelIdeal.Gen.V8_main_arg6 m (Cert.KernelIdeal.Hand.outs m) c),
       (h c _ (Cert.KernelIdeal.Hand.mem_uc Cert.KernelIdeal.main_arg7 (by decide))).trans (Cert.KernelIdeal.Gen.V8_main_arg7 m (Cert.KernelIdeal.Hand.outs m) c),
       (h c _ (Cert.KernelIdeal.Hand.mem_uc Cert.KernelIdeal.main_arg8 (by decide))).trans (Cert.KernelIdeal.Gen.V8_main_arg8 m (Cert.KernelIdeal.Hand.outs m) c),
       (h c _ (Cert.KernelIdeal.Hand.mem_uc Cert.KernelIdeal.main_arg9 (by decide))).trans (Cert.KernelIdeal.Gen.V8_main_arg9 m (Cert.KernelIdeal.Hand.outs m) c),
       (h c _ (Cert.KernelIdeal.Hand.mem_uc Cert.KernelIdeal.main_arg10 (by decide))).trans (Cert.KernelIdeal.Gen.V8_main_arg10 m (Cert.KernelIdeal.Hand.outs m) c),
       (h c _ (Cert.KernelIdeal.Hand.mem_uc Cert.KernelIdeal.main_arg11 (by decide))).trans (Cert.KernelIdeal.Gen.V8_main_arg11 m (Cert.KernelIdeal.Hand.outs m) c)⟩)
      (Cert.KernelIdeal.Hand.run_all (F := Ideal) m ρ)
  · exact (θ_run Cert.ReferenceIdeal.defs _ _).mono (fun r h c =>
      ⟨(h c).1.trans (Cert.Bridge.main_v81_eq (m := m) (outs := Cert.KernelIdeal.Hand.outs m) (c := c) (m' := m') (hargs := hagree c)
          (h1 := stage1 m c) (h2 := stage2 m c)).symm, (h c).2⟩)
      (Cert.ReferenceIdeal.Value.run (F := Ideal) m' ρ')

end Cert.Proof.Claims

end
-- ==== Proof.lean ====
/- The proof of `Cert.Claim`: the witnesses of the programs' stated side conditions, then the five claims, each proved
   in Proof/Claims.lean — the three frame claims from the runs of the two blocked programs and of the host-only program,
   the idealization that rewrote nothing, and the equality of the two results on the extended reals (each blocked
   accumulation leaves the full matrix product; the host lines around them are the same in both programs). -/
import proofs.«173690_j65120294142423_1_alg».proof.Defs
import proofs.«173690_j65120294142423_1_alg».proof.Proof.Claims
import proofs.«173690_j65120294142423_1_alg».proof.Proof.Gen.Kernel
import proofs.«173690_j65120294142423_1_alg».proof.Proof.Gen.KernelIdeal
import proofs.«173690_j65120294142423_1_alg».proof.Proof.Gen.ReferenceIdeal
import proofs.«173690_j65120294142423_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
